-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16384x512 .f32) (main_arg1 : FVec F S16384x16384 .f32) (main_arg2 : FVec F S512x1024 .f32) (main_arg3 : FVec F S1024 .f32) (main_arg4 : FVec F S1024x256 .f32) (main_arg5 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x512 : Shape := ⟨2, ![16384, 512]⟩
abbrev S16384x16384 : Shape := ⟨2, ![16384, 16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x256 : Shape := ⟨2, ![1, 256]⟩
abbrev S_ : Shape := ⟨0, ![]⟩
abbrev S16384x1024 : Shape := ⟨2, ![16384, 1024]⟩
abbrev S1024x512 : Shape := ⟨2, ![1024, 512]⟩
abbrev S1024x1024 : Shape := ⟨2, ![1024, 1024]⟩
abbrev S16384x256 : Shape := ⟨2, ![16384, 256]⟩

abbrev nBuf : Space → Nat
  | .hbm => 16
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1x1024, .f32⟩
  | .hbm, ⟨7, _⟩ => ⟨S1x256, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S1x256, .f32⟩
  | .hbm, ⟨12, _⟩ => ⟨S16384x1024, .f32⟩
  | .hbm, ⟨13, _⟩ => ⟨S16384x1024, .f32⟩
  | .hbm, ⟨14, _⟩ => ⟨S16384x256, .f32⟩
  | .hbm, ⟨15, _⟩ => ⟨S16384x256, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x256, .f32⟩
  | .local _ .vmem, ⟨18, _⟩ => ⟨S1x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x1024, .f32⟩
  | .local _ .vmem, ⟨23, _⟩ => ⟨S1024x1024, .f32⟩
  | .local _ .vmem, ⟨24, _⟩ => ⟨S1024x256, .f32⟩
  | .local _ .vmem, ⟨25, _⟩ => ⟨S1024x256, .f32⟩
  | .local _ .vmem, ⟨26, _⟩ => ⟨S1x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 1, 16], ![false, false, false]⟩

def k3_cond2 (i : grid3.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S1024_S1x1024 : S1024.ShapeCasts S1x1024
  shapeCasts_S256_S1x256 : S256.ShapeCasts S1x256
  bcast_S_S1x1024 : S_.BroadcastsInDim S1x1024 (![] : Fin 0 → Fin S1x1024.rank)
  bcast_S_S1x256 : S_.BroadcastsInDim S1x256 (![] : Fin 0 → Fin S1x256.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x16384.size a
  hwx1_0 : ∀ i : grid1.Coords, EltTy.bits .f32 = 32 ∨ (Rect.block (s := S16384x16384) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x1024.size a
  hwx1_1 : ∀ i : grid1.Coords, EltTy.bits .f32 = 32 ∨ (Rect.block (s := S16384x1024) S1024x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S16384x256.size a
  hwx2_3 : ∀ i : grid2.Coords, EltTy.bits .f32 = 32 ∨ (Rect.block (s := S16384x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x16384.size a
  hwx3_0 : ∀ i : grid3.Coords, EltTy.bits .f32 = 32 ∨ (Rect.block (s := S16384x16384) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S16384x256.size a
  hwx3_1 : ∀ i : grid3.Coords, EltTy.bits .f32 = 32 ∨ (Rect.block (s := S16384x256) S1024x256.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S16384x256.size a
  hwx3_3 : ∀ i : grid3.Coords, EltTy.bits .f32 = 32 ∨ (Rect.block (s := S16384x256) S1024x256.size (cc3_transform_3 i) (hinb3_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x256.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S16384x1024 : Shape := ⟨2, ![16384, 1024]⟩
abbrev S1x1024 : Shape := ⟨2, ![1, 1024]⟩
abbrev S_ : Shape := ⟨0, ![]⟩
abbrev S16384x256 : Shape := ⟨2, ![16384, 256]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x256, .f32⟩
  | .hbm, ⟨15, _⟩ => ⟨S16384x256, .f32⟩
  | .hbm, ⟨16, _⟩ => ⟨S1x256, .f32⟩
  | .hbm, ⟨17, _⟩ => ⟨S16384x256, .f32⟩
  | .hbm, ⟨18, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x512_S512x1024_S16384x1024_1_0_0_1_n_n_wf : DotDims.WF S16384x512 S512x1024 S16384x1024 [1] [0] [0] [1] [] []
  dot_S16384x16384_S16384x1024_S16384x1024_1_0_0_1_n_n_wf : DotDims.WF S16384x16384 S16384x1024 S16384x1024 [1] [0] [0] [1] [] []
  dot_S16384x1024_S1024x256_S16384x256_1_0_0_1_n_n_wf : DotDims.WF S16384x1024 S1024x256 S16384x256 [1] [0] [0] [1] [] []
  dot_S16384x16384_S16384x256_S16384x256_1_0_0_1_n_n_wf : DotDims.WF S16384x16384 S16384x256 S16384x256 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x16384_S16384x1024_S16384x1024_1_0_0_1_n_n : DotDims S16384x16384 S16384x1024 S16384x1024 where
  lhsContracting := [1]
  rhsContracting := [0]
  lhsNonContracting := [0]
  rhsNonContracting := [1]
  lhsBatch := []
  rhsBatch := []
  wf := dot_S16384x16384_S16384x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.Bits.Whole.lean ====
/-
  The whole program @main of the kernel: six host operations, then four kernel regions in a row
  (S1 = x·W1 into main_v4, h = max(adj·S1 + b1, 0) into main_v5, S2 = h·W2 into main_v6,
  out = adj·S2 + b2 into main_v7).  This module runs the four regions one after the other over the
  valuations V1 … V5 of the unscoped buffers and NAMES THE RESULT: at the end main_v7 holds what the
  last valuation says, and every argument array is as launched.
-/
import proofs.«157708_j82497731822002_1_alg».proof.Proof.Gen.Kernel.Regions
import Idealize.ShloMosaic.Lib.Pipeline.RegionsLoop

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-! ## The run of the four regions, with the result buffer read at the end -/

variable (m : (ℓ : Loc nD τ sig) → Buf (Elt F) ℓ)

-- the launch theorem's implicit arguments are found by unifying its conclusion with this one, which unfolds plain
-- definitions inside a metavariable's type
set_option backward.isDefEq.respectTransparency.types false in
/-- The four regions in a row.  Given, for each region K, a segment record entered from "the unscoped buffers held
    at V(K+1), beside the rest E K" and left at "held at V(K+2), beside E (K+1)", every weakly fair execution of
    @main from memory `m` terminates, and in every final memory the result buffer main_v7 holds `V5 m outs c main_v7`
    (what the last region left there) while each of the six argument arrays still holds its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c)) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m 𝒱₀ L lv E ι pdats R0 R1 R2 R3)
    (fun c Q => by
      rewrite [main_chain c, Seg.run_eq_chain,
        show (segs m 𝒱₀ L lv E ι pdats R0 R1 R2 R3 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, (hpost0 c).trans (hpre1 c), (hpost1 c).trans (hpre2 c), (hpost2 c).trans (hpre3 c), (hpost3 c).trans (sep_mono .rfl (hE4 c))⟩)
    (hinit := ?_) (QY := fun c s => s.mem ((c.tc : Thread nD τ).loc main_v7) = V5 m outs c main_v7 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- at the launch the unscoped buffers are held at V0; what remains of the launch state makes E 0 on all cores at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation: the result buffer as it stands there, each
    -- argument through the chain "no item writes it"
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c)⟩
    · iexact HSI

/-- The last valuation at the result buffer: what region 3 left in main_v7. -/
theorem V5_main_v7 (outs : Outs (F := F)) (c : Dev nD) : V5 m outs c main_v7 = outs 5 main_v7 c := by
  simp only [V5, Function.update_self]

/-! ## Each region as a segment of the run

Between two items core `c` holds every unscoped buffer whole, at a valuation, beside a rest that rides through every
item untouched: the core's generator register at some state, and the core owing nothing.  A region's proof data
enter here only through eight facts (the entry contents of its arrays, full shares, nothing owed at its cells, the
body obligation, its invariant at the two ends, its arrays' final contents, the other buffers unchanged). -/

section Segments

local notation "𝕄" => MT nD τ sig Unit (Elt F) ℕ (UR sig nD τ) ℕ

/-- What rides beside the unscoped buffers through every item: the generator register at some state, nothing owed. -/
abbrev Rest (c : Dev nD) : sProp 𝕄 :=
  iprop((∃ r, prngReg c r) ∗ ∃ W, owes (c : Thread nD τ) (0 : CellTallies nD τ sig Unit) W)

set_option backward.isDefEq.respectTransparency.types false in
/-- REGION 0 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg0
    (pdats : (p : Fin 4) → (c : Dev nD) → Dat τ (Elt F) Unit ℕ (UR sig nD τ) ℕ (cfgs p) c)
    (V V' : Dev nD → Valuation τ sig (Elt F))
    (hA : ∀ c w, (pdats 0 c).A w = V c (Pipeline.arrRef spec0 w))
    (hshare : ∀ c w, (pdats 0 c).share w = fullShare) (howed : ∀ c t, (pdats 0 c).owed t = 0)
    (hrec : ∀ c, (pdats 0 c).recorded 0 = Set.univ)
    (hbody : ∀ c, Pipeline.BodyObligationLoose (pdats 0 c) defs₀ Variants.none () Set.univ)
    (hΦin : ∀ c, Pipeline.ΦA spec0 c ⊢ (pdats 0 c).Φ 0)
    (hΦout : ∀ c, (pdats 0 c).Φ (Fin.last cfg0.N) ⊢ Pipeline.ΦA spec0 c)
    (hF : ∀ c w, (pdats 0 c).arrAt w cfg0.N = V' c (Pipeline.arrRef spec0 w))
    (hrest : ∀ c b, b ∉ Finset.univ.image (Pipeline.arrRef spec0) → V' c b = V c b) :
    Pipeline.RegionSeg (pcfgs (F := F)) adm pdats () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody := hbody
  hwaits := Pipeline.hwaits_of_owed_zero _ _ _ _ (fun _ => ∅) (fun _ _ => 0) 0 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm pdats launch0.win launch0.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c pdats (hshare c)
      (fun b => V c b) (fun b => V' c b) ((pdats 0 c).arrAt · cfg0.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 1 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg1
    (pdats : (p : Fin 4) → (c : Dev nD) → Dat τ (Elt F) Unit ℕ (UR sig nD τ) ℕ (cfgs p) c)
    (V V' : Dev nD → Valuation τ sig (Elt F))
    (hA : ∀ c w, (pdats 1 c).A w = V c (Pipeline.arrRef spec1 w))
    (hshare : ∀ c w, (pdats 1 c).share w = fullShare) (howed : ∀ c t, (pdats 1 c).owed t = 0)
    (hrec : ∀ c, (pdats 1 c).recorded 0 = Set.univ)
    (hbody : ∀ c, Pipeline.BodyObligationLoose (pdats 1 c) defs₀ Variants.none () Set.univ)
    (hΦin : ∀ c, Pipeline.ΦA spec1 c ⊢ (pdats 1 c).Φ 0)
    (hΦout : ∀ c, (pdats 1 c).Φ (Fin.last cfg1.N) ⊢ Pipeline.ΦA spec1 c)
    (hF : ∀ c w, (pdats 1 c).arrAt w cfg1.N = V' c (Pipeline.arrRef spec1 w))
    (hrest : ∀ c b, b ∉ Finset.univ.image (Pipeline.arrRef spec1) → V' c b = V c b) :
    Pipeline.RegionSeg (pcfgs (F := F)) adm pdats () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody := hbody
  hwaits := Pipeline.hwaits_of_owed_zero _ _ _ _ (fun _ => ∅) (fun _ _ => 0) 1 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs (p := 1) (pcfgs (F := F)) adm pdats launch1.win launch1.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c pdats (hshare c)
      (fun b => V c b) (fun b => V' c b) ((pdats 1 c).arrAt · cfg1.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 2 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg2
    (pdats : (p : Fin 4) → (c : Dev nD) → Dat τ (Elt F) Unit ℕ (UR sig nD τ) ℕ (cfgs p) c)
    (V V' : Dev nD → Valuation τ sig (Elt F))
    (hA : ∀ c w, (pdats 2 c).A w = V c (Pipeline.arrRef spec2 w))
    (hshare : ∀ c w, (pdats 2 c).share w = fullShare) (howed : ∀ c t, (pdats 2 c).owed t = 0)
    (hrec : ∀ c, (pdats 2 c).recorded 0 = Set.univ)
    (hbody : ∀ c, Pipeline.BodyObligationLoose (pdats 2 c) defs₀ Variants.none () Set.univ)
    (hΦin : ∀ c, Pipeline.ΦA spec2 c ⊢ (pdats 2 c).Φ 0)
    (hΦout : ∀ c, (pdats 2 c).Φ (Fin.last cfg2.N) ⊢ Pipeline.ΦA spec2 c)
    (hF : ∀ c w, (pdats 2 c).arrAt w cfg2.N = V' c (Pipeline.arrRef spec2 w))
    (hrest : ∀ c b, b ∉ Finset.univ.image (Pipeline.arrRef spec2) → V' c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody := hbody
  hwaits := Pipeline.hwaits_of_owed_zero _ _ _ _ (fun _ => ∅) (fun _ _ => 0) 2 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c pdats (hshare c)
      (fun b => V c b) (fun b => V' c b) ((pdats 2 c).arrAt · cfg2.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 3 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg3
    (pdats : (p : Fin 4) → (c : Dev nD) → Dat τ (Elt F) Unit ℕ (UR sig nD τ) ℕ (cfgs p) c)
    (V V' : Dev nD → Valuation τ sig (Elt F))
    (hA : ∀ c w, (pdats 3 c).A w = V c (Pipeline.arrRef spec3 w))
    (hshare : ∀ c w, (pdats 3 c).share w = fullShare) (howed : ∀ c t, (pdats 3 c).owed t = 0)
    (hrec : ∀ c, (pdats 3 c).recorded 0 = Set.univ)
    (hbody : ∀ c, Pipeline.BodyObligationLoose (pdats 3 c) defs₀ Variants.none () Set.univ)
    (hΦin : ∀ c, Pipeline.ΦA spec3 c ⊢ (pdats 3 c).Φ 0)
    (hΦout : ∀ c, (pdats 3 c).Φ (Fin.last cfg3.N) ⊢ Pipeline.ΦA spec3 c)
    (hF : ∀ c w, (pdats 3 c).arrAt w cfg3.N = V' c (Pipeline.arrRef spec3 w))
    (hrest : ∀ c b, b ∉ Finset.univ.image (Pipeline.arrRef spec3) → V' c b = V c b) :
    Pipeline.RegionSeg (pcfgs (F := F)) adm pdats () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody := hbody
  hwaits := Pipeline.hwaits_of_owed_zero _ _ _ _ (fun _ => ∅) (fun _ _ => 0) 3 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec3 c (fun b => V c b)
  hentry c := by
    rw [Pipeline.ownSems0_none]
    have hsplit := Pipeline.arrays_of_unscopedBufs (p := 3) (pcfgs (F := F)) adm pdats launch3.win launch3.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c pdats (hshare c)
      (fun b => V c b) (fun b => V' c b) ((pdats 3 c).arrAt · cfg3.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

/-! ## The whole run from the four regions' facts -/

/-- THE RUN, from the regions' proof data.  Given proof data for the four pipelines and, for each region K, its nine
    facts between the valuations V(K+1) and V(K+2) (its arrays enter at V(K+1), leave at V(K+2), and nothing else
    changes), every weakly fair execution of @main from memory `m` terminates; at the end main_v7 holds
    `V5 m outs c main_v7` and every argument array is as launched.  The launch owes nothing, names no level, and keeps
    of what it deals only the generator register and the (empty) debt: that is the rest `Rest` every item carries. -/
theorem run_of_regions (ρ : Dev nD → PrngReg) (outs : Outs (F := F))
    (pdats : (p : Fin 4) → (c : Dev nD) → Dat τ (Elt F) Unit ℕ (UR sig nD τ) ℕ (cfgs p) c)
    (hA0 : ∀ c w, (pdats 0 c).A w = V1 m c (Pipeline.arrRef spec0 w))
    (hshare0 : ∀ c w, (pdats 0 c).share w = fullShare) (howed0 : ∀ c t, (pdats 0 c).owed t = 0)
    (hrec0 : ∀ c, (pdats 0 c).recorded 0 = Set.univ)
    (hbody0 : ∀ c, Pipeline.BodyObligationLoose (pdats 0 c) defs₀ Variants.none () Set.univ)
    (hΦin0 : ∀ c, Pipeline.ΦA spec0 c ⊢ (pdats 0 c).Φ 0)
    (hΦout0 : ∀ c, (pdats 0 c).Φ (Fin.last cfg0.N) ⊢ Pipeline.ΦA spec0 c)
    (hF0 : ∀ c w, (pdats 0 c).arrAt w cfg0.N = V2 m outs c (Pipeline.arrRef spec0 w))
    (hrest0 : ∀ c b, b ∉ Finset.univ.image (Pipeline.arrRef spec0) → V2 m outs c b = V1 m c b)
    (hA1 : ∀ c w, (pdats 1 c).A w = V2 m outs c (Pipeline.arrRef spec1 w))
    (hshare1 : ∀ c w, (pdats 1 c).share w = fullShare) (howed1 : ∀ c t, (pdats 1 c).owed t = 0)
    (hrec1 : ∀ c, (pdats 1 c).recorded 0 = Set.univ)
    (hbody1 : ∀ c, Pipeline.BodyObligationLoose (pdats 1 c) defs₀ Variants.none () Set.univ)
    (hΦin1 : ∀ c, Pipeline.ΦA spec1 c ⊢ (pdats 1 c).Φ 0)
    (hΦout1 : ∀ c, (pdats 1 c).Φ (Fin.last cfg1.N) ⊢ Pipeline.ΦA spec1 c)
    (hF1 : ∀ c w, (pdats 1 c).arrAt w cfg1.N = V3 m outs c (Pipeline.arrRef spec1 w))
    (hrest1 : ∀ c b, b ∉ Finset.univ.image (Pipeline.arrRef spec1) → V3 m outs c b = V2 m outs c b)
    (hA2 : ∀ c w, (pdats 2 c).A w = V3 m outs c (Pipeline.arrRef spec2 w))
    (hshare2 : ∀ c w, (pdats 2 c).share w = fullShare) (howed2 : ∀ c t, (pdats 2 c).owed t = 0)
    (hrec2 : ∀ c, (pdats 2 c).recorded 0 = Set.univ)
    (hbody2 : ∀ c, Pipeline.BodyObligationLoose (pdats 2 c) defs₀ Variants.none () Set.univ)
    (hΦin2 : ∀ c, Pipeline.ΦA spec2 c ⊢ (pdats 2 c).Φ 0)
    (hΦout2 : ∀ c, (pdats 2 c).Φ (Fin.last cfg2.N) ⊢ Pipeline.ΦA spec2 c)
    (hF2 : ∀ c w, (pdats 2 c).arrAt w cfg2.N = V4 m outs c (Pipeline.arrRef spec2 w))
    (hrest2 : ∀ c b, b ∉ Finset.univ.image (Pipeline.arrRef spec2) → V4 m outs c b = V3 m outs c b)
    (hA3 : ∀ c w, (pdats 3 c).A w = V4 m outs c (Pipeline.arrRef spec3 w))
    (hshare3 : ∀ c w, (pdats 3 c).share w = fullShare) (howed3 : ∀ c t, (pdats 3 c).owed t = 0)
    (hrec3 : ∀ c, (pdats 3 c).recorded 0 = Set.univ)
    (hbody3 : ∀ c, Pipeline.BodyObligationLoose (pdats 3 c) defs₀ Variants.none () Set.univ)
    (hΦin3 : ∀ c, Pipeline.ΦA spec3 c ⊢ (pdats 3 c).Φ 0)
    (hΦout3 : ∀ c, (pdats 3 c).Φ (Fin.last cfg3.N) ⊢ Pipeline.ΦA spec3 c)
    (hF3 : ∀ c w, (pdats 3 c).arrAt w cfg3.N = V5 m outs c (Pipeline.arrRef spec3 w))
    (hrest3 : ∀ c b, b ∉ Finset.univ.image (Pipeline.arrRef spec3) → V5 m outs c b = V4 m outs c b) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m (Ix := Unit) (U := UR sig nD τ) (Lvl := ℕ) emb₁ () Variants.none (fun _ => ∅) (fun _ _ => 0) (fun _ _ => rfl) ρ outs pdats
    (fun _ => 0) (fun _ => iprop(emp)) (initOf (Pipeline.cells cfgs cellOf_inj) (Pipeline.launchToks cfgs cellOf_inj))
    (by
      -- the launch element is the pipelines' own, whole; no further ghost resource is dealt
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest c)
    (by
      -- of what the launch deals on a core, the generator register and the empty debt are kept
      have hcore : ∀ c : Dev nD, iprop(unscopedSems0 c ∗ owes (c : Thread nD τ) (0 : CellTallies nD τ sig Unit) ∅
            ∗ Pipeline.launchCred (fun _ : Dev nD => (0 : CellTallies nD τ sig Unit)) c ∗ prngReg c (ρ c) ∗ emp) ⊢ (Rest c : sProp 𝕄) := fun c => by
        iintro ⟨-, Howe, -, Hreg, -⟩
        isplitl [Hreg]; · iexists (ρ c); iexact Hreg
        iexists ∅; iexact Howe
      have hall : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ emp))
          ⊢ (bigSep Finset.univ (fun c : Dev nD => Rest c) : sProp 𝕄) := bigSep_mono fun c _ => hcore c
      iintro ⟨H, -⟩
      imodintro
      ihave H' := hall $$ H
      iexact H')
    (fun c => by iintro ⟨-, Howe⟩; iexact Howe)
    (reg0 pdats (V1 m) (V2 m outs) hA0 hshare0 howed0 hrec0 hbody0 hΦin0 hΦout0 hF0 hrest0) (fun _ => .rfl) (fun _ => .rfl)
    (reg1 pdats (V2 m outs) (V3 m outs) hA1 hshare1 howed1 hrec1 hbody1 hΦin1 hΦout1 hF1 hrest1) (fun _ => .rfl) (fun _ => .rfl)
    (reg2 pdats (V3 m outs) (V4 m outs) hA2 hshare2 howed2 hrec2 hbody2 hΦin2 hΦout2 hF2 hrest2) (fun _ => .rfl) (fun _ => .rfl)
    (reg3 pdats (V4 m outs) (V5 m outs) hA3 hshare3 howed3 hrec3 hbody3 hΦin3 hΦout3 hF3 hrest3) (fun _ => .rfl) (fun _ => .rfl)

end Segments

end Cert.Kernel.Whole

end
-- ==== Proof.Bits.Proj1.lean ====
/-
  The first projection, `S1 = x · W1`, as the first of the program's four kernel regions.

  The grid walks the 16 blocks of 1024 rows of `x`; the contraction axis (512) is one block, so every grid point is both
  the first and the last step of its row block: the body zeroes the accumulator, adds the product of the point's
  1024 × 512 block of `x` with the whole 512 × 1024 `W1` to it, and copies the accumulator into the output block. So the
  output block after a point is `acc0 + xblock · W1` with `acc0` the zero accumulator, whatever the accumulator held
  before; the bias operand (a row of zeros) is staged and never read.

  Stated here, for any value family: the blocks the body finds, what it leaves, the body's triple, and the region's
  proof data with its obligation, over the buffer contents `V` the region is entered at.
-/
import proofs.«157708_j82497731822002_1_alg».proof.Proof.Gen.Kernel.Launch
import proofs.«157708_j82497731822002_1_alg».proof.Proof.Gen.Kernel.Skeleton
import proofs.«157708_j82497731822002_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Proj1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid0.Coords) : Prop :=
  (Scalar.cmpi .ne (Scalar.extui (Scalar.cmpi .eq (BitVec.ofNat 32 (i 2).val) 0#32)) 0#32) = 1#1
/-- "This is the last step along the contraction axis", as the body computes it. -/
abbrev lastStep (i : grid0.Coords) : Prop := k0_cond2 i = 1#1

/-- The contraction axis has one block: every point is a first step, -/
theorem firstStep_all : ∀ t : Fin cfg0.N, firstStep (grid0.coords t) :=
  (by decide +kernel : ∀ t : Fin grid0.N, firstStep (grid0.coords t))
/-- and a last step; -/
theorem lastStep_all : ∀ t : Fin cfg0.N, lastStep (grid0.coords t) :=
  (by decide +kernel : ∀ t : Fin grid0.N, lastStep (grid0.coords t))
/-- so the output window is live at every point. -/
theorem live_out : ∀ t : Fin cfg0.N, cfg0.idle 3 (grid0.coords t) = false :=
  (by decide +kernel : ∀ t : Fin grid0.N, idle0 3 (grid0.coords t) = false)

/-! ## The blocks, and what the body leaves -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block of a point: the zero accumulator plus the product of the point's rows of `x` with `W1`. -/
def rowsTimes (x0 : Vec F S1024x512 .f32) (x1 : Vec F S512x1024 .f32) : Vec F S1024x1024 .f32 :=
  k0_pay2 x0 x1 (k0_pay1 (F := F))

/-- The whole-buffer rectangles start at the origin. -/
theorem z_acc : (![0, 0] : Fin S1024x1024.rank → Nat) = fun _ => 0 := by
  funext a; match a with | ⟨0, _⟩ => rfl | ⟨1, _⟩ => rfl
theorem z_x : (![0, 0] : Fin S1024x512.rank → Nat) = fun _ => 0 := by
  funext a; match a with | ⟨0, _⟩ => rfl | ⟨1, _⟩ => rfl
theorem z_w : (![0, 0] : Fin S512x1024.rank → Nat) = fun _ => 0 := by
  funext a; match a with | ⟨0, _⟩ => rfl | ⟨1, _⟩ => rfl

/-! ## The body's triple -/

set_option maxHeartbeats 1000000 in
/-- On whole staging memrefs — the two inputs at contents `x0`, `x1`, the output's and the accumulator's at anything — the
    body at a point that is both a first and a last step runs to the continuation with the inputs as they were, the
    output at `rowsTimes x0 x1` and the accumulator at some contents. The bias memref is not touched. -/
theorem sound_kernel (c : Dev nD) (E : Set ℕ) (i : grid0.Coords) (h1 : firstStep i) (h2 : lastStep i)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S512x1024 .f32) (K : PUnit → sProp 𝕄) :
    iprop(owns (c : Thread nD τ) arg3 fullShare x0 ∗ owns (c : Thread nD τ) arg4 fullShare x1
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg6 fullShare (rowsTimes x0 x1)
            ∗ (∃ d, owns (c : Thread nD τ) arg7 fullShare d)) -∗ K ⟨⟩))
      ⊢ wp frame (wpE (defs₀ (F := F)) Variants.none c none) E
          (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [View.read_writes_eq_canon _ _ _ (fun y => ⟨_, List.mem_singleton_self _, View.mem_set_unit_zero z_acc inb_S1024x1024_S1024x1024_0_0 y⟩),
      View.canon_unit_zero z_acc]
    sl_unfold_run_names
    rw [View.readCov_unit_zero (Val := Elt F) arg7.view z_acc inb_S1024x1024_S1024x1024_0_0,
      View.readCov_eq_canon_ld _ _ _ (fun y => ⟨_, List.Mem.head _, View.mem_set_unit_zero z_acc inb_S1024x1024_S1024x1024_0_0 y⟩),
      View.canon_cons_unit_zero z_acc, View.ld_unit_zero z_acc,
      View.readAt_eq_ld, View.readAt_eq_ld, View.ld_unit_zero z_x, View.ld_unit_zero z_w]
    rfl
  · iexists _, _; isplitr
    swap; · iexact H7
    ipureintro; rfl

/-! ## The region's proof data -/

/-- The proof data of this pipeline on core `c`: the arrays as the region finds them; after the body at a point each
    input's buffer still at its block, the output's at the product of the point's blocks; the invariant the class's
    (the scratch and the generator register at anything: the accumulator is reset at every point); full shares,
    nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => rowsTimes (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = rowsTimes (blk V c 0 t) (blk V c 1 t) := by dsimp only [dat]

/-- An input's staging buffer holds its block at every point, fetched there or not: the body leaves it in place and
    an unfetched window's block index has not moved. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The class invariant with this region's accumulator taken out -/

/-- The accumulator's buffer, whole. -/
abbrev accM : Memref sig .tc .vmem S1024x1024 .f32 := Memref.whole cc0_scratch0

/-- The class invariant is the accumulator at some contents, the other scoped buffers that are no staging buffer of
    this region at some contents each, and the generator register at some state. -/
theorem PhiA_split (c : Dev nD) :
    (Pipeline.ΦA spec0 c : sProp 𝕄)
      = iprop(((∃ d, owns (c : Thread nD τ) accM fullShare d)
          ∗ Pipeline.scopedRestBut (Ix := Unit) (Name := ℕ) (U := UR sig nD τ) (Lvl := ℕ) (Val := Elt F) spec0 c [cc0_scratch0])
          ∗ ∃ r, prngReg c r) := by
  unfold Pipeline.ΦA
  rw [Pipeline.scopedRest_split_of_list spec0 c [cc0_scratch0] (by decide) (by decide)]
  simp only [bigSepL_singleton, accM, owns_whole]
  rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point: the inputs' memrefs hold their blocks, the accumulator comes out of the invariant at some
    contents and goes back at some contents, the bias buffer, the invariant's rest and the core's `owes` pass through
    unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).leavesExact 0 t = owns (c : Thread nD τ) (st0_0 t) fullShare ((dat V c).after 0 t) from rfl,
    show (dat V c).leavesExact 1 t = owns (c : Thread nD τ) (st0_1 t) fullShare ((dat V c).after 1 t) from rfl,
    show (dat V c).leavesExact 2 t = owns (c : Thread nD τ) (st0_2 t) fullShare ((dat V c).after 2 t) from rfl,
    show (dat V c).leavesExact 3 t = owns (c : Thread nD τ) (st0_3 t) fullShare ((dat V c).after 3 t) from by
      unfold Dat.leavesExact; rw [live_out t],
    show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec0 c from rfl, PhiA_split]
  iintro ⟨⟨⟨HS, HR⟩, Hg⟩, Ho, ⟨%d0, H0⟩, ⟨%d1, H1⟩, ⟨%d2, H2⟩, ⟨%d3, H3⟩⟩
  iapply (sound_kernel c Set.univ (grid0.coords t) (firstStep_all t) (lastStep_all t) _ _ _ _ _ _ _ _ _ _
    (blk V c 0 t) (blk V c 1 t) _)
  isplitl [H0]; · iexact H0
  isplitl [H1]; · iexact H1
  isplitl [H3]; · iexists _; iexact H3
  isplitl [HS]; · iexact HS
  iintro ⟨H0, H1, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the class's at every point: in at the first, -/
theorem Phi_in (c : Dev nD) : Pipeline.ΦA spec0 c ⊢ (dat V c).Φ 0 := .rfl
/-- out at the last. -/
theorem Phi_out (c : Dev nD) : (dat V c).Φ (Fin.last cfg0.N) ⊢ Pipeline.ΦA spec0 c := .rfl

end Cert.Kernel.Proj1

end
-- ==== Proof.Bits.Agg1.lean ====
/-
  The first aggregation, `h = max(adj · S1 + b1, 0)`, as the second of the program's four kernel regions.

  The grid walks 16 row blocks (of 1024 rows of `adj`) and, inside each, 16 steps along the contraction axis (blocks of 1024
  columns of `adj` against 1024 rows of `S1`). The body keeps an accumulator in a scratch buffer that survives from point
  to point: at the first step of a row block it zeroes it, at every step it adds the product of the step's two blocks to
  it, and at the last step it adds the bias row, clamps below at zero and stores the result into the output block. With
  `acc t` what the scratch holds after point `t`:

      acc t = step (adj block at t) (S1 block at t) (zeros, if t is a first step; acc (t - 1) otherwise)

  and the output block after a last step `t` is `finish (acc t) bias`. At the other points the body does not touch the
  output buffer, and the pipeline does not write it back there.

  Stated here, for any value family: the blocks the body finds, the accumulator point by point, the body's triple in
  each of its three control cases, and the region's proof data with its obligation, over the buffer contents `V` the
  region is entered at.
-/
import proofs.«157708_j82497731822002_1_alg».proof.Proof.Gen.Kernel.Launch
import proofs.«157708_j82497731822002_1_alg».proof.Proof.Gen.Kernel.Skeleton
import proofs.«157708_j82497731822002_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Pipeline.Kit
import Idealize.ShloMosaic.Lib.Tactic

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid1.Coords) : Prop :=
  (Scalar.cmpi .ne (Scalar.extui (Scalar.cmpi .eq (BitVec.ofNat 32 (i 2).val) 0#32)) 0#32) = 1#1
/-- "This is the last step along the contraction axis", as the body computes it. -/
abbrev lastStep (i : grid1.Coords) : Prop := k1_cond2 i = 1#1

/-- The contraction axis is the innermost of the grid and has 16 blocks: the first steps are the points ≡ 0 (mod 16), -/
theorem firstStep_iff : ∀ t : Fin cfg1.N, firstStep (grid1.coords t) ↔ t.val % 16 = 0 :=
  (by decide +kernel : ∀ t : Fin grid1.N, firstStep (grid1.coords t) ↔ t.val % 16 = 0)
/-- and the last steps the points ≡ 15 (mod 16). -/
theorem lastStep_iff : ∀ t : Fin cfg1.N, lastStep (grid1.coords t) ↔ t.val % 16 = 15 :=
  (by decide +kernel : ∀ t : Fin grid1.N, lastStep (grid1.coords t) ↔ t.val % 16 = 15)

/-- Off the last steps the output window is idle: the body stores nothing into it, -/
theorem out_idle : ∀ t : Fin cfg1.N, t.val % 16 ≠ 15 → cfg1.idle 3 (grid1.coords t) = true :=
  (by decide +kernel : ∀ t : Fin grid1.N, t.val % 16 ≠ 15 → idle1 3 (grid1.coords t) = true)
/-- and the pipeline does not write its block back. -/
theorem out_kept : ∀ t : Fin cfg1.N, t.val % 16 ≠ 15 → (cfg1.win 3).flush t = false :=
  (by decide +kernel : ∀ t : Fin grid1.N, t.val % 16 ≠ 15 → win1_3.flush t = false)
/-- At a last step it is live. -/
theorem out_live : ∀ t : Fin cfg1.N, t.val % 16 = 15 → cfg1.idle 3 (grid1.coords t) = false :=
  (by decide +kernel : ∀ t : Fin grid1.N, t.val % 16 = 15 → idle1 3 (grid1.coords t) = false)

/-- The whole-buffer rectangles start at the origin. -/
theorem z_sq : (![0, 0] : Fin S1024x1024.rank → Nat) = fun _ => 0 := by
  funext a; match a with | ⟨0, _⟩ => rfl | ⟨1, _⟩ => rfl
theorem z_row : (![0, 0] : Fin S1x1024.rank → Nat) = fun _ => 0 := by
  funext a; match a with | ⟨0, _⟩ => rfl | ⟨1, _⟩ => rfl

/-! ## The blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple, case by case

On whole memrefs: `arg3`, `arg4` the two input blocks at contents `x0`, `x1`; `arg5` the bias row; `arg6` the output block;
`arg7` the accumulator. A buffer a case does not touch is left out of its triple. -/

set_option maxHeartbeats 1000000 in
/-- A step that is neither the first nor the last of its row block adds the blocks' product to the accumulator. -/
theorem body_middle (c : Dev nD) (E : Set ℕ) (i : grid1.Coords) (h1 : ¬firstStep i) (h2 : ¬lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 s : Vec F S1024x1024 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f7, %hf7, H7⟩, Hk⟩
  subst hf0; subst hf1; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_singleton_self _, View.mem_set_unit_zero z_sq inb_S1024x1024_S1024x1024_0_0 y⟩),
    View.canon_unit_zero z_sq]
  sl_unfold_run_names
  rw [View.readAt_eq_ld, View.readAt_eq_ld, View.readAt_eq_ld, View.ld_unit_zero z_sq, View.ld_unit_zero z_sq, View.ld_unit_zero z_sq]

set_option maxHeartbeats 1000000 in
/-- The first step of a row block (not also its last) zeroes the accumulator, whatever it held, and adds the blocks'
    product to it. -/
theorem body_first (c : Dev nD) (E : Set ℕ) (i : grid1.Coords) (h1 : firstStep i) (h2 : ¬lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.Mem.head _, View.mem_set_unit_zero z_sq inb_S1024x1024_S1024x1024_0_0 y⟩),
    View.canon_cons_unit_zero z_sq]
  sl_unfold_run_names
  rw [View.readCov_unit_zero (Val := Elt F) arg7.view z_sq inb_S1024x1024_S1024x1024_0_0,
    View.readAt_eq_ld, View.readAt_eq_ld, View.ld_unit_zero z_sq, View.ld_unit_zero z_sq]

set_option maxHeartbeats 1000000 in
/-- The last step of a row block (not also its first) adds the blocks' product to the accumulator, then stores the
    accumulator plus the bias row, clamped below at zero, into the output block, whatever that held. -/
theorem body_last (c : Dev nD) (E : Set ℕ) (i : grid1.Coords) (h1 : ¬firstStep i) (h2 : lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 s : Vec F S1024x1024 .f32) (x2 : Vec F S1x1024 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero z_sq inb_S1024x1024_S1024x1024_0_0 y⟩),
      View.canon_unit_zero z_sq]
    sl_unfold_run_names
    rw [View.readCov_unit_zero (Val := Elt F) arg7.view z_sq inb_S1024x1024_S1024x1024_0_0,
      View.readAt_eq_ld, View.readAt_eq_ld, View.readAt_eq_ld, View.readAt_eq_ld,
      View.ld_unit_zero z_sq, View.ld_unit_zero z_sq, View.ld_unit_zero z_sq, View.ld_unit_zero z_row]
  · iexists _; isplitr
    swap; · iexact H7
    ipureintro
    sl_unfold_run_names
    rw [View.read_writes_eq_canon _ _ _ (fun y => ⟨_, List.mem_singleton_self _, View.mem_set_unit_zero z_sq inb_S1024x1024_S1024x1024_0_0 y⟩),
      View.canon_unit_zero z_sq]
    rw [View.readAt_eq_ld, View.readAt_eq_ld, View.readAt_eq_ld, View.ld_unit_zero z_sq, View.ld_unit_zero z_sq, View.ld_unit_zero z_sq]

/-! ## The accumulator, point by point -/

/-- What the accumulator holds after the body at point `n`: the blocks' product added to zeros at a first step, to what
    the point before left otherwise. -/
def acc (c : Dev nD) : (n : ℕ) → n < cfg1.N → Vec F S1024x1024 .f32
  | 0, hn => k1_pay2 (blk V c 0 ⟨0, hn⟩) (blk V c 1 ⟨0, hn⟩) (k1_pay1 (F := F))
  | n + 1, hn =>
    if (n + 1) % 16 = 0 then k1_pay2 (blk V c 0 ⟨n + 1, hn⟩) (blk V c 1 ⟨n + 1, hn⟩) (k1_pay1 (F := F))
    else k1_pay2 (blk V c 0 ⟨n + 1, hn⟩) (blk V c 1 ⟨n + 1, hn⟩) (acc c n (Nat.lt_of_succ_lt hn))

/-- At a first step the accumulator restarts from zeros. -/
theorem acc_first (c : Dev nD) (t : Fin cfg1.N) (h : t.val % 16 = 0) :
    acc V c t.val t.isLt = k1_pay2 (blk V c 0 t) (blk V c 1 t) (k1_pay1 (F := F)) := by
  obtain ⟨n, hn⟩ := t
  cases n with
  | zero => rfl
  | succ n => exact (if_pos h).trans rfl

/-- At any other step it goes on from what the point before left. -/
theorem acc_next (c : Dev nD) (t : Fin cfg1.N) (h : t.val % 16 ≠ 0) :
    acc V c t.val t.isLt
      = k1_pay2 (blk V c 0 t) (blk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the class's, with the accumulator at what the point before left -/

/-- The accumulator's buffer, whole. -/
abbrev accM : Memref sig .tc .vmem S1024x1024 .f32 := Memref.whole cc1_scratch0

/-- The core's other scoped buffers that are no staging buffer of this region, at some contents each. -/
abbrev others (c : Dev nD) : sProp 𝕄 :=
  Pipeline.scopedRestBut (Ix := Unit) (Name := ℕ) (U := UR sig nD τ) (Lvl := ℕ) (Val := Elt F) spec1 c [cc1_scratch0]

/-- The class invariant is the accumulator at some contents, the other scoped buffers that are no staging buffer of
    this region at some contents each, and the generator register at some state. -/
theorem PhiA_split (c : Dev nD) :
    (Pipeline.ΦA spec1 c : sProp 𝕄)
      = iprop(((∃ d, owns (c : Thread nD τ) accM fullShare d) ∗ others c) ∗ ∃ r, prngReg c r) := by
  unfold Pipeline.ΦA
  rw [Pipeline.scopedRest_split_of_list spec1 c [cc1_scratch0] (by decide) (by decide)]
  simp only [bigSepL_singleton, accM, owns_whole]
  rfl

/-- The invariant before position `n`: the class's before the first point; afterwards the same with the accumulator at
    what the point before left in it. -/
def Phi (c : Dev nD) : (n : ℕ) → n ≤ cfg1.N → sProp 𝕄
  | 0, _ => Pipeline.ΦA spec1 c
  | n + 1, hn => iprop((owns (c : Thread nD τ) accM fullShare (acc V c n hn) ∗ others c) ∗ ∃ r, prngReg c r)

theorem Phi_zero (c : Dev nD) (h : 0 ≤ cfg1.N) : Phi V c 0 h = Pipeline.ΦA spec1 c := rfl

theorem Phi_succ (c : Dev nD) (n : ℕ) (hn : n < cfg1.N) :
    Phi V c (n + 1) hn = iprop((owns (c : Thread nD τ) accM fullShare (acc V c n hn) ∗ others c) ∗ ∃ r, prngReg c r) := rfl

/-- Before a point that is not the first the accumulator holds what the point before left. -/
theorem Phi_pos (c : Dev nD) (n : ℕ) (h : n ≤ cfg1.N) (hz : n ≠ 0) :
    Phi V c n h = iprop((owns (c : Thread nD τ) accM fullShare (acc V c (n - 1) (by omega)) ∗ others c) ∗ ∃ r, prngReg c r) := by
  cases n with
  | zero => exact absurd rfl hz
  | succ n => rfl

/-- At any position the invariant yields the class's: the accumulator's contents are forgotten. -/
theorem Phi_forget (c : Dev nD) (n : ℕ) (h : n ≤ cfg1.N) :
    Phi V c n h ⊢ iprop(((∃ d, owns (c : Thread nD τ) accM fullShare d) ∗ others c) ∗ ∃ r, prngReg c r) := by
  cases n with
  | zero => rw [Phi_zero, PhiA_split]
  | succ n =>
    rw [Phi_succ]
    iintro ⟨⟨HS, HR⟩, Hg⟩
    isplitl [HS HR]
    · isplitl [HS]; · iexists _; iexact HS
      iexact HR
    iexact Hg

/-! ## The region's proof data -/

/-- The proof data of this pipeline on core `c`: the arrays as the region finds them; after the body at a point each
    input's buffer still at its block, the output's at the accumulator plus the bias row clamped below at zero (read
    only at the last steps, where the body stores it); the invariant above; full shares, nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay3 (acc V c t.val t.isLt) (blk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = k1_pay3 (acc V c t.val t.isLt) (blk V c 2 t) := by dsimp only [dat]

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-- An input's staging buffer holds its block at every point, fetched there or not: the body leaves it in place and
    an unfetched window's block index has not moved. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' memrefs hold their blocks. At a first step the accumulator comes out of the
    invariant at some contents; at any other at what the point before left. It goes back at this point's contents. Off
    the last steps the output's buffer passes through untouched, as the pipeline expects of an idle window it does not
    write back; at a last step it is taken at anything and handed back at the finished block. The bias buffer is
    read at the last steps only and left in place everywhere; the invariant's rest and the core's `owes` pass through
    unread. No point is both a first and a last step. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).leavesExact 0 t = owns (c : Thread nD τ) (st1_0 t) fullShare ((dat V c).after 0 t) from rfl,
    show (dat V c).leavesExact 1 t = owns (c : Thread nD τ) (st1_1 t) fullShare ((dat V c).after 1 t) from rfl,
    show (dat V c).leavesExact 2 t = owns (c : Thread nD τ) (st1_2 t) fullShare ((dat V c).after 2 t) from rfl,
    show (dat V c).owesAt () t.succ = (dat V c).owesAt () t.castSucc from rfl,
    after_0, after_1, after_2,
    show (dat V c).Φ t.succ = Phi V c (t.val + 1) t.isLt from rfl, Phi_succ, Phi_castSucc]
  by_cases h0 : t.val % 16 = 0
  · have h15 : t.val % 16 ≠ 15 := by omega
    rw [Dat.leavesExact_idle (dat V c) 3 t (out_idle t h15) (out_kept t h15), acc_first V c t h0]
    iintro ⟨HΦ, Ho, ⟨%d0, H0⟩, ⟨%d1, H1⟩, ⟨%d2, H2⟩, H3⟩
    ihave ⟨⟨HS, HR⟩, Hg⟩ := (Phi_forget V c t.val _) $$ HΦ
    iapply (body_first c Set.univ (grid1.coords t) ((firstStep_iff t).mpr h0) (fun h => h15 ((lastStep_iff t).mp h))
      _ _ _ _ _ _ _ _ _ _ (blk V c 0 t) (blk V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz]
    by_cases h15 : t.val % 16 = 15
    · rw [show (dat V c).leavesExact 3 t = owns (c : Thread nD τ) (st1_3 t) fullShare ((dat V c).after 3 t) from by
          unfold Dat.leavesExact; rw [out_live t h15], after_3, acc_next V c t h0]
      iintro ⟨⟨⟨HS, HR⟩, Hg⟩, Ho, ⟨%d0, H0⟩, ⟨%d1, H1⟩, ⟨%d2, H2⟩, ⟨%d3, H3⟩⟩
      iapply (body_last c Set.univ (grid1.coords t) (fun h => h0 ((firstStep_iff t).mp h)) ((lastStep_iff t).mpr h15)
        _ _ _ _ _ _ _ _ _ _ (blk V c 0 t) (blk V c 1 t) _ (blk V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (out_idle t h15) (out_kept t h15), acc_next V c t h0]
      iintro ⟨⟨⟨HS, HR⟩, Hg⟩, Ho, ⟨%d0, H0⟩, ⟨%d1, H1⟩, ⟨%d2, H2⟩, H3⟩
      iapply (body_middle c Set.univ (grid1.coords t) (fun h => h0 ((firstStep_iff t).mp h)) (fun h => h15 ((lastStep_iff t).mp h))
        _ _ _ _ _ _ _ _ _ _ (blk V c 0 t) (blk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 :=
  Entails.of_eq (show Pipeline.ΦA spec1 c = Phi V c 0 (Nat.zero_le _) from rfl)

/-- After the last point the invariant gives the class's back: the accumulator's contents are forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    PhiA_split]
  exact Phi_forget V c _ _

end Cert.Kernel.Agg1

end
-- ==== Proof.Bits.Proj2.lean ====
/-
  The second projection, `S2 = h · W2`, as the third of the program's four kernel regions.

  The grid walks the 16 blocks of 1024 rows of `h`; the contraction axis (1024) is one block, so every grid point is both
  the first and the last step of its row block: the body zeroes the accumulator, adds the product of the point's
  1024 × 1024 block of `h` with the whole 1024 × 256 `W2` to it, and copies the accumulator into the output block. So the
  output block after a point is `acc0 + hblock · W2` with `acc0` the zero accumulator, whatever the accumulator held
  before; the bias operand (a row of zeros) is staged and never read.

  Stated here, for any value family: the blocks the body finds, what it leaves, the body's triple, and the region's
  proof data with its obligation, over the buffer contents `V` the region is entered at.
-/
import proofs.«157708_j82497731822002_1_alg».proof.Proof.Gen.Kernel.Launch
import proofs.«157708_j82497731822002_1_alg».proof.Proof.Gen.Kernel.Skeleton
import proofs.«157708_j82497731822002_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Proj2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid2.Coords) : Prop :=
  (Scalar.cmpi .ne (Scalar.extui (Scalar.cmpi .eq (BitVec.ofNat 32 (i 2).val) 0#32)) 0#32) = 1#1
/-- "This is the last step along the contraction axis", as the body computes it. -/
abbrev lastStep (i : grid2.Coords) : Prop := k2_cond2 i = 1#1

/-- The contraction axis has one block: every point is a first step, -/
theorem firstStep_all : ∀ t : Fin cfg2.N, firstStep (grid2.coords t) :=
  (by decide +kernel : ∀ t : Fin grid2.N, firstStep (grid2.coords t))
/-- and a last step; -/
theorem lastStep_all : ∀ t : Fin cfg2.N, lastStep (grid2.coords t) :=
  (by decide +kernel : ∀ t : Fin grid2.N, lastStep (grid2.coords t))
/-- so the output window is live at every point. -/
theorem live_out : ∀ t : Fin cfg2.N, cfg2.idle 3 (grid2.coords t) = false :=
  (by decide +kernel : ∀ t : Fin grid2.N, idle2 3 (grid2.coords t) = false)

/-! ## The blocks, and what the body leaves -/

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of a point: the zero accumulator plus the product of the point's rows of `h` with `W2`. -/
def rowsTimes (x0 : Vec F S1024x1024 .f32) (x1 : Vec F S1024x256 .f32) : Vec F S1024x256 .f32 :=
  k2_pay2 x0 x1 (k2_pay1 (F := F))

/-- The whole-buffer rectangles start at the origin. -/
theorem z_acc : (![0, 0] : Fin S1024x256.rank → Nat) = fun _ => 0 := by
  funext a; match a with | ⟨0, _⟩ => rfl | ⟨1, _⟩ => rfl
theorem z_x : (![0, 0] : Fin S1024x1024.rank → Nat) = fun _ => 0 := by
  funext a; match a with | ⟨0, _⟩ => rfl | ⟨1, _⟩ => rfl
theorem z_w : (![0, 0] : Fin S1024x256.rank → Nat) = fun _ => 0 := by
  funext a; match a with | ⟨0, _⟩ => rfl | ⟨1, _⟩ => rfl

/-! ## The body's triple -/

set_option maxHeartbeats 1000000 in
/-- On whole staging memrefs — the two inputs at contents `x0`, `x1`, the output's and the accumulator's at anything — the
    body at a point that is both a first and a last step runs to the continuation with the inputs as they were, the
    output at `rowsTimes x0 x1` and the accumulator at some contents. The bias memref is not touched. -/
theorem sound_kernel (c : Dev nD) (E : Set ℕ) (i : grid2.Coords) (h1 : firstStep i) (h2 : lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 : Vec F S1024x256 .f32) (K : PUnit → sProp 𝕄) :
    iprop(owns (c : Thread nD τ) arg3 fullShare x0 ∗ owns (c : Thread nD τ) arg4 fullShare x1
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg6 fullShare (rowsTimes x0 x1)
            ∗ (∃ d, owns (c : Thread nD τ) arg7 fullShare d)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [View.read_writes_eq_canon _ _ _ (fun y => ⟨_, List.mem_singleton_self _, View.mem_set_unit_zero z_acc inb_S1024x256_S1024x256_0_0 y⟩),
      View.canon_unit_zero z_acc]
    sl_unfold_run_names
    rw [View.readCov_unit_zero (Val := Elt F) arg7.view z_acc inb_S1024x256_S1024x256_0_0,
      View.readCov_eq_canon_ld _ _ _ (fun y => ⟨_, List.Mem.head _, View.mem_set_unit_zero z_acc inb_S1024x256_S1024x256_0_0 y⟩),
      View.canon_cons_unit_zero z_acc, View.ld_unit_zero z_acc,
      View.readAt_eq_ld, View.readAt_eq_ld, View.ld_unit_zero z_x, View.ld_unit_zero z_w]
    rfl
  · iexists _, _; isplitr
    swap; · iexact H7
    ipureintro; rfl

/-! ## The region's proof data -/

/-- The proof data of this pipeline on core `c`: the arrays as the region finds them; after the body at a point each
    input's buffer still at its block, the output's at the product of the point's blocks; the invariant the class's
    (the scratch and the generator register at anything: the accumulator is reset at every point); full shares,
    nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => rowsTimes (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = rowsTimes (blk V c 0 t) (blk V c 1 t) := by dsimp only [dat]

/-- An input's staging buffer holds its block at every point, fetched there or not: the body leaves it in place and
    an unfetched window's block index has not moved. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The class invariant with this region's accumulator taken out -/

/-- The accumulator's buffer, whole. -/
abbrev accM : Memref sig .tc .vmem S1024x256 .f32 := Memref.whole cc2_scratch0

/-- The class invariant is the accumulator at some contents, the other scoped buffers that are no staging buffer of
    this region at some contents each, and the generator register at some state. -/
theorem PhiA_split (c : Dev nD) :
    (Pipeline.ΦA spec2 c : sProp 𝕄)
      = iprop(((∃ d, owns (c : Thread nD τ) accM fullShare d)
          ∗ Pipeline.scopedRestBut (Ix := Unit) (Name := ℕ) (U := UR sig nD τ) (Lvl := ℕ) (Val := Elt F) spec2 c [cc2_scratch0])
          ∗ ∃ r, prngReg c r) := by
  unfold Pipeline.ΦA
  rw [Pipeline.scopedRest_split_of_list spec2 c [cc2_scratch0] (by decide) (by decide)]
  simp only [bigSepL_singleton, accM, owns_whole]
  rfl

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point: the inputs' memrefs hold their blocks, the accumulator comes out of the invariant at some
    contents and goes back at some contents, the bias buffer, the invariant's rest and the core's `owes` pass through
    unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).leavesExact 0 t = owns (c : Thread nD τ) (st2_0 t) fullShare ((dat V c).after 0 t) from rfl,
    show (dat V c).leavesExact 1 t = owns (c : Thread nD τ) (st2_1 t) fullShare ((dat V c).after 1 t) from rfl,
    show (dat V c).leavesExact 2 t = owns (c : Thread nD τ) (st2_2 t) fullShare ((dat V c).after 2 t) from rfl,
    show (dat V c).leavesExact 3 t = owns (c : Thread nD τ) (st2_3 t) fullShare ((dat V c).after 3 t) from by
      unfold Dat.leavesExact; rw [live_out t],
    show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec2 c from rfl, PhiA_split]
  iintro ⟨⟨⟨HS, HR⟩, Hg⟩, Ho, ⟨%d0, H0⟩, ⟨%d1, H1⟩, ⟨%d2, H2⟩, ⟨%d3, H3⟩⟩
  iapply (sound_kernel c Set.univ (grid2.coords t) (firstStep_all t) (lastStep_all t) _ _ _ _ _ _ _ _ _ _
    (blk V c 0 t) (blk V c 1 t) _)
  isplitl [H0]; · iexact H0
  isplitl [H1]; · iexact H1
  isplitl [H3]; · iexists _; iexact H3
  isplitl [HS]; · iexact HS
  iintro ⟨H0, H1, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

/-- The invariant is the class's at every point: in at the first, -/
theorem Phi_in (c : Dev nD) : Pipeline.ΦA spec2 c ⊢ (dat V c).Φ 0 := .rfl
/-- out at the last. -/
theorem Phi_out (c : Dev nD) : (dat V c).Φ (Fin.last cfg2.N) ⊢ Pipeline.ΦA spec2 c := .rfl

end Cert.Kernel.Proj2

end
-- ==== Proof.Bits.Agg2.lean ====
/-
  The second aggregation, `out = adj · S2 + b2`, as the last of the program's four kernel regions.

  The grid walks 16 row blocks (of 1024 rows of `adj`) and, inside each, 16 steps along the contraction axis (blocks of 1024
  columns of `adj` against 1024 rows of `S2`, which is 256 wide). The body keeps an accumulator in a scratch buffer that
  survives from point to point: at the first step of a row block it zeroes it, at every step it adds the product of the
  step's two blocks to it, and at the last step it adds the bias row and stores the result into the output block. With
  `acc t` what the scratch holds after point `t`:

      acc t = step (adj block at t) (S2 block at t) (zeros, if t is a first step; acc (t - 1) otherwise)

  and the output block after a last step `t` is `finish (acc t) bias`. At the other points the body does not touch the
  output buffer, and the pipeline does not write it back there.

  Stated here, for any value family: the blocks the body finds, the accumulator point by point, the body's triple in
  each of its three control cases, and the region's proof data with its obligation, over the buffer contents `V` the
  region is entered at.
-/
import proofs.«157708_j82497731822002_1_alg».proof.Proof.Gen.Kernel.Launch
import proofs.«157708_j82497731822002_1_alg».proof.Proof.Gen.Kernel.Skeleton
import proofs.«157708_j82497731822002_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Pipeline.Kit
import Idealize.ShloMosaic.Lib.Tactic

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid3.Coords) : Prop :=
  (Scalar.cmpi .ne (Scalar.extui (Scalar.cmpi .eq (BitVec.ofNat 32 (i 2).val) 0#32)) 0#32) = 1#1
/-- "This is the last step along the contraction axis", as the body computes it. -/
abbrev lastStep (i : grid3.Coords) : Prop := k3_cond2 i = 1#1

/-- The contraction axis is the innermost of the grid and has 16 blocks: the first steps are the points ≡ 0 (mod 16), -/
theorem firstStep_iff : ∀ t : Fin cfg3.N, firstStep (grid3.coords t) ↔ t.val % 16 = 0 :=
  (by decide +kernel : ∀ t : Fin grid3.N, firstStep (grid3.coords t) ↔ t.val % 16 = 0)
/-- and the last steps the points ≡ 15 (mod 16). -/
theorem lastStep_iff : ∀ t : Fin cfg3.N, lastStep (grid3.coords t) ↔ t.val % 16 = 15 :=
  (by decide +kernel : ∀ t : Fin grid3.N, lastStep (grid3.coords t) ↔ t.val % 16 = 15)

/-- Off the last steps the output window is idle: the body stores nothing into it, -/
theorem out_idle : ∀ t : Fin cfg3.N, t.val % 16 ≠ 15 → cfg3.idle 3 (grid3.coords t) = true :=
  (by decide +kernel : ∀ t : Fin grid3.N, t.val % 16 ≠ 15 → idle3 3 (grid3.coords t) = true)
/-- and the pipeline does not write its block back. -/
theorem out_kept : ∀ t : Fin cfg3.N, t.val % 16 ≠ 15 → (cfg3.win 3).flush t = false :=
  (by decide +kernel : ∀ t : Fin grid3.N, t.val % 16 ≠ 15 → win3_3.flush t = false)
/-- At a last step it is live. -/
theorem out_live : ∀ t : Fin cfg3.N, t.val % 16 = 15 → cfg3.idle 3 (grid3.coords t) = false :=
  (by decide +kernel : ∀ t : Fin grid3.N, t.val % 16 = 15 → idle3 3 (grid3.coords t) = false)

/-- The whole-buffer rectangles start at the origin. -/
theorem z_sq : (![0, 0] : Fin S1024x1024.rank → Nat) = fun _ => 0 := by
  funext a; match a with | ⟨0, _⟩ => rfl | ⟨1, _⟩ => rfl
theorem z_acc : (![0, 0] : Fin S1024x256.rank → Nat) = fun _ => 0 := by
  funext a; match a with | ⟨0, _⟩ => rfl | ⟨1, _⟩ => rfl
theorem z_row : (![0, 0] : Fin S1x256.rank → Nat) = fun _ => 0 := by
  funext a; match a with | ⟨0, _⟩ => rfl | ⟨1, _⟩ => rfl

/-! ## The blocks -/

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's triple, case by case

On whole memrefs: `arg3`, `arg4` the two input blocks at contents `x0`, `x1`; `arg5` the bias row; `arg6` the output block;
`arg7` the accumulator. A buffer a case does not touch is left out of its triple. -/

set_option maxHeartbeats 1000000 in
/-- A step that is neither the first nor the last of its row block adds the blocks' product to the accumulator. -/
theorem body_middle (c : Dev nD) (E : Set ℕ) (i : grid3.Coords) (h1 : ¬firstStep i) (h2 : ¬lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 s : Vec F S1024x256 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k3_pay2 x0 x1 s)) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%f7, %hf7, H7⟩, Hk⟩
  subst hf0; subst hf1; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_singleton_self _, View.mem_set_unit_zero z_acc inb_S1024x256_S1024x256_0_0 y⟩),
    View.canon_unit_zero z_acc]
  sl_unfold_run_names
  rw [View.readAt_eq_ld, View.readAt_eq_ld, View.readAt_eq_ld, View.ld_unit_zero z_sq, View.ld_unit_zero z_acc, View.ld_unit_zero z_acc]

set_option maxHeartbeats 1000000 in
/-- The first step of a row block (not also its last) zeroes the accumulator, whatever it held, and adds the blocks'
    product to it. -/
theorem body_first (c : Dev nD) (E : Set ℕ) (i : grid3.Coords) (h1 : firstStep i) (h2 : ¬lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 : Vec F S1024x256 .f32) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k3_pay2 x0 x1 (k3_pay1 (F := F)))) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.Mem.head _, View.mem_set_unit_zero z_acc inb_S1024x256_S1024x256_0_0 y⟩),
    View.canon_cons_unit_zero z_acc]
  sl_unfold_run_names
  rw [View.readCov_unit_zero (Val := Elt F) arg7.view z_acc inb_S1024x256_S1024x256_0_0,
    View.readAt_eq_ld, View.readAt_eq_ld, View.ld_unit_zero z_sq, View.ld_unit_zero z_acc]

set_option maxHeartbeats 1000000 in
/-- The last step of a row block (not also its first) adds the blocks' product to the accumulator, then stores the
    accumulator plus the bias row into the output block, whatever that held. -/
theorem body_last (c : Dev nD) (E : Set ℕ) (i : grid3.Coords) (h1 : ¬firstStep i) (h2 : lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 s : Vec F S1024x256 .f32) (x2 : Vec F S1x256 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2
            ∗ owns (c : Thread nD τ) arg6 fullShare (k3_pay3 (k3_pay2 x0 x1 s) x2)
            ∗ owns (c : Thread nD τ) arg7 fullShare (k3_pay2 x0 x1 s)) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero z_acc inb_S1024x256_S1024x256_0_0 y⟩),
      View.canon_unit_zero z_acc]
    sl_unfold_run_names
    rw [View.readCov_unit_zero (Val := Elt F) arg7.view z_acc inb_S1024x256_S1024x256_0_0,
      View.readAt_eq_ld, View.readAt_eq_ld, View.readAt_eq_ld, View.readAt_eq_ld,
      View.ld_unit_zero z_sq, View.ld_unit_zero z_acc, View.ld_unit_zero z_acc, View.ld_unit_zero z_row]
  · iexists _; isplitr
    swap; · iexact H7
    ipureintro
    sl_unfold_run_names
    rw [View.read_writes_eq_canon _ _ _ (fun y => ⟨_, List.mem_singleton_self _, View.mem_set_unit_zero z_acc inb_S1024x256_S1024x256_0_0 y⟩),
      View.canon_unit_zero z_acc]
    rw [View.readAt_eq_ld, View.readAt_eq_ld, View.readAt_eq_ld, View.ld_unit_zero z_sq, View.ld_unit_zero z_acc, View.ld_unit_zero z_acc]

/-! ## The accumulator, point by point -/

/-- What the accumulator holds after the body at point `n`: the blocks' product added to zeros at a first step, to what
    the point before left otherwise. -/
def acc (c : Dev nD) : (n : ℕ) → n < cfg3.N → Vec F S1024x256 .f32
  | 0, hn => k3_pay2 (blk V c 0 ⟨0, hn⟩) (blk V c 1 ⟨0, hn⟩) (k3_pay1 (F := F))
  | n + 1, hn =>
    if (n + 1) % 16 = 0 then k3_pay2 (blk V c 0 ⟨n + 1, hn⟩) (blk V c 1 ⟨n + 1, hn⟩) (k3_pay1 (F := F))
    else k3_pay2 (blk V c 0 ⟨n + 1, hn⟩) (blk V c 1 ⟨n + 1, hn⟩) (acc c n (Nat.lt_of_succ_lt hn))

/-- At a first step the accumulator restarts from zeros. -/
theorem acc_first (c : Dev nD) (t : Fin cfg3.N) (h : t.val % 16 = 0) :
    acc V c t.val t.isLt = k3_pay2 (blk V c 0 t) (blk V c 1 t) (k3_pay1 (F := F)) := by
  obtain ⟨n, hn⟩ := t
  cases n with
  | zero => rfl
  | succ n => exact (if_pos h).trans rfl

/-- At any other step it goes on from what the point before left. -/
theorem acc_next (c : Dev nD) (t : Fin cfg3.N) (h : t.val % 16 ≠ 0) :
    acc V c t.val t.isLt
      = k3_pay2 (blk V c 0 t) (blk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the class's, with the accumulator at what the point before left -/

/-- The accumulator's buffer, whole. -/
abbrev accM : Memref sig .tc .vmem S1024x256 .f32 := Memref.whole cc3_scratch0

/-- The core's other scoped buffers that are no staging buffer of this region, at some contents each. -/
abbrev others (c : Dev nD) : sProp 𝕄 :=
  Pipeline.scopedRestBut (Ix := Unit) (Name := ℕ) (U := UR sig nD τ) (Lvl := ℕ) (Val := Elt F) spec3 c [cc3_scratch0]

/-- The class invariant is the accumulator at some contents, the other scoped buffers that are no staging buffer of
    this region at some contents each, and the generator register at some state. -/
theorem PhiA_split (c : Dev nD) :
    (Pipeline.ΦA spec3 c : sProp 𝕄)
      = iprop(((∃ d, owns (c : Thread nD τ) accM fullShare d) ∗ others c) ∗ ∃ r, prngReg c r) := by
  unfold Pipeline.ΦA
  rw [Pipeline.scopedRest_split_of_list spec3 c [cc3_scratch0] (by decide) (by decide)]
  simp only [bigSepL_singleton, accM, owns_whole]
  rfl

/-- The invariant before position `n`: the class's before the first point; afterwards the same with the accumulator at
    what the point before left in it. -/
def Phi (c : Dev nD) : (n : ℕ) → n ≤ cfg3.N → sProp 𝕄
  | 0, _ => Pipeline.ΦA spec3 c
  | n + 1, hn => iprop((owns (c : Thread nD τ) accM fullShare (acc V c n hn) ∗ others c) ∗ ∃ r, prngReg c r)

theorem Phi_zero (c : Dev nD) (h : 0 ≤ cfg3.N) : Phi V c 0 h = Pipeline.ΦA spec3 c := rfl

theorem Phi_succ (c : Dev nD) (n : ℕ) (hn : n < cfg3.N) :
    Phi V c (n + 1) hn = iprop((owns (c : Thread nD τ) accM fullShare (acc V c n hn) ∗ others c) ∗ ∃ r, prngReg c r) := rfl

/-- Before a point that is not the first the accumulator holds what the point before left. -/
theorem Phi_pos (c : Dev nD) (n : ℕ) (h : n ≤ cfg3.N) (hz : n ≠ 0) :
    Phi V c n h = iprop((owns (c : Thread nD τ) accM fullShare (acc V c (n - 1) (by omega)) ∗ others c) ∗ ∃ r, prngReg c r) := by
  cases n with
  | zero => exact absurd rfl hz
  | succ n => rfl

/-- At any position the invariant yields the class's: the accumulator's contents are forgotten. -/
theorem Phi_forget (c : Dev nD) (n : ℕ) (h : n ≤ cfg3.N) :
    Phi V c n h ⊢ iprop(((∃ d, owns (c : Thread nD τ) accM fullShare d) ∗ others c) ∗ ∃ r, prngReg c r) := by
  cases n with
  | zero => rw [Phi_zero, PhiA_split]
  | succ n =>
    rw [Phi_succ]
    iintro ⟨⟨HS, HR⟩, Hg⟩
    isplitl [HS HR]
    · isplitl [HS]; · iexists _; iexact HS
      iexact HR
    iexact Hg

/-! ## The region's proof data -/

/-- The proof data of this pipeline on core `c`: the arrays as the region finds them; after the body at a point each
    input's buffer still at its block, the output's at the accumulator plus the bias row (read
    only at the last steps, where the body stores it); the invariant above; full shares, nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => k3_pay3 (acc V c t.val t.isLt) (blk V c 2 t)
  Φ t := Phi V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) :
    (dat V c).after 3 t = k3_pay3 (acc V c t.val t.isLt) (blk V c 2 t) := by dsimp only [dat]

/-- The invariant at a point's start, restated at the point's position. -/
theorem Phi_castSucc (c : Dev nD) (t : Fin cfg3.N) :
    (dat V c).Φ t.castSucc = Phi V c t.val (Nat.le_of_lt t.isLt) := by
  dsimp only [dat]; simp only [Fin.coe_castSucc]

/-- An input's staging buffer holds its block at every point, fetched there or not: the body leaves it in place and
    an unfetched window's block index has not moved. -/
theorem before_0 (c : Dev nD) (t : Fin cfg3.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg3.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg3.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' memrefs hold their blocks. At a first step the accumulator comes out of the
    invariant at some contents; at any other at what the point before left. It goes back at this point's contents. Off
    the last steps the output's buffer passes through untouched, as the pipeline expects of an idle window it does not
    write back; at a last step it is taken at anything and handed back at the finished block. The bias buffer is
    read at the last steps only and left in place everywhere; the invariant's rest and the core's `owes` pass through
    unread. No point is both a first and a last step. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).leavesExact 0 t = owns (c : Thread nD τ) (st3_0 t) fullShare ((dat V c).after 0 t) from rfl,
    show (dat V c).leavesExact 1 t = owns (c : Thread nD τ) (st3_1 t) fullShare ((dat V c).after 1 t) from rfl,
    show (dat V c).leavesExact 2 t = owns (c : Thread nD τ) (st3_2 t) fullShare ((dat V c).after 2 t) from rfl,
    show (dat V c).owesAt () t.succ = (dat V c).owesAt () t.castSucc from rfl,
    after_0, after_1, after_2,
    show (dat V c).Φ t.succ = Phi V c (t.val + 1) t.isLt from rfl, Phi_succ, Phi_castSucc]
  by_cases h0 : t.val % 16 = 0
  · have h15 : t.val % 16 ≠ 15 := by omega
    rw [Dat.leavesExact_idle (dat V c) 3 t (out_idle t h15) (out_kept t h15), acc_first V c t h0]
    iintro ⟨HΦ, Ho, ⟨%d0, H0⟩, ⟨%d1, H1⟩, ⟨%d2, H2⟩, H3⟩
    ihave ⟨⟨HS, HR⟩, Hg⟩ := (Phi_forget V c t.val _) $$ HΦ
    iapply (body_first c Set.univ (grid3.coords t) ((firstStep_iff t).mpr h0) (fun h => h15 ((lastStep_iff t).mp h))
      _ _ _ _ _ _ _ _ _ _ (blk V c 0 t) (blk V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz]
    by_cases h15 : t.val % 16 = 15
    · rw [show (dat V c).leavesExact 3 t = owns (c : Thread nD τ) (st3_3 t) fullShare ((dat V c).after 3 t) from by
          unfold Dat.leavesExact; rw [out_live t h15], after_3, acc_next V c t h0]
      iintro ⟨⟨⟨HS, HR⟩, Hg⟩, Ho, ⟨%d0, H0⟩, ⟨%d1, H1⟩, ⟨%d2, H2⟩, ⟨%d3, H3⟩⟩
      iapply (body_last c Set.univ (grid3.coords t) (fun h => h0 ((firstStep_iff t).mp h)) ((lastStep_iff t).mpr h15)
        _ _ _ _ _ _ _ _ _ _ (blk V c 0 t) (blk V c 1 t) _ (blk V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (out_idle t h15) (out_kept t h15), acc_next V c t h0]
      iintro ⟨⟨⟨HS, HR⟩, Hg⟩, Ho, ⟨%d0, H0⟩, ⟨%d1, H1⟩, ⟨%d2, H2⟩, H3⟩
      iapply (body_middle c Set.univ (grid3.coords t) (fun h => h0 ((firstStep_iff t).mp h)) (fun h => h15 ((lastStep_iff t).mp h))
        _ _ _ _ _ _ _ _ _ _ (blk V c 0 t) (blk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem Phi_in (c : Dev nD) : Pipeline.ΦA spec3 c ⊢ (dat V c).Φ 0 :=
  Entails.of_eq (show Pipeline.ΦA spec3 c = Phi V c 0 (Nat.zero_le _) from rfl)

/-- After the last point the invariant gives the class's back: the accumulator's contents are forgotten. -/
theorem Phi_out (c : Dev nD) : (dat V c).Φ (Fin.last cfg3.N) ⊢ Pipeline.ΦA spec3 c := by
  rw [show (dat V c).Φ (Fin.last cfg3.N) = Phi V c (Fin.last cfg3.N).val (Nat.le_of_lt_succ (Fin.last cfg3.N).isLt) from rfl,
    PhiA_split]
  exact Phi_forget V c _ _

end Cert.Kernel.Agg2

end
-- ==== Proof.Bits.Assembly.lean ====
/-
  The four regions put together.  The buffer contents each region is entered at are the previous region's exit
  contents: region 0 (S1 = x·W1) is entered after the six host operations and writes main_v4; region 1
  (h = max(adj·S1 + b1, 0)) reads it and writes main_v5; region 2 (S2 = h·W2) writes main_v6; region 3
  (out = adj·S2 + b2) writes main_v7, the program's result.  This module names those contents one after the other,
  collects the four regions' proof data into one family, runs the program over it, and reads back the buffers
  the value of the result is stated over.
-/
import proofs.«157708_j82497731822002_1_alg».proof.Proof.Bits.Whole
import proofs.«157708_j82497731822002_1_alg».proof.Proof.Bits.Proj1
import proofs.«157708_j82497731822002_1_alg».proof.Proof.Bits.Agg1
import proofs.«157708_j82497731822002_1_alg».proof.Proof.Bits.Proj2
import proofs.«157708_j82497731822002_1_alg».proof.Proof.Bits.Agg2
import Idealize.ShloMosaic.Lib.StableHlo.Run

set_option maxRecDepth 16384

noncomputable section

namespace Cert.Kernel.Assembly

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ)

/-! ## A valuation changed at one buffer -/

/-- A valuation changed at `r'` is as it was at any other reference, -/
theorem update_ne (W : Valuation τ sig (Elt F)) (r r' : Ref sig .tc) (v : (Proc.devRef (τ := τ) .tc r').ty.Contents (Elt F)) (h : r ≠ r') :
    Function.update W (Proc.devRef .tc r') v (Proc.devRef .tc r) = W (Proc.devRef .tc r) :=
  Function.update_of_ne (StableHlo.devRef_ne_of_ne h) _ _
/-- and holds the new contents at `r'`. -/
theorem update_at (W : Valuation τ sig (Elt F)) (r' : Ref sig .tc) (v : (Proc.devRef (τ := τ) .tc r').ty.Contents (Elt F)) :
    Function.update W (Proc.devRef .tc r') v (Proc.devRef .tc r') = v :=
  Function.update_self _ _ _

/-! ## The contents each region is entered at, and what it leaves in its output array

`E1` is what the host operations leave; `oK` is region K−4's output array after its last write-back, over the
contents it was entered at; the next region is entered at the same contents with that one array replaced. -/

/-- Region 0 is entered at what the host operations leave. -/
abbrev E1 : (c : Dev nD) → (b : Ref sig .tc) → Buf (Elt F) ((c : Thread nD τ).loc b) := fun c b => V1 m c b
/-- What region 0 leaves in main_v4: S1. -/
def o4 (c : Dev nD) : Buf (Elt F) ((c : Thread nD τ).loc main_v4) := (Proj1.dat (E1 m) c).arrAt 3 cfg0.N
/-- The buffers after region 0. -/
def W2 (c : Dev nD) : Valuation τ sig (Elt F) := Function.update (V1 m c) main_v4 (o4 m c)
/-- Region 1 is entered there. -/
abbrev E2 : (c : Dev nD) → (b : Ref sig .tc) → Buf (Elt F) ((c : Thread nD τ).loc b) := fun c b => W2 m c b
/-- What region 1 leaves in main_v5: h. -/
def o5 (c : Dev nD) : Buf (Elt F) ((c : Thread nD τ).loc main_v5) := (Agg1.dat (E2 m) c).arrAt 3 cfg1.N
/-- The buffers after region 1. -/
def W3 (c : Dev nD) : Valuation τ sig (Elt F) := Function.update (W2 m c) main_v5 (o5 m c)
/-- Region 2 is entered there. -/
abbrev E3 : (c : Dev nD) → (b : Ref sig .tc) → Buf (Elt F) ((c : Thread nD τ).loc b) := fun c b => W3 m c b
/-- What region 2 leaves in main_v6: S2. -/
def o6 (c : Dev nD) : Buf (Elt F) ((c : Thread nD τ).loc main_v6) := (Proj2.dat (E3 m) c).arrAt 3 cfg2.N
/-- The buffers after region 2. -/
def W4 (c : Dev nD) : Valuation τ sig (Elt F) := Function.update (W3 m c) main_v6 (o6 m c)
/-- Region 3 is entered there. -/
abbrev E4 : (c : Dev nD) → (b : Ref sig .tc) → Buf (Elt F) ((c : Thread nD τ).loc b) := fun c b => W4 m c b
/-- What region 3 leaves in main_v7: the result. -/
def o7 (c : Dev nD) : Buf (Elt F) ((c : Thread nD τ).loc main_v7) := (Agg2.dat (E4 m) c).arrAt 3 cfg3.N
/-- The buffers at the end. -/
def W5 (c : Dev nD) : Valuation τ sig (Elt F) := Function.update (W4 m c) main_v7 (o7 m c)

/-! ## The regions' results as the unknowns of the run -/

/-- What each region leaves, as the run's family of unknowns: at main_v4 … main_v7 the four results above (whatever the
    item's number), elsewhere the launch contents (never read). -/
def outs : Outs (F := F) := fun _ r c =>
  if h4 : r = main_v4 then h4 ▸ o4 m c
  else if h5 : r = main_v5 then h5 ▸ o5 m c
  else if h6 : r = main_v6 then h6 ▸ o6 m c
  else if h7 : r = main_v7 then h7 ▸ o7 m c
  else m ((c : Thread nD τ).loc r)

theorem outs_v4 (J : ℕ) (c : Dev nD) : outs m J main_v4 c = o4 m c := by
  unfold outs; rw [dif_pos rfl]
theorem outs_v5 (J : ℕ) (c : Dev nD) : outs m J main_v5 c = o5 m c := by
  unfold outs; rw [dif_neg (by decide), dif_pos rfl]
theorem outs_v6 (J : ℕ) (c : Dev nD) : outs m J main_v6 c = o6 m c := by
  unfold outs; rw [dif_neg (by decide), dif_neg (by decide), dif_pos rfl]
theorem outs_v7 (J : ℕ) (c : Dev nD) : outs m J main_v7 c = o7 m c := by
  unfold outs; rw [dif_neg (by decide), dif_neg (by decide), dif_neg (by decide), dif_pos rfl]

/-- Over these unknowns the run's valuations are the contents named above. -/
theorem V2_eq (c : Dev nD) : V2 m (outs m) c = W2 m c := by
  show Function.update (V1 m c) main_v4 (outs m 2 main_v4 c) = Function.update (V1 m c) main_v4 (o4 m c)
  rw [outs_v4]
theorem V3_eq (c : Dev nD) : V3 m (outs m) c = W3 m c := by
  show Function.update (V2 m (outs m) c) main_v5 (outs m 3 main_v5 c) = Function.update (W2 m c) main_v5 (o5 m c)
  rw [V2_eq, outs_v5]
theorem V4_eq (c : Dev nD) : V4 m (outs m) c = W4 m c := by
  show Function.update (V3 m (outs m) c) main_v6 (outs m 4 main_v6 c) = Function.update (W3 m c) main_v6 (o6 m c)
  rw [V3_eq, outs_v6]
theorem V5_eq (c : Dev nD) : V5 m (outs m) c = W5 m c := by
  show Function.update (V4 m (outs m) c) main_v7 (outs m 5 main_v7 c) = Function.update (W4 m c) main_v7 (o7 m c)
  rw [V4_eq, outs_v7]

/-! ## The proof data family -/

/-- Every pipeline's proof data, each over the contents its region is entered at. -/
def pdats : (p : Fin 4) → (c : Dev nD) → Dat τ (Elt F) Unit ℕ (UR sig nD τ) ℕ (cfgs p) c
  | ⟨0, _⟩ => fun c => Proj1.dat (E1 m) c
  | ⟨1, _⟩ => fun c => Agg1.dat (E2 m) c
  | ⟨2, _⟩ => fun c => Proj2.dat (E3 m) c
  | ⟨3, _⟩ => fun c => Agg2.dat (E4 m) c

/-! ## What a region leaves in each of its arrays, and that it leaves the others alone

A region's three input arrays are never written back; its output array ends at the region's result. So after
region K the buffers are the ones before it with the output array replaced. -/

/-- Region 0's arrays at its exit, -/
theorem exit0 (c : Dev nD) (w : Fin cfg0.W) :
    (Proj1.dat (E1 m) c).arrAt w cfg0.N = W2 m c (Proc.devRef .tc (Pipeline.arrRef spec0 w)) :=
  match w with
  | ⟨0, _⟩ => ((Proj1.dat (E1 m) c).arrAt_in 0 rfl _).trans <| (Proj1.A_eq (E1 m) c 0).trans (update_ne (V1 m c) main_arg0 main_v4 (o4 m c) (by decide)).symm
  | ⟨1, _⟩ => ((Proj1.dat (E1 m) c).arrAt_in 1 rfl _).trans <| (Proj1.A_eq (E1 m) c 1).trans (update_ne (V1 m c) main_arg2 main_v4 (o4 m c) (by decide)).symm
  | ⟨2, _⟩ => ((Proj1.dat (E1 m) c).arrAt_in 2 rfl _).trans <| (Proj1.A_eq (E1 m) c 2).trans (update_ne (V1 m c) main_v2 main_v4 (o4 m c) (by decide)).symm
  | ⟨3, _⟩ => (update_at (V1 m c) main_v4 (o4 m c)).symm
/-- and every buffer that is none of them. -/
theorem rest0 (c : Dev nD) (b : Ref sig .tc) (hb : b ∉ Finset.univ.image (Pipeline.arrRef spec0)) :
    W2 m c (Proc.devRef .tc b) = V1 m c (Proc.devRef .tc b) :=
  update_ne (V1 m c) b main_v4 (o4 m c) fun h => hb (h ▸ Finset.mem_image.mpr ⟨3, Finset.mem_univ _, rfl⟩)

/-- Region 1's arrays at its exit, -/
theorem exit1 (c : Dev nD) (w : Fin cfg1.W) :
    (Agg1.dat (E2 m) c).arrAt w cfg1.N = W3 m c (Proc.devRef .tc (Pipeline.arrRef spec1 w)) :=
  match w with
  | ⟨0, _⟩ => ((Agg1.dat (E2 m) c).arrAt_in 0 rfl _).trans <| (Agg1.A_eq (E2 m) c 0).trans (update_ne (W2 m c) main_arg1 main_v5 (o5 m c) (by decide)).symm
  | ⟨1, _⟩ => ((Agg1.dat (E2 m) c).arrAt_in 1 rfl _).trans <| (Agg1.A_eq (E2 m) c 1).trans (update_ne (W2 m c) main_v4 main_v5 (o5 m c) (by decide)).symm
  | ⟨2, _⟩ => ((Agg1.dat (E2 m) c).arrAt_in 2 rfl _).trans <| (Agg1.A_eq (E2 m) c 2).trans (update_ne (W2 m c) main_v0 main_v5 (o5 m c) (by decide)).symm
  | ⟨3, _⟩ => (update_at (W2 m c) main_v5 (o5 m c)).symm
/-- and every buffer that is none of them. -/
theorem rest1 (c : Dev nD) (b : Ref sig .tc) (hb : b ∉ Finset.univ.image (Pipeline.arrRef spec1)) :
    W3 m c (Proc.devRef .tc b) = W2 m c (Proc.devRef .tc b) :=
  update_ne (W2 m c) b main_v5 (o5 m c) fun h => hb (h ▸ Finset.mem_image.mpr ⟨3, Finset.mem_univ _, rfl⟩)

/-- Region 2's arrays at its exit, -/
theorem exit2 (c : Dev nD) (w : Fin cfg2.W) :
    (Proj2.dat (E3 m) c).arrAt w cfg2.N = W4 m c (Proc.devRef .tc (Pipeline.arrRef spec2 w)) :=
  match w with
  | ⟨0, _⟩ => ((Proj2.dat (E3 m) c).arrAt_in 0 rfl _).trans <| (Proj2.A_eq (E3 m) c 0).trans (update_ne (W3 m c) main_v5 main_v6 (o6 m c) (by decide)).symm
  | ⟨1, _⟩ => ((Proj2.dat (E3 m) c).arrAt_in 1 rfl _).trans <| (Proj2.A_eq (E3 m) c 1).trans (update_ne (W3 m c) main_arg4 main_v6 (o6 m c) (by decide)).symm
  | ⟨2, _⟩ => ((Proj2.dat (E3 m) c).arrAt_in 2 rfl _).trans <| (Proj2.A_eq (E3 m) c 2).trans (update_ne (W3 m c) main_v3 main_v6 (o6 m c) (by decide)).symm
  | ⟨3, _⟩ => (update_at (W3 m c) main_v6 (o6 m c)).symm
/-- and every buffer that is none of them. -/
theorem rest2 (c : Dev nD) (b : Ref sig .tc) (hb : b ∉ Finset.univ.image (Pipeline.arrRef spec2)) :
    W4 m c (Proc.devRef .tc b) = W3 m c (Proc.devRef .tc b) :=
  update_ne (W3 m c) b main_v6 (o6 m c) fun h => hb (h ▸ Finset.mem_image.mpr ⟨3, Finset.mem_univ _, rfl⟩)

/-- Region 3's arrays at its exit, -/
theorem exit3 (c : Dev nD) (w : Fin cfg3.W) :
    (Agg2.dat (E4 m) c).arrAt w cfg3.N = W5 m c (Proc.devRef .tc (Pipeline.arrRef spec3 w)) :=
  match w with
  | ⟨0, _⟩ => ((Agg2.dat (E4 m) c).arrAt_in 0 rfl _).trans <| (Agg2.A_eq (E4 m) c 0).trans (update_ne (W4 m c) main_arg1 main_v7 (o7 m c) (by decide)).symm
  | ⟨1, _⟩ => ((Agg2.dat (E4 m) c).arrAt_in 1 rfl _).trans <| (Agg2.A_eq (E4 m) c 1).trans (update_ne (W4 m c) main_v6 main_v7 (o7 m c) (by decide)).symm
  | ⟨2, _⟩ => ((Agg2.dat (E4 m) c).arrAt_in 2 rfl _).trans <| (Agg2.A_eq (E4 m) c 2).trans (update_ne (W4 m c) main_v1 main_v7 (o7 m c) (by decide)).symm
  | ⟨3, _⟩ => (update_at (W4 m c) main_v7 (o7 m c)).symm
/-- and every buffer that is none of them. -/
theorem rest3 (c : Dev nD) (b : Ref sig .tc) (hb : b ∉ Finset.univ.image (Pipeline.arrRef spec3)) :
    W5 m c (Proc.devRef .tc b) = W4 m c (Proc.devRef .tc b) :=
  update_ne (W4 m c) b main_v7 (o7 m c) fun h => hb (h ▸ Finset.mem_image.mpr ⟨3, Finset.mem_univ _, rfl⟩)

/-! ## The run -/

/-- THE RUN of the four regions: every weakly fair execution of @main from memory `m` terminates; at the end the result
    buffer main_v7 holds `o7 m c`, what the last region leaves over the contents the first three made, and every argument
    array is as launched. -/
theorem run_all (ρ : Dev nD → PrngReg) :
    θ_run defs (onTc (τ := τ) (main (F := F))) ⟨m, fun _ => 0, ρ⟩ (fun r => ∀ c : Dev nD,
      r.2.mem ((c.tc : Thread nD τ).loc main_v7) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((Whole.V5_main_v7 m (outs m) c).trans (outs_v7 m 5 c)), (h c).2⟩)
    (Whole.run_of_regions m ρ (outs m) (pdats m)
      -- region 0
      (fun c w => Proj1.A_eq (E1 m) c w) (fun c => (pdats m 0 c).share_full fun _ => rfl) (fun _ _ => rfl) (fun _ => rfl)
      (fun c => (Proj1.body_obligation (E1 m) c).loose) (Proj1.Phi_in (E1 m)) (Proj1.Phi_out (E1 m))
      (fun c w => (exit0 m c w).trans (congrFun (V2_eq m c) (Proc.devRef .tc (Pipeline.arrRef spec0 w))).symm)
      (fun c b hb => (congrFun (V2_eq m c) (Proc.devRef .tc b)).trans (rest0 m c b hb))
      -- region 1
      (fun c w => (Agg1.A_eq (E2 m) c w).trans (congrFun (V2_eq m c) (Proc.devRef .tc (Pipeline.arrRef spec1 w))).symm) (fun c => (pdats m 1 c).share_full fun _ => rfl) (fun _ _ => rfl) (fun _ => rfl)
      (fun c => (Agg1.body_obligation (E2 m) c).loose) (Agg1.Phi_in (E2 m)) (Agg1.Phi_out (E2 m))
      (fun c w => (exit1 m c w).trans (congrFun (V3_eq m c) (Proc.devRef .tc (Pipeline.arrRef spec1 w))).symm)
      (fun c b hb => (congrFun (V3_eq m c) (Proc.devRef .tc b)).trans ((rest1 m c b hb).trans (congrFun (V2_eq m c) (Proc.devRef .tc b)).symm))
      -- region 2
      (fun c w => (Proj2.A_eq (E3 m) c w).trans (congrFun (V3_eq m c) (Proc.devRef .tc (Pipeline.arrRef spec2 w))).symm) (fun c => (pdats m 2 c).share_full fun _ => rfl) (fun _ _ => rfl) (fun _ => rfl)
      (fun c => (Proj2.body_obligation (E3 m) c).loose) (Proj2.Phi_in (E3 m)) (Proj2.Phi_out (E3 m))
      (fun c w => (exit2 m c w).trans (congrFun (V4_eq m c) (Proc.devRef .tc (Pipeline.arrRef spec2 w))).symm)
      (fun c b hb => (congrFun (V4_eq m c) (Proc.devRef .tc b)).trans ((rest2 m c b hb).trans (congrFun (V3_eq m c) (Proc.devRef .tc b)).symm))
      -- region 3
      (fun c w => (Agg2.A_eq (E4 m) c w).trans (congrFun (V4_eq m c) (Proc.devRef .tc (Pipeline.arrRef spec3 w))).symm) (fun c => (pdats m 3 c).share_full fun _ => rfl) (fun _ _ => rfl) (fun _ => rfl)
      (fun c => (Agg2.body_obligation (E4 m) c).loose) (Agg2.Phi_in (E4 m)) (Agg2.Phi_out (E4 m))
      (fun c w => (exit3 m c w).trans (congrFun (V5_eq m c) (Proc.devRef .tc (Pipeline.arrRef spec3 w))).symm)
      (fun c b hb => (congrFun (V5_eq m c) (Proc.devRef .tc b)).trans ((rest3 m c b hb).trans (congrFun (V4_eq m c) (Proc.devRef .tc b)).symm)))

/-! ## The buffers the value of the result is stated over

Each region's inputs read back: an argument array through every replacement to the launch memory (no host operation
writes an argument), an earlier region's output at that region's result, a host result at what the host operations
leave. -/

theorem E1_main_arg0 (c : Dev nD) : E1 m c main_arg0 = m ((c : Thread nD τ).loc main_arg0) := V1_of m c main_arg0 (by decide)
theorem E1_main_arg2 (c : Dev nD) : E1 m c main_arg2 = m ((c : Thread nD τ).loc main_arg2) := V1_of m c main_arg2 (by decide)

theorem E2_main_arg1 (c : Dev nD) : E2 m c main_arg1 = m ((c : Thread nD τ).loc main_arg1) :=
  (update_ne (V1 m c) main_arg1 main_v4 (o4 m c) (by decide)).trans (V1_of m c main_arg1 (by decide))
theorem E2_main_v4 (c : Dev nD) : E2 m c main_v4 = o4 m c := update_at (V1 m c) main_v4 (o4 m c)
theorem E2_main_v0 (c : Dev nD) : E2 m c main_v0 = V1 m c main_v0 := update_ne (V1 m c) main_v0 main_v4 (o4 m c) (by decide)

theorem E3_main_v5 (c : Dev nD) : E3 m c main_v5 = o5 m c := update_at (W2 m c) main_v5 (o5 m c)
theorem E3_main_arg4 (c : Dev nD) : E3 m c main_arg4 = m ((c : Thread nD τ).loc main_arg4) :=
  (update_ne (W2 m c) main_arg4 main_v5 (o5 m c) (by decide)).trans
    ((update_ne (V1 m c) main_arg4 main_v4 (o4 m c) (by decide)).trans (V1_of m c main_arg4 (by decide)))

theorem E4_main_arg1 (c : Dev nD) : E4 m c main_arg1 = m ((c : Thread nD τ).loc main_arg1) :=
  (update_ne (W3 m c) main_arg1 main_v6 (o6 m c) (by decide)).trans
    ((update_ne (W2 m c) main_arg1 main_v5 (o5 m c) (by decide)).trans (E2_main_arg1 m c))
theorem E4_main_v6 (c : Dev nD) : E4 m c main_v6 = o6 m c := update_at (W3 m c) main_v6 (o6 m c)
theorem E4_main_v1 (c : Dev nD) : E4 m c main_v1 = V1 m c main_v1 :=
  (update_ne (W3 m c) main_v1 main_v6 (o6 m c) (by decide)).trans
    ((update_ne (W2 m c) main_v1 main_v5 (o5 m c) (by decide)).trans (update_ne (V1 m c) main_v1 main_v4 (o4 m c) (by decide)))

/-! ## The two bias rows as the host operations leave them -/

/-- main_v0 is the first bias, the 1024 entries of main_arg3 read as one row; -/
theorem V1_main_v0 (c : Dev nD) :
    V1 m c main_v0 = shapeCast S1x1024 (m ((c : Thread nD τ).loc main_arg3)) shapeCasts_S1024_S1x1024 := by
  show StableHlo.after hostOps0 (V0 m c) (Proc.devRef .tc main_v0) = _
  after_results
  rfl
/-- main_v1 the second, the 256 entries of main_arg5 read as one row. -/
theorem V1_main_v1 (c : Dev nD) :
    V1 m c main_v1 = shapeCast S1x256 (m ((c : Thread nD τ).loc main_arg5)) shapeCasts_S256_S1x256 := by
  show StableHlo.after hostOps0 (V0 m c) (Proc.devRef .tc main_v1) = _
  after_results
  rfl

end Cert.Kernel.Assembly

end
-- ==== Proof.Ideal.Whole.lean ====
/-
  The whole program @main of the kernel: six host operations, then four kernel regions in a row
  (S1 = x·W1 into main_v4, h = max(adj·S1 + b1, 0) into main_v5, S2 = h·W2 into main_v6,
  out = adj·S2 + b2 into main_v7).  This module runs the four regions one after the other over the
  valuations V1 … V5 of the unscoped buffers and NAMES THE RESULT: at the end main_v7 holds what the
  last valuation says, and every argument array is as launched.
-/
import proofs.«157708_j82497731822002_1_alg».proof.Proof.Gen.KernelIdeal.Regions
import Idealize.ShloMosaic.Lib.Pipeline.RegionsLoop

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

/-! ## The run of the four regions, with the result buffer read at the end -/

variable (m : (ℓ : Loc nD τ sig) → Buf (Elt F) ℓ)

-- the launch theorem's implicit arguments are found by unifying its conclusion with this one, which unfolds plain
-- definitions inside a metavariable's type
set_option backward.isDefEq.respectTransparency.types false in
/-- The four regions in a row.  Given, for each region K, a segment record entered from "the unscoped buffers held
    at V(K+1), beside the rest E K" and left at "held at V(K+2), beside E (K+1)", every weakly fair execution of
    @main from memory `m` terminates, and in every final memory the result buffer main_v7 holds `V5 m outs c main_v7`
    (what the last region left there) while each of the six argument arrays still holds its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c)) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m 𝒱₀ L lv E ι pdats R0 R1 R2 R3)
    (fun c Q => by
      rewrite [main_chain c, Seg.run_eq_chain,
        show (segs m 𝒱₀ L lv E ι pdats R0 R1 R2 R3 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, (hpost0 c).trans (hpre1 c), (hpost1 c).trans (hpre2 c), (hpost2 c).trans (hpre3 c), (hpost3 c).trans (sep_mono .rfl (hE4 c))⟩)
    (hinit := ?_) (QY := fun c s => s.mem ((c.tc : Thread nD τ).loc main_v7) = V5 m outs c main_v7 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- at the launch the unscoped buffers are held at V0; what remains of the launch state makes E 0 on all cores at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation: the result buffer as it stands there, each
    -- argument through the chain "no item writes it"
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c)⟩
    · iexact HSI

/-- The last valuation at the result buffer: what region 3 left in main_v7. -/
theorem V5_main_v7 (outs : Outs (F := F)) (c : Dev nD) : V5 m outs c main_v7 = outs 5 main_v7 c := by
  simp only [V5, Function.update_self]

/-! ## Each region as a segment of the run

Between two items core `c` holds every unscoped buffer whole, at a valuation, beside a rest that rides through every
item untouched: the core's generator register at some state, and the core owing nothing.  A region's proof data
enter here only through eight facts (the entry contents of its arrays, full shares, nothing owed at its cells, the
body obligation, its invariant at the two ends, its arrays' final contents, the other buffers unchanged). -/

section Segments

local notation "𝕄" => MT nD τ sig Unit (Elt F) ℕ (UR sig nD τ) ℕ

/-- What rides beside the unscoped buffers through every item: the generator register at some state, nothing owed. -/
abbrev Rest (c : Dev nD) : sProp 𝕄 :=
  iprop((∃ r, prngReg c r) ∗ ∃ W, owes (c : Thread nD τ) (0 : CellTallies nD τ sig Unit) W)

set_option backward.isDefEq.respectTransparency.types false in
/-- REGION 0 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg0
    (pdats : (p : Fin 4) → (c : Dev nD) → Dat τ (Elt F) Unit ℕ (UR sig nD τ) ℕ (cfgs p) c)
    (V V' : Dev nD → Valuation τ sig (Elt F))
    (hA : ∀ c w, (pdats 0 c).A w = V c (Pipeline.arrRef spec0 w))
    (hshare : ∀ c w, (pdats 0 c).share w = fullShare) (howed : ∀ c t, (pdats 0 c).owed t = 0)
    (hrec : ∀ c, (pdats 0 c).recorded 0 = Set.univ)
    (hbody : ∀ c, Pipeline.BodyObligationLoose (pdats 0 c) defs₀ Variants.none () Set.univ)
    (hΦin : ∀ c, Pipeline.ΦA spec0 c ⊢ (pdats 0 c).Φ 0)
    (hΦout : ∀ c, (pdats 0 c).Φ (Fin.last cfg0.N) ⊢ Pipeline.ΦA spec0 c)
    (hF : ∀ c w, (pdats 0 c).arrAt w cfg0.N = V' c (Pipeline.arrRef spec0 w))
    (hrest : ∀ c b, b ∉ Finset.univ.image (Pipeline.arrRef spec0) → V' c b = V c b) :
    Pipeline.RegionSeg (pcfgs (F := F)) adm pdats () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody := hbody
  hwaits := Pipeline.hwaits_of_owed_zero _ _ _ _ (fun _ => ∅) (fun _ _ => 0) 0 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm pdats launch0.win launch0.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c pdats (hshare c)
      (fun b => V c b) (fun b => V' c b) ((pdats 0 c).arrAt · cfg0.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 1 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg1
    (pdats : (p : Fin 4) → (c : Dev nD) → Dat τ (Elt F) Unit ℕ (UR sig nD τ) ℕ (cfgs p) c)
    (V V' : Dev nD → Valuation τ sig (Elt F))
    (hA : ∀ c w, (pdats 1 c).A w = V c (Pipeline.arrRef spec1 w))
    (hshare : ∀ c w, (pdats 1 c).share w = fullShare) (howed : ∀ c t, (pdats 1 c).owed t = 0)
    (hrec : ∀ c, (pdats 1 c).recorded 0 = Set.univ)
    (hbody : ∀ c, Pipeline.BodyObligationLoose (pdats 1 c) defs₀ Variants.none () Set.univ)
    (hΦin : ∀ c, Pipeline.ΦA spec1 c ⊢ (pdats 1 c).Φ 0)
    (hΦout : ∀ c, (pdats 1 c).Φ (Fin.last cfg1.N) ⊢ Pipeline.ΦA spec1 c)
    (hF : ∀ c w, (pdats 1 c).arrAt w cfg1.N = V' c (Pipeline.arrRef spec1 w))
    (hrest : ∀ c b, b ∉ Finset.univ.image (Pipeline.arrRef spec1) → V' c b = V c b) :
    Pipeline.RegionSeg (pcfgs (F := F)) adm pdats () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody := hbody
  hwaits := Pipeline.hwaits_of_owed_zero _ _ _ _ (fun _ => ∅) (fun _ _ => 0) 1 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs (p := 1) (pcfgs (F := F)) adm pdats launch1.win launch1.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c pdats (hshare c)
      (fun b => V c b) (fun b => V' c b) ((pdats 1 c).arrAt · cfg1.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 2 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg2
    (pdats : (p : Fin 4) → (c : Dev nD) → Dat τ (Elt F) Unit ℕ (UR sig nD τ) ℕ (cfgs p) c)
    (V V' : Dev nD → Valuation τ sig (Elt F))
    (hA : ∀ c w, (pdats 2 c).A w = V c (Pipeline.arrRef spec2 w))
    (hshare : ∀ c w, (pdats 2 c).share w = fullShare) (howed : ∀ c t, (pdats 2 c).owed t = 0)
    (hrec : ∀ c, (pdats 2 c).recorded 0 = Set.univ)
    (hbody : ∀ c, Pipeline.BodyObligationLoose (pdats 2 c) defs₀ Variants.none () Set.univ)
    (hΦin : ∀ c, Pipeline.ΦA spec2 c ⊢ (pdats 2 c).Φ 0)
    (hΦout : ∀ c, (pdats 2 c).Φ (Fin.last cfg2.N) ⊢ Pipeline.ΦA spec2 c)
    (hF : ∀ c w, (pdats 2 c).arrAt w cfg2.N = V' c (Pipeline.arrRef spec2 w))
    (hrest : ∀ c b, b ∉ Finset.univ.image (Pipeline.arrRef spec2) → V' c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody := hbody
  hwaits := Pipeline.hwaits_of_owed_zero _ _ _ _ (fun _ => ∅) (fun _ _ => 0) 2 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c pdats (hshare c)
      (fun b => V c b) (fun b => V' c b) ((pdats 2 c).arrAt · cfg2.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

set_option backward.isDefEq.respectTransparency.types false in
/-- REGION 3 as a segment between two valuations of the unscoped buffers.  Entered from "every unscoped buffer held at
    `V c`, beside the rest", it is left at "held at `V' c`, beside the rest": the windows' arrays are split out of the
    unscoped buffers at the entry contents (`hA`) and put back at what the write-backs leave (`hF`), every other
    unscoped buffer bypassing the region unchanged (`hrest`); the generator register goes into the region's invariant
    and comes back (`hΦin`, `hΦout`); nothing is owed at the staging cells (`howed`); the kernel has no semaphore of
    its own. -/
def reg3
    (pdats : (p : Fin 4) → (c : Dev nD) → Dat τ (Elt F) Unit ℕ (UR sig nD τ) ℕ (cfgs p) c)
    (V V' : Dev nD → Valuation τ sig (Elt F))
    (hA : ∀ c w, (pdats 3 c).A w = V c (Pipeline.arrRef spec3 w))
    (hshare : ∀ c w, (pdats 3 c).share w = fullShare) (howed : ∀ c t, (pdats 3 c).owed t = 0)
    (hrec : ∀ c, (pdats 3 c).recorded 0 = Set.univ)
    (hbody : ∀ c, Pipeline.BodyObligationLoose (pdats 3 c) defs₀ Variants.none () Set.univ)
    (hΦin : ∀ c, Pipeline.ΦA spec3 c ⊢ (pdats 3 c).Φ 0)
    (hΦout : ∀ c, (pdats 3 c).Φ (Fin.last cfg3.N) ⊢ Pipeline.ΦA spec3 c)
    (hF : ∀ c w, (pdats 3 c).arrAt w cfg3.N = V' c (Pipeline.arrRef spec3 w))
    (hrest : ∀ c b, b ∉ Finset.univ.image (Pipeline.arrRef spec3) → V' c b = V c b) :
    Pipeline.RegionSeg (pcfgs (F := F)) adm pdats () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody := hbody
  hwaits := Pipeline.hwaits_of_owed_zero _ _ _ _ (fun _ => ∅) (fun _ _ => 0) 3 howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (Ix := Unit) (Name := ℕ) (U := UR sig nD τ) (Lvl := ℕ) spec3 c (fun b => V c b)
  hentry c := by
    rw [Pipeline.ownSems0_none]
    have hsplit := Pipeline.arrays_of_unscopedBufs (p := 3) (pcfgs (F := F)) adm pdats launch3.win launch3.arr_whole c
      (hshare c) (fun b => V c b) (hA c)
    rw [Pipeline.unscopedBufs_held] at hsplit
    iintro ⟨⟨Hheld, Hreg, Howe⟩, -, -⟩
    ihave Hs := hsplit $$ Hheld
    icases Hs with ⟨Harr, Hbypass⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- the core owes nothing, and the data bound the recorded pairs at the first point by nothing
      unfold Pipeline.Dat.owesAt Pipeline.owesWithin Pipeline.Dat.bound; rw [howed c 0, hrec c]
      icases Howe with ⟨%W, Howe⟩; iexists W; isplitr; · ipureintro; exact fun _ _ => Or.inl trivial
      iexact Howe
    isplitl [Hreg]; · iexact Hreg
    iexact Hbypass
  hin c := by
    refine .trans ?_ (hΦin c)
    unfold Pipeline.ΦA
    iintro ⟨Hreg, -, Hscoped⟩
    isplitl [Hscoped]; · iexact Hscoped
    iexact Hreg
  hout c := by
    rw [Pipeline.ownSems0_none]
    refine (hΦout c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c pdats (hshare c)
      (fun b => V c b) (fun b => V' c b) ((pdats 3 c).arrAt · cfg3.N) (hF c) (hrest c)
    rw [Pipeline.unscopedBufs_held] at hjoin
    iintro ⟨Harr, Howe, Hreg, Hbypass⟩
    imodintro
    isplitl [Harr Hbypass]
    · iapply hjoin; isplitl [Harr] <;> iassumption
    isplitl [Hreg]; · iexact Hreg
    unfold Pipeline.Dat.owesAt Pipeline.owesWithin; rw [howed c (Fin.last _)]
    icases Howe with ⟨%W, -, Howe⟩; iexists W; iexact Howe

/-! ## The whole run from the four regions' facts -/

/-- THE RUN, from the regions' proof data.  Given proof data for the four pipelines and, for each region K, its nine
    facts between the valuations V(K+1) and V(K+2) (its arrays enter at V(K+1), leave at V(K+2), and nothing else
    changes), every weakly fair execution of @main from memory `m` terminates; at the end main_v7 holds
    `V5 m outs c main_v7` and every argument array is as launched.  The launch owes nothing, names no level, and keeps
    of what it deals only the generator register and the (empty) debt: that is the rest `Rest` every item carries. -/
theorem run_of_regions (ρ : Dev nD → PrngReg) (outs : Outs (F := F))
    (pdats : (p : Fin 4) → (c : Dev nD) → Dat τ (Elt F) Unit ℕ (UR sig nD τ) ℕ (cfgs p) c)
    (hA0 : ∀ c w, (pdats 0 c).A w = V1 m c (Pipeline.arrRef spec0 w))
    (hshare0 : ∀ c w, (pdats 0 c).share w = fullShare) (howed0 : ∀ c t, (pdats 0 c).owed t = 0)
    (hrec0 : ∀ c, (pdats 0 c).recorded 0 = Set.univ)
    (hbody0 : ∀ c, Pipeline.BodyObligationLoose (pdats 0 c) defs₀ Variants.none () Set.univ)
    (hΦin0 : ∀ c, Pipeline.ΦA spec0 c ⊢ (pdats 0 c).Φ 0)
    (hΦout0 : ∀ c, (pdats 0 c).Φ (Fin.last cfg0.N) ⊢ Pipeline.ΦA spec0 c)
    (hF0 : ∀ c w, (pdats 0 c).arrAt w cfg0.N = V2 m outs c (Pipeline.arrRef spec0 w))
    (hrest0 : ∀ c b, b ∉ Finset.univ.image (Pipeline.arrRef spec0) → V2 m outs c b = V1 m c b)
    (hA1 : ∀ c w, (pdats 1 c).A w = V2 m outs c (Pipeline.arrRef spec1 w))
    (hshare1 : ∀ c w, (pdats 1 c).share w = fullShare) (howed1 : ∀ c t, (pdats 1 c).owed t = 0)
    (hrec1 : ∀ c, (pdats 1 c).recorded 0 = Set.univ)
    (hbody1 : ∀ c, Pipeline.BodyObligationLoose (pdats 1 c) defs₀ Variants.none () Set.univ)
    (hΦin1 : ∀ c, Pipeline.ΦA spec1 c ⊢ (pdats 1 c).Φ 0)
    (hΦout1 : ∀ c, (pdats 1 c).Φ (Fin.last cfg1.N) ⊢ Pipeline.ΦA spec1 c)
    (hF1 : ∀ c w, (pdats 1 c).arrAt w cfg1.N = V3 m outs c (Pipeline.arrRef spec1 w))
    (hrest1 : ∀ c b, b ∉ Finset.univ.image (Pipeline.arrRef spec1) → V3 m outs c b = V2 m outs c b)
    (hA2 : ∀ c w, (pdats 2 c).A w = V3 m outs c (Pipeline.arrRef spec2 w))
    (hshare2 : ∀ c w, (pdats 2 c).share w = fullShare) (howed2 : ∀ c t, (pdats 2 c).owed t = 0)
    (hrec2 : ∀ c, (pdats 2 c).recorded 0 = Set.univ)
    (hbody2 : ∀ c, Pipeline.BodyObligationLoose (pdats 2 c) defs₀ Variants.none () Set.univ)
    (hΦin2 : ∀ c, Pipeline.ΦA spec2 c ⊢ (pdats 2 c).Φ 0)
    (hΦout2 : ∀ c, (pdats 2 c).Φ (Fin.last cfg2.N) ⊢ Pipeline.ΦA spec2 c)
    (hF2 : ∀ c w, (pdats 2 c).arrAt w cfg2.N = V4 m outs c (Pipeline.arrRef spec2 w))
    (hrest2 : ∀ c b, b ∉ Finset.univ.image (Pipeline.arrRef spec2) → V4 m outs c b = V3 m outs c b)
    (hA3 : ∀ c w, (pdats 3 c).A w = V4 m outs c (Pipeline.arrRef spec3 w))
    (hshare3 : ∀ c w, (pdats 3 c).share w = fullShare) (howed3 : ∀ c t, (pdats 3 c).owed t = 0)
    (hrec3 : ∀ c, (pdats 3 c).recorded 0 = Set.univ)
    (hbody3 : ∀ c, Pipeline.BodyObligationLoose (pdats 3 c) defs₀ Variants.none () Set.univ)
    (hΦin3 : ∀ c, Pipeline.ΦA spec3 c ⊢ (pdats 3 c).Φ 0)
    (hΦout3 : ∀ c, (pdats 3 c).Φ (Fin.last cfg3.N) ⊢ Pipeline.ΦA spec3 c)
    (hF3 : ∀ c w, (pdats 3 c).arrAt w cfg3.N = V5 m outs c (Pipeline.arrRef spec3 w))
    (hrest3 : ∀ c b, b ∉ Finset.univ.image (Pipeline.arrRef spec3) → V5 m outs c b = V4 m outs c b) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m (Ix := Unit) (U := UR sig nD τ) (Lvl := ℕ) emb₁ () Variants.none (fun _ => ∅) (fun _ _ => 0) (fun _ _ => rfl) ρ outs pdats
    (fun _ => 0) (fun _ => iprop(emp)) (initOf (Pipeline.cells cfgs cellOf_inj) (Pipeline.launchToks cfgs cellOf_inj))
    (by
      -- the launch element is the pipelines' own, whole; no further ghost resource is dealt
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest c)
    (by
      -- of what the launch deals on a core, the generator register and the empty debt are kept
      have hcore : ∀ c : Dev nD, iprop(unscopedSems0 c ∗ owes (c : Thread nD τ) (0 : CellTallies nD τ sig Unit) ∅
            ∗ Pipeline.launchCred (fun _ : Dev nD => (0 : CellTallies nD τ sig Unit)) c ∗ prngReg c (ρ c) ∗ emp) ⊢ (Rest c : sProp 𝕄) := fun c => by
        iintro ⟨-, Howe, -, Hreg, -⟩
        isplitl [Hreg]; · iexists (ρ c); iexact Hreg
        iexists ∅; iexact Howe
      have hall : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ emp))
          ⊢ (bigSep Finset.univ (fun c : Dev nD => Rest c) : sProp 𝕄) := bigSep_mono fun c _ => hcore c
      iintro ⟨H, -⟩
      imodintro
      ihave H' := hall $$ H
      iexact H')
    (fun c => by iintro ⟨-, Howe⟩; iexact Howe)
    (reg0 pdats (V1 m) (V2 m outs) hA0 hshare0 howed0 hrec0 hbody0 hΦin0 hΦout0 hF0 hrest0) (fun _ => .rfl) (fun _ => .rfl)
    (reg1 pdats (V2 m outs) (V3 m outs) hA1 hshare1 howed1 hrec1 hbody1 hΦin1 hΦout1 hF1 hrest1) (fun _ => .rfl) (fun _ => .rfl)
    (reg2 pdats (V3 m outs) (V4 m outs) hA2 hshare2 howed2 hrec2 hbody2 hΦin2 hΦout2 hF2 hrest2) (fun _ => .rfl) (fun _ => .rfl)
    (reg3 pdats (V4 m outs) (V5 m outs) hA3 hshare3 howed3 hrec3 hbody3 hΦin3 hΦout3 hF3 hrest3) (fun _ => .rfl) (fun _ => .rfl)

end Segments

end Cert.KernelIdeal.Whole

end
-- ==== Proof.Ideal.Proj1.lean ====
/-
  The first projection, `S1 = x · W1`, as the first of the program's four kernel regions.

  The grid walks the 16 blocks of 1024 rows of `x`; the contraction axis (512) is one block, so every grid point is both
  the first and the last step of its row block: the body zeroes the accumulator, adds the product of the point's
  1024 × 512 block of `x` with the whole 512 × 1024 `W1` to it, and copies the accumulator into the output block. So the
  output block after a point is `acc0 + xblock · W1` with `acc0` the zero accumulator, whatever the accumulator held
  before; the bias operand (a row of zeros) is staged and never read.

  Stated here, for any value family: the blocks the body finds, what it leaves, the body's triple, and the region's
  proof data with its obligation, over the buffer contents `V` the region is entered at.
-/
import proofs.«157708_j82497731822002_1_alg».proof.Proof.Gen.KernelIdeal.Launch
import proofs.«157708_j82497731822002_1_alg».proof.Proof.Gen.KernelIdeal.Skeleton
import proofs.«157708_j82497731822002_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Proj1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid0.Coords) : Prop :=
  (Scalar.cmpi .ne (Scalar.extui (Scalar.cmpi .eq (BitVec.ofNat 32 (i 2).val) 0#32)) 0#32) = 1#1
/-- "This is the last step along the contraction axis", as the body computes it. -/
abbrev lastStep (i : grid0.Coords) : Prop := k0_cond2 i = 1#1

/-- The contraction axis has one block: every point is a first step, -/
theorem firstStep_all : ∀ t : Fin cfg0.N, firstStep (grid0.coords t) :=
  (by decide +kernel : ∀ t : Fin grid0.N, firstStep (grid0.coords t))
/-- and a last step; -/
theorem lastStep_all : ∀ t : Fin cfg0.N, lastStep (grid0.coords t) :=
  (by decide +kernel : ∀ t : Fin grid0.N, lastStep (grid0.coords t))
/-- so the output window is live at every point. -/
theorem live_out : ∀ t : Fin cfg0.N, cfg0.idle 3 (grid0.coords t) = false :=
  (by decide +kernel : ∀ t : Fin grid0.N, idle0 3 (grid0.coords t) = false)

/-! ## The blocks, and what the body leaves -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block of a point: the zero accumulator plus the product of the point's rows of `x` with `W1`. -/
def rowsTimes (x0 : Vec F S1024x512 .f32) (x1 : Vec F S512x1024 .f32) : Vec F S1024x1024 .f32 :=
  k0_pay2 x0 x1 (k0_pay1 (F := F))

/-- The whole-buffer rectangles start at the origin. -/
theorem z_acc : (![0, 0] : Fin S1024x1024.rank → Nat) = fun _ => 0 := by
  funext a; match a with | ⟨0, _⟩ => rfl | ⟨1, _⟩ => rfl
theorem z_x : (![0, 0] : Fin S1024x512.rank → Nat) = fun _ => 0 := by
  funext a; match a with | ⟨0, _⟩ => rfl | ⟨1, _⟩ => rfl
theorem z_w : (![0, 0] : Fin S512x1024.rank → Nat) = fun _ => 0 := by
  funext a; match a with | ⟨0, _⟩ => rfl | ⟨1, _⟩ => rfl

/-! ## The body's triple -/

set_option maxHeartbeats 1000000 in
/-- On whole staging memrefs — the two inputs at contents `x0`, `x1`, the output's and the accumulator's at anything — the
    body at a point that is both a first and a last step runs to the continuation with the inputs as they were, the
    output at `rowsTimes x0 x1` and the accumulator at some contents. The bias memref is not touched. -/
theorem sound_kernel (c : Dev nD) (E : Set ℕ) (i : grid0.Coords) (h1 : firstStep i) (h2 : lastStep i)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S512x1024 .f32) (K : PUnit → sProp 𝕄) :
    iprop(owns (c : Thread nD τ) arg3 fullShare x0 ∗ owns (c : Thread nD τ) arg4 fullShare x1
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg6 fullShare (rowsTimes x0 x1)
            ∗ (∃ d, owns (c : Thread nD τ) arg7 fullShare d)) -∗ K ⟨⟩))
      ⊢ wp frame (wpE (defs₀ (F := F)) Variants.none c none) E
          (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [View.read_writes_eq_canon _ _ _ (fun y => ⟨_, List.mem_singleton_self _, View.mem_set_unit_zero z_acc inb_S1024x1024_S1024x1024_0_0 y⟩),
      View.canon_unit_zero z_acc]
    sl_unfold_run_names
    rw [View.readCov_unit_zero (Val := Elt F) arg7.view z_acc inb_S1024x1024_S1024x1024_0_0,
      View.readCov_eq_canon_ld _ _ _ (fun y => ⟨_, List.Mem.head _, View.mem_set_unit_zero z_acc inb_S1024x1024_S1024x1024_0_0 y⟩),
      View.canon_cons_unit_zero z_acc, View.ld_unit_zero z_acc,
      View.readAt_eq_ld, View.readAt_eq_ld, View.ld_unit_zero z_x, View.ld_unit_zero z_w]
    rfl
  · iexists _, _; isplitr
    swap; · iexact H7
    ipureintro; rfl

/-! ## The region's proof data -/

/-- The proof data of this pipeline on core `c`: the arrays as the region finds them; after the body at a point each
    input's buffer still at its block, the output's at the product of the point's blocks; the invariant the class's
    (the scratch and the generator register at anything: the accumulator is reset at every point); full shares,
    nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => rowsTimes (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = rowsTimes (blk V c 0 t) (blk V c 1 t) := by dsimp only [dat]

/-- An input's staging buffer holds its block at every point, fetched there or not: the body leaves it in place and
    an unfetched window's block index has not moved. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The class invariant with this region's accumulator taken out -/

/-- The accumulator's buffer, whole. -/
abbrev accM : Memref sig .tc .vmem S1024x1024 .f32 := Memref.whole cc0_scratch0

/-- The class invariant is the accumulator at some contents, the other scoped buffers that are no staging buffer of
    this region at some contents each, and the generator register at some state. -/
theorem PhiA_split (c : Dev nD) :
    (Pipeline.ΦA spec0 c : sProp 𝕄)
      = iprop(((∃ d, owns (c : Thread nD τ) accM fullShare d)
          ∗ Pipeline.scopedRestBut (Ix := Unit) (Name := ℕ) (U := UR sig nD τ) (Lvl := ℕ) (Val := Elt F) spec0 c [cc0_scratch0])
          ∗ ∃ r, prngReg c r) := by
  unfold Pipeline.ΦA
  rw [Pipeline.scopedRest_split_of_list spec0 c [cc0_scratch0] (by decide) (by decide)]
  simp only [bigSepL_singleton, accM, owns_whole]
  rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point: the inputs' memrefs hold their blocks, the accumulator comes out of the invariant at some
    contents and goes back at some contents, the bias buffer, the invariant's rest and the core's `owes` pass through
    unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).leavesExact 0 t = owns (c : Thread nD τ) (st0_0 t) fullShare ((dat V c).after 0 t) from rfl,
    show (dat V c).leavesExact 1 t = owns (c : Thread nD τ) (st0_1 t) fullShare ((dat V c).after 1 t) from rfl,
    show (dat V c).leavesExact 2 t = owns (c : Thread nD τ) (st0_2 t) fullShare ((dat V c).after 2 t) from rfl,
    show (dat V c).leavesExact 3 t = owns (c : Thread nD τ) (st0_3 t) fullShare ((dat V c).after 3 t) from by
      unfold Dat.leavesExact; rw [live_out t],
    show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec0 c from rfl, PhiA_split]
  iintro ⟨⟨⟨HS, HR⟩, Hg⟩, Ho, ⟨%d0, H0⟩, ⟨%d1, H1⟩, ⟨%d2, H2⟩, ⟨%d3, H3⟩⟩
  iapply (sound_kernel c Set.univ (grid0.coords t) (firstStep_all t) (lastStep_all t) _ _ _ _ _ _ _ _ _ _
    (blk V c 0 t) (blk V c 1 t) _)
  isplitl [H0]; · iexact H0
  isplitl [H1]; · iexact H1
  isplitl [H3]; · iexists _; iexact H3
  isplitl [HS]; · iexact HS
  iintro ⟨H0, H1, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the class's at every point: in at the first, -/
theorem Phi_in (c : Dev nD) : Pipeline.ΦA spec0 c ⊢ (dat V c).Φ 0 := .rfl
/-- out at the last. -/
theorem Phi_out (c : Dev nD) : (dat V c).Φ (Fin.last cfg0.N) ⊢ Pipeline.ΦA spec0 c := .rfl

end Cert.KernelIdeal.Proj1

end
-- ==== Proof.Ideal.Agg1.lean ====
/-
  The first aggregation, `h = max(adj · S1 + b1, 0)`, as the second of the program's four kernel regions.

  The grid walks 16 row blocks (of 1024 rows of `adj`) and, inside each, 16 steps along the contraction axis (blocks of 1024
  columns of `adj` against 1024 rows of `S1`). The body keeps an accumulator in a scratch buffer that survives from point
  to point: at the first step of a row block it zeroes it, at every step it adds the product of the step's two blocks to
  it, and at the last step it adds the bias row, clamps below at zero and stores the result into the output block. With
  `acc t` what the scratch holds after point `t`:

      acc t = step (adj block at t) (S1 block at t) (zeros, if t is a first step; acc (t - 1) otherwise)

  and the output block after a last step `t` is `finish (acc t) bias`. At the other points the body does not touch the
  output buffer, and the pipeline does not write it back there.

  Stated here, for any value family: the blocks the body finds, the accumulator point by point, the body's triple in
  each of its three control cases, and the region's proof data with its obligation, over the buffer contents `V` the
  region is entered at.
-/
import proofs.«157708_j82497731822002_1_alg».proof.Proof.Gen.KernelIdeal.Launch
import proofs.«157708_j82497731822002_1_alg».proof.Proof.Gen.KernelIdeal.Skeleton
import proofs.«157708_j82497731822002_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Pipeline.Kit
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid1.Coords) : Prop :=
  (Scalar.cmpi .ne (Scalar.extui (Scalar.cmpi .eq (BitVec.ofNat 32 (i 2).val) 0#32)) 0#32) = 1#1
/-- "This is the last step along the contraction axis", as the body computes it. -/
abbrev lastStep (i : grid1.Coords) : Prop := k1_cond2 i = 1#1

/-- The contraction axis is the innermost of the grid and has 16 blocks: the first steps are the points ≡ 0 (mod 16), -/
theorem firstStep_iff : ∀ t : Fin cfg1.N, firstStep (grid1.coords t) ↔ t.val % 16 = 0 :=
  (by decide +kernel : ∀ t : Fin grid1.N, firstStep (grid1.coords t) ↔ t.val % 16 = 0)
/-- and the last steps the points ≡ 15 (mod 16). -/
theorem lastStep_iff : ∀ t : Fin cfg1.N, lastStep (grid1.coords t) ↔ t.val % 16 = 15 :=
  (by decide +kernel : ∀ t : Fin grid1.N, lastStep (grid1.coords t) ↔ t.val % 16 = 15)

/-- Off the last steps the output window is idle: the body stores nothing into it, -/
theorem out_idle : ∀ t : Fin cfg1.N, t.val % 16 ≠ 15 → cfg1.idle 3 (grid1.coords t) = true :=
  (by decide +kernel : ∀ t : Fin grid1.N, t.val % 16 ≠ 15 → idle1 3 (grid1.coords t) = true)
/-- and the pipeline does not write its block back. -/
theorem out_kept : ∀ t : Fin cfg1.N, t.val % 16 ≠ 15 → (cfg1.win 3).flush t = false :=
  (by decide +kernel : ∀ t : Fin grid1.N, t.val % 16 ≠ 15 → win1_3.flush t = false)
/-- At a last step it is live. -/
theorem out_live : ∀ t : Fin cfg1.N, t.val % 16 = 15 → cfg1.idle 3 (grid1.coords t) = false :=
  (by decide +kernel : ∀ t : Fin grid1.N, t.val % 16 = 15 → idle1 3 (grid1.coords t) = false)

/-- The whole-buffer rectangles start at the origin. -/
theorem z_sq : (![0, 0] : Fin S1024x1024.rank → Nat) = fun _ => 0 := by
  funext a; match a with | ⟨0, _⟩ => rfl | ⟨1, _⟩ => rfl
theorem z_row : (![0, 0] : Fin S1x1024.rank → Nat) = fun _ => 0 := by
  funext a; match a with | ⟨0, _⟩ => rfl | ⟨1, _⟩ => rfl

/-! ## The blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple, case by case

On whole memrefs: `arg3`, `arg4` the two input blocks at contents `x0`, `x1`; `arg5` the bias row; `arg6` the output block;
`arg7` the accumulator. A buffer a case does not touch is left out of its triple. -/

set_option maxHeartbeats 1000000 in
/-- A step that is neither the first nor the last of its row block adds the blocks' product to the accumulator. -/
theorem body_middle (c : Dev nD) (E : Set ℕ) (i : grid1.Coords) (h1 : ¬firstStep i) (h2 : ¬lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 s : Vec F S1024x1024 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f7, %hf7, H7⟩, Hk⟩
  subst hf0; subst hf1; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_singleton_self _, View.mem_set_unit_zero z_sq inb_S1024x1024_S1024x1024_0_0 y⟩),
    View.canon_unit_zero z_sq]
  sl_unfold_run_names
  rw [View.readAt_eq_ld, View.readAt_eq_ld, View.readAt_eq_ld, View.ld_unit_zero z_sq, View.ld_unit_zero z_sq, View.ld_unit_zero z_sq]

set_option maxHeartbeats 1000000 in
/-- The first step of a row block (not also its last) zeroes the accumulator, whatever it held, and adds the blocks'
    product to it. -/
theorem body_first (c : Dev nD) (E : Set ℕ) (i : grid1.Coords) (h1 : firstStep i) (h2 : ¬lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.Mem.head _, View.mem_set_unit_zero z_sq inb_S1024x1024_S1024x1024_0_0 y⟩),
    View.canon_cons_unit_zero z_sq]
  sl_unfold_run_names
  rw [View.readCov_unit_zero (Val := Elt F) arg7.view z_sq inb_S1024x1024_S1024x1024_0_0,
    View.readAt_eq_ld, View.readAt_eq_ld, View.ld_unit_zero z_sq, View.ld_unit_zero z_sq]

set_option maxHeartbeats 1000000 in
/-- The last step of a row block (not also its first) adds the blocks' product to the accumulator, then stores the
    accumulator plus the bias row, clamped below at zero, into the output block, whatever that held. -/
theorem body_last (c : Dev nD) (E : Set ℕ) (i : grid1.Coords) (h1 : ¬firstStep i) (h2 : lastStep i)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 s : Vec F S1024x1024 .f32) (x2 : Vec F S1x1024 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero z_sq inb_S1024x1024_S1024x1024_0_0 y⟩),
      View.canon_unit_zero z_sq]
    sl_unfold_run_names
    rw [View.readCov_unit_zero (Val := Elt F) arg7.view z_sq inb_S1024x1024_S1024x1024_0_0,
      View.readAt_eq_ld, View.readAt_eq_ld, View.readAt_eq_ld, View.readAt_eq_ld,
      View.ld_unit_zero z_sq, View.ld_unit_zero z_sq, View.ld_unit_zero z_sq, View.ld_unit_zero z_row]
  · iexists _; isplitr
    swap; · iexact H7
    ipureintro
    sl_unfold_run_names
    rw [View.read_writes_eq_canon _ _ _ (fun y => ⟨_, List.mem_singleton_self _, View.mem_set_unit_zero z_sq inb_S1024x1024_S1024x1024_0_0 y⟩),
      View.canon_unit_zero z_sq]
    rw [View.readAt_eq_ld, View.readAt_eq_ld, View.readAt_eq_ld, View.ld_unit_zero z_sq, View.ld_unit_zero z_sq, View.ld_unit_zero z_sq]

/-! ## The accumulator, point by point -/

/-- What the accumulator holds after the body at point `n`: the blocks' product added to zeros at a first step, to what
    the point before left otherwise. -/
def acc (c : Dev nD) : (n : ℕ) → n < cfg1.N → Vec F S1024x1024 .f32
  | 0, hn => k1_pay2 (blk V c 0 ⟨0, hn⟩) (blk V c 1 ⟨0, hn⟩) (k1_pay1 (F := F))
  | n + 1, hn =>
    if (n + 1) % 16 = 0 then k1_pay2 (blk V c 0 ⟨n + 1, hn⟩) (blk V c 1 ⟨n + 1, hn⟩) (k1_pay1 (F := F))
    else k1_pay2 (blk V c 0 ⟨n + 1, hn⟩) (blk V c 1 ⟨n + 1, hn⟩) (acc c n (Nat.lt_of_succ_lt hn))

/-- At a first step the accumulator restarts from zeros. -/
theorem acc_first (c : Dev nD) (t : Fin cfg1.N) (h : t.val % 16 = 0) :
    acc V c t.val t.isLt = k1_pay2 (blk V c 0 t) (blk V c 1 t) (k1_pay1 (F := F)) := by
  obtain ⟨n, hn⟩ := t
  cases n with
  | zero => rfl
  | succ n => exact (if_pos h).trans rfl

/-- At any other step it goes on from what the point before left. -/
theorem acc_next (c : Dev nD) (t : Fin cfg1.N) (h : t.val % 16 ≠ 0) :
    acc V c t.val t.isLt
      = k1_pay2 (blk V c 0 t) (blk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the class's, with the accumulator at what the point before left -/

/-- The accumulator's buffer, whole. -/
abbrev accM : Memref sig .tc .vmem S1024x1024 .f32 := Memref.whole cc1_scratch0

/-- The core's other scoped buffers that are no staging buffer of this region, at some contents each. -/
abbrev others (c : Dev nD) : sProp 𝕄 :=
  Pipeline.scopedRestBut (Ix := Unit) (Name := ℕ) (U := UR sig nD τ) (Lvl := ℕ) (Val := Elt F) spec1 c [cc1_scratch0]

/-- The class invariant is the accumulator at some contents, the other scoped buffers that are no staging buffer of
    this region at some contents each, and the generator register at some state. -/
theorem PhiA_split (c : Dev nD) :
    (Pipeline.ΦA spec1 c : sProp 𝕄)
      = iprop(((∃ d, owns (c : Thread nD τ) accM fullShare d) ∗ others c) ∗ ∃ r, prngReg c r) := by
  unfold Pipeline.ΦA
  rw [Pipeline.scopedRest_split_of_list spec1 c [cc1_scratch0] (by decide) (by decide)]
  simp only [bigSepL_singleton, accM, owns_whole]
  rfl

/-- The invariant before position `n`: the class's before the first point; afterwards the same with the accumulator at
    what the point before left in it. -/
def Phi (c : Dev nD) : (n : ℕ) → n ≤ cfg1.N → sProp 𝕄
  | 0, _ => Pipeline.ΦA spec1 c
  | n + 1, hn => iprop((owns (c : Thread nD τ) accM fullShare (acc V c n hn) ∗ others c) ∗ ∃ r, prngReg c r)

theorem Phi_zero (c : Dev nD) (h : 0 ≤ cfg1.N) : Phi V c 0 h = Pipeline.ΦA spec1 c := rfl

theorem Phi_succ (c : Dev nD) (n : ℕ) (hn : n < cfg1.N) :
    Phi V c (n + 1) hn = iprop((owns (c : Thread nD τ) accM fullShare (acc V c n hn) ∗ others c) ∗ ∃ r, prngReg c r) := rfl

/-- Before a point that is not the first the accumulator holds what the point before left. -/
theorem Phi_pos (c : Dev nD) (n : ℕ) (h : n ≤ cfg1.N) (hz : n ≠ 0) :
    Phi V c n h = iprop((owns (c : Thread nD τ) accM fullShare (acc V c (n - 1) (by omega)) ∗ others c) ∗ ∃ r, prngReg c r) := by
  cases n with
  | zero => exact absurd rfl hz
  | succ n => rfl

/-- At any position the invariant yields the class's: the accumulator's contents are forgotten. -/
theorem Phi_forget (c : Dev nD) (n : ℕ) (h : n ≤ cfg1.N) :
    Phi V c n h ⊢ iprop(((∃ d, owns (c : Thread nD τ) accM fullShare d) ∗ others c) ∗ ∃ r, prngReg c r) := by
  cases n with
  | zero => rw [Phi_zero, PhiA_split]
  | succ n =>
    rw [Phi_succ]
    iintro ⟨⟨HS, HR⟩, Hg⟩
    isplitl [HS HR]
    · isplitl [HS]; · iexists _; iexact HS
      iexact HR
    iexact Hg

/-! ## The region's proof data -/

/-- The proof data of this pipeline on core `c`: the arrays as the region finds them; after the body at a point each
    input's buffer still at its block, the output's at the accumulator plus the bias row clamped below at zero (read
    only at the last steps, where the body stores it); the invariant above; full shares, nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay3 (acc V c t.val t.isLt) (blk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = k1_pay3 (acc V c t.val t.isLt) (blk V c 2 t) := by dsimp only [dat]

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-- An input's staging buffer holds its block at every point, fetched there or not: the body leaves it in place and
    an unfetched window's block index has not moved. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' memrefs hold their blocks. At a first step the accumulator comes out of the
    invariant at some contents; at any other at what the point before left. It goes back at this point's contents. Off
    the last steps the output's buffer passes through untouched, as the pipeline expects of an idle window it does not
    write back; at a last step it is taken at anything and handed back at the finished block. The bias buffer is
    read at the last steps only and left in place everywhere; the invariant's rest and the core's `owes` pass through
    unread. No point is both a first and a last step. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).leavesExact 0 t = owns (c : Thread nD τ) (st1_0 t) fullShare ((dat V c).after 0 t) from rfl,
    show (dat V c).leavesExact 1 t = owns (c : Thread nD τ) (st1_1 t) fullShare ((dat V c).after 1 t) from rfl,
    show (dat V c).leavesExact 2 t = owns (c : Thread nD τ) (st1_2 t) fullShare ((dat V c).after 2 t) from rfl,
    show (dat V c).owesAt () t.succ = (dat V c).owesAt () t.castSucc from rfl,
    after_0, after_1, after_2,
    show (dat V c).Φ t.succ = Phi V c (t.val + 1) t.isLt from rfl, Phi_succ, Phi_castSucc]
  by_cases h0 : t.val % 16 = 0
  · have h15 : t.val % 16 ≠ 15 := by omega
    rw [Dat.leavesExact_idle (dat V c) 3 t (out_idle t h15) (out_kept t h15), acc_first V c t h0]
    iintro ⟨HΦ, Ho, ⟨%d0, H0⟩, ⟨%d1, H1⟩, ⟨%d2, H2⟩, H3⟩
    ihave ⟨⟨HS, HR⟩, Hg⟩ := (Phi_forget V c t.val _) $$ HΦ
    iapply (body_first c Set.univ (grid1.coords t) ((firstStep_iff t).mpr h0) (fun h => h15 ((lastStep_iff t).mp h))
      _ _ _ _ _ _ _ _ _ _ (blk V c 0 t) (blk V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz]
    by_cases h15 : t.val % 16 = 15
    · rw [show (dat V c).leavesExact 3 t = owns (c : Thread nD τ) (st1_3 t) fullShare ((dat V c).after 3 t) from by
          unfold Dat.leavesExact; rw [out_live t h15], after_3, acc_next V c t h0]
      iintro ⟨⟨⟨HS, HR⟩, Hg⟩, Ho, ⟨%d0, H0⟩, ⟨%d1, H1⟩, ⟨%d2, H2⟩, ⟨%d3, H3⟩⟩
      iapply (body_last c Set.univ (grid1.coords t) (fun h => h0 ((firstStep_iff t).mp h)) ((lastStep_iff t).mpr h15)
        _ _ _ _ _ _ _ _ _ _ (blk V c 0 t) (blk V c 1 t) _ (blk V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (out_idle t h15) (out_kept t h15), acc_next V c t h0]
      iintro ⟨⟨⟨HS, HR⟩, Hg⟩, Ho, ⟨%d0, H0⟩, ⟨%d1, H1⟩, ⟨%d2, H2⟩, H3⟩
      iapply (body_middle c Set.univ (grid1.coords t) (fun h => h0 ((firstStep_iff t).mp h)) (fun h => h15 ((lastStep_iff t).mp h))
        _ _ _ _ _ _ _ _ _ _ (blk V c 0 t) (blk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 :=
  Entails.of_eq (show Pipeline.ΦA spec1 c = Phi V c 0 (Nat.zero_le _) from rfl)

/-- After the last point the invariant gives the class's back: the accumulator's contents are forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    PhiA_split]
  exact Phi_forget V c _ _

end Cert.KernelIdeal.Agg1

end
-- ==== Proof.Ideal.Proj2.lean ====
/-
  The second projection, `S2 = h · W2`, as the third of the program's four kernel regions.

  The grid walks the 16 blocks of 1024 rows of `h`; the contraction axis (1024) is one block, so every grid point is both
  the first and the last step of its row block: the body zeroes the accumulator, adds the product of the point's
  1024 × 1024 block of `h` with the whole 1024 × 256 `W2` to it, and copies the accumulator into the output block. So the
  output block after a point is `acc0 + hblock · W2` with `acc0` the zero accumulator, whatever the accumulator held
  before; the bias operand (a row of zeros) is staged and never read.

  Stated here, for any value family: the blocks the body finds, what it leaves, the body's triple, and the region's
  proof data with its obligation, over the buffer contents `V` the region is entered at.
-/
import proofs.«157708_j82497731822002_1_alg».proof.Proof.Gen.KernelIdeal.Launch
import proofs.«157708_j82497731822002_1_alg».proof.Proof.Gen.KernelIdeal.Skeleton
import proofs.«157708_j82497731822002_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Proj2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid2.Coords) : Prop :=
  (Scalar.cmpi .ne (Scalar.extui (Scalar.cmpi .eq (BitVec.ofNat 32 (i 2).val) 0#32)) 0#32) = 1#1
/-- "This is the last step along the contraction axis", as the body computes it. -/
abbrev lastStep (i : grid2.Coords) : Prop := k2_cond2 i = 1#1

/-- The contraction axis has one block: every point is a first step, -/
theorem firstStep_all : ∀ t : Fin cfg2.N, firstStep (grid2.coords t) :=
  (by decide +kernel : ∀ t : Fin grid2.N, firstStep (grid2.coords t))
/-- and a last step; -/
theorem lastStep_all : ∀ t : Fin cfg2.N, lastStep (grid2.coords t) :=
  (by decide +kernel : ∀ t : Fin grid2.N, lastStep (grid2.coords t))
/-- so the output window is live at every point. -/
theorem live_out : ∀ t : Fin cfg2.N, cfg2.idle 3 (grid2.coords t) = false :=
  (by decide +kernel : ∀ t : Fin grid2.N, idle2 3 (grid2.coords t) = false)

/-! ## The blocks, and what the body leaves -/

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of a point: the zero accumulator plus the product of the point's rows of `h` with `W2`. -/
def rowsTimes (x0 : Vec F S1024x1024 .f32) (x1 : Vec F S1024x256 .f32) : Vec F S1024x256 .f32 :=
  k2_pay2 x0 x1 (k2_pay1 (F := F))

/-- The whole-buffer rectangles start at the origin. -/
theorem z_acc : (![0, 0] : Fin S1024x256.rank → Nat) = fun _ => 0 := by
  funext a; match a with | ⟨0, _⟩ => rfl | ⟨1, _⟩ => rfl
theorem z_x : (![0, 0] : Fin S1024x1024.rank → Nat) = fun _ => 0 := by
  funext a; match a with | ⟨0, _⟩ => rfl | ⟨1, _⟩ => rfl
theorem z_w : (![0, 0] : Fin S1024x256.rank → Nat) = fun _ => 0 := by
  funext a; match a with | ⟨0, _⟩ => rfl | ⟨1, _⟩ => rfl

/-! ## The body's triple -/

set_option maxHeartbeats 1000000 in
/-- On whole staging memrefs — the two inputs at contents `x0`, `x1`, the output's and the accumulator's at anything — the
    body at a point that is both a first and a last step runs to the continuation with the inputs as they were, the
    output at `rowsTimes x0 x1` and the accumulator at some contents. The bias memref is not touched. -/
theorem sound_kernel (c : Dev nD) (E : Set ℕ) (i : grid2.Coords) (h1 : firstStep i) (h2 : lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 : Vec F S1024x256 .f32) (K : PUnit → sProp 𝕄) :
    iprop(owns (c : Thread nD τ) arg3 fullShare x0 ∗ owns (c : Thread nD τ) arg4 fullShare x1
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg6 fullShare (rowsTimes x0 x1)
            ∗ (∃ d, owns (c : Thread nD τ) arg7 fullShare d)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [View.read_writes_eq_canon _ _ _ (fun y => ⟨_, List.mem_singleton_self _, View.mem_set_unit_zero z_acc inb_S1024x256_S1024x256_0_0 y⟩),
      View.canon_unit_zero z_acc]
    sl_unfold_run_names
    rw [View.readCov_unit_zero (Val := Elt F) arg7.view z_acc inb_S1024x256_S1024x256_0_0,
      View.readCov_eq_canon_ld _ _ _ (fun y => ⟨_, List.Mem.head _, View.mem_set_unit_zero z_acc inb_S1024x256_S1024x256_0_0 y⟩),
      View.canon_cons_unit_zero z_acc, View.ld_unit_zero z_acc,
      View.readAt_eq_ld, View.readAt_eq_ld, View.ld_unit_zero z_x, View.ld_unit_zero z_w]
    rfl
  · iexists _, _; isplitr
    swap; · iexact H7
    ipureintro; rfl

/-! ## The region's proof data -/

/-- The proof data of this pipeline on core `c`: the arrays as the region finds them; after the body at a point each
    input's buffer still at its block, the output's at the product of the point's blocks; the invariant the class's
    (the scratch and the generator register at anything: the accumulator is reset at every point); full shares,
    nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => rowsTimes (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = rowsTimes (blk V c 0 t) (blk V c 1 t) := by dsimp only [dat]

/-- An input's staging buffer holds its block at every point, fetched there or not: the body leaves it in place and
    an unfetched window's block index has not moved. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The class invariant with this region's accumulator taken out -/

/-- The accumulator's buffer, whole. -/
abbrev accM : Memref sig .tc .vmem S1024x256 .f32 := Memref.whole cc2_scratch0

/-- The class invariant is the accumulator at some contents, the other scoped buffers that are no staging buffer of
    this region at some contents each, and the generator register at some state. -/
theorem PhiA_split (c : Dev nD) :
    (Pipeline.ΦA spec2 c : sProp 𝕄)
      = iprop(((∃ d, owns (c : Thread nD τ) accM fullShare d)
          ∗ Pipeline.scopedRestBut (Ix := Unit) (Name := ℕ) (U := UR sig nD τ) (Lvl := ℕ) (Val := Elt F) spec2 c [cc2_scratch0])
          ∗ ∃ r, prngReg c r) := by
  unfold Pipeline.ΦA
  rw [Pipeline.scopedRest_split_of_list spec2 c [cc2_scratch0] (by decide) (by decide)]
  simp only [bigSepL_singleton, accM, owns_whole]
  rfl

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point: the inputs' memrefs hold their blocks, the accumulator comes out of the invariant at some
    contents and goes back at some contents, the bias buffer, the invariant's rest and the core's `owes` pass through
    unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).leavesExact 0 t = owns (c : Thread nD τ) (st2_0 t) fullShare ((dat V c).after 0 t) from rfl,
    show (dat V c).leavesExact 1 t = owns (c : Thread nD τ) (st2_1 t) fullShare ((dat V c).after 1 t) from rfl,
    show (dat V c).leavesExact 2 t = owns (c : Thread nD τ) (st2_2 t) fullShare ((dat V c).after 2 t) from rfl,
    show (dat V c).leavesExact 3 t = owns (c : Thread nD τ) (st2_3 t) fullShare ((dat V c).after 3 t) from by
      unfold Dat.leavesExact; rw [live_out t],
    show (dat V c).Φ t.succ = (dat V c).Φ t.castSucc from rfl,
    show (dat V c).owesAt () t.succ = (dat V c).owesAt () t.castSucc from rfl,
    after_0, after_1, after_2, after_3,
    show (dat V c).Φ t.castSucc = Pipeline.ΦA spec2 c from rfl, PhiA_split]
  iintro ⟨⟨⟨HS, HR⟩, Hg⟩, Ho, ⟨%d0, H0⟩, ⟨%d1, H1⟩, ⟨%d2, H2⟩, ⟨%d3, H3⟩⟩
  iapply (sound_kernel c Set.univ (grid2.coords t) (firstStep_all t) (lastStep_all t) _ _ _ _ _ _ _ _ _ _
    (blk V c 0 t) (blk V c 1 t) _)
  isplitl [H0]; · iexact H0
  isplitl [H1]; · iexact H1
  isplitl [H3]; · iexists _; iexact H3
  isplitl [HS]; · iexact HS
  iintro ⟨H0, H1, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

/-- The invariant is the class's at every point: in at the first, -/
theorem Phi_in (c : Dev nD) : Pipeline.ΦA spec2 c ⊢ (dat V c).Φ 0 := .rfl
/-- out at the last. -/
theorem Phi_out (c : Dev nD) : (dat V c).Φ (Fin.last cfg2.N) ⊢ Pipeline.ΦA spec2 c := .rfl

end Cert.KernelIdeal.Proj2

end
-- ==== Proof.Ideal.Agg2.lean ====
/-
  The second aggregation, `out = adj · S2 + b2`, as the last of the program's four kernel regions.

  The grid walks 16 row blocks (of 1024 rows of `adj`) and, inside each, 16 steps along the contraction axis (blocks of 1024
  columns of `adj` against 1024 rows of `S2`, which is 256 wide). The body keeps an accumulator in a scratch buffer that
  survives from point to point: at the first step of a row block it zeroes it, at every step it adds the product of the
  step's two blocks to it, and at the last step it adds the bias row and stores the result into the output block. With
  `acc t` what the scratch holds after point `t`:

      acc t = step (adj block at t) (S2 block at t) (zeros, if t is a first step; acc (t - 1) otherwise)

  and the output block after a last step `t` is `finish (acc t) bias`. At the other points the body does not touch the
  output buffer, and the pipeline does not write it back there.

  Stated here, for any value family: the blocks the body finds, the accumulator point by point, the body's triple in
  each of its three control cases, and the region's proof data with its obligation, over the buffer contents `V` the
  region is entered at.
-/
import proofs.«157708_j82497731822002_1_alg».proof.Proof.Gen.KernelIdeal.Launch
import proofs.«157708_j82497731822002_1_alg».proof.Proof.Gen.KernelIdeal.Skeleton
import proofs.«157708_j82497731822002_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Pipeline.Kit
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "This is the first step along the contraction axis", as the body computes it. -/
abbrev firstStep (i : grid3.Coords) : Prop :=
  (Scalar.cmpi .ne (Scalar.extui (Scalar.cmpi .eq (BitVec.ofNat 32 (i 2).val) 0#32)) 0#32) = 1#1
/-- "This is the last step along the contraction axis", as the body computes it. -/
abbrev lastStep (i : grid3.Coords) : Prop := k3_cond2 i = 1#1

/-- The contraction axis is the innermost of the grid and has 16 blocks: the first steps are the points ≡ 0 (mod 16), -/
theorem firstStep_iff : ∀ t : Fin cfg3.N, firstStep (grid3.coords t) ↔ t.val % 16 = 0 :=
  (by decide +kernel : ∀ t : Fin grid3.N, firstStep (grid3.coords t) ↔ t.val % 16 = 0)
/-- and the last steps the points ≡ 15 (mod 16). -/
theorem lastStep_iff : ∀ t : Fin cfg3.N, lastStep (grid3.coords t) ↔ t.val % 16 = 15 :=
  (by decide +kernel : ∀ t : Fin grid3.N, lastStep (grid3.coords t) ↔ t.val % 16 = 15)

/-- Off the last steps the output window is idle: the body stores nothing into it, -/
theorem out_idle : ∀ t : Fin cfg3.N, t.val % 16 ≠ 15 → cfg3.idle 3 (grid3.coords t) = true :=
  (by decide +kernel : ∀ t : Fin grid3.N, t.val % 16 ≠ 15 → idle3 3 (grid3.coords t) = true)
/-- and the pipeline does not write its block back. -/
theorem out_kept : ∀ t : Fin cfg3.N, t.val % 16 ≠ 15 → (cfg3.win 3).flush t = false :=
  (by decide +kernel : ∀ t : Fin grid3.N, t.val % 16 ≠ 15 → win3_3.flush t = false)
/-- At a last step it is live. -/
theorem out_live : ∀ t : Fin cfg3.N, t.val % 16 = 15 → cfg3.idle 3 (grid3.coords t) = false :=
  (by decide +kernel : ∀ t : Fin grid3.N, t.val % 16 = 15 → idle3 3 (grid3.coords t) = false)

/-- The whole-buffer rectangles start at the origin. -/
theorem z_sq : (![0, 0] : Fin S1024x1024.rank → Nat) = fun _ => 0 := by
  funext a; match a with | ⟨0, _⟩ => rfl | ⟨1, _⟩ => rfl
theorem z_acc : (![0, 0] : Fin S1024x256.rank → Nat) = fun _ => 0 := by
  funext a; match a with | ⟨0, _⟩ => rfl | ⟨1, _⟩ => rfl
theorem z_row : (![0, 0] : Fin S1x256.rank → Nat) = fun _ => 0 := by
  funext a; match a with | ⟨0, _⟩ => rfl | ⟨1, _⟩ => rfl

/-! ## The blocks -/

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's triple, case by case

On whole memrefs: `arg3`, `arg4` the two input blocks at contents `x0`, `x1`; `arg5` the bias row; `arg6` the output block;
`arg7` the accumulator. A buffer a case does not touch is left out of its triple. -/

set_option maxHeartbeats 1000000 in
/-- A step that is neither the first nor the last of its row block adds the blocks' product to the accumulator. -/
theorem body_middle (c : Dev nD) (E : Set ℕ) (i : grid3.Coords) (h1 : ¬firstStep i) (h2 : ¬lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 s : Vec F S1024x256 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k3_pay2 x0 x1 s)) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%f7, %hf7, H7⟩, Hk⟩
  subst hf0; subst hf1; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_singleton_self _, View.mem_set_unit_zero z_acc inb_S1024x256_S1024x256_0_0 y⟩),
    View.canon_unit_zero z_acc]
  sl_unfold_run_names
  rw [View.readAt_eq_ld, View.readAt_eq_ld, View.readAt_eq_ld, View.ld_unit_zero z_sq, View.ld_unit_zero z_acc, View.ld_unit_zero z_acc]

set_option maxHeartbeats 1000000 in
/-- The first step of a row block (not also its last) zeroes the accumulator, whatever it held, and adds the blocks'
    product to it. -/
theorem body_first (c : Dev nD) (E : Set ℕ) (i : grid3.Coords) (h1 : firstStep i) (h2 : ¬lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 : Vec F S1024x256 .f32) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k3_pay2 x0 x1 (k3_pay1 (F := F)))) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%d7, %f7, -, H7⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.Mem.head _, View.mem_set_unit_zero z_acc inb_S1024x256_S1024x256_0_0 y⟩),
    View.canon_cons_unit_zero z_acc]
  sl_unfold_run_names
  rw [View.readCov_unit_zero (Val := Elt F) arg7.view z_acc inb_S1024x256_S1024x256_0_0,
    View.readAt_eq_ld, View.readAt_eq_ld, View.ld_unit_zero z_sq, View.ld_unit_zero z_acc]

set_option maxHeartbeats 1000000 in
/-- The last step of a row block (not also its first) adds the blocks' product to the accumulator, then stores the
    accumulator plus the bias row into the output block, whatever that held. -/
theorem body_last (c : Dev nD) (E : Set ℕ) (i : grid3.Coords) (h1 : ¬firstStep i) (h2 : lastStep i)
    (arg3 : Memref sig .tc .vmem S1024x1024 .f32) (harg3 : arg3.IsWhole) (arg4 : Memref sig .tc .vmem S1024x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole)
    (x0 : Vec F S1024x1024 .f32) (x1 s : Vec F S1024x256 .f32) (x2 : Vec F S1x256 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2
            ∗ owns (c : Thread nD τ) arg6 fullShare (k3_pay3 (k3_pay2 x0 x1 s) x2)
            ∗ owns (c : Thread nD τ) arg7 fullShare (k3_pay2 x0 x1 s)) -∗ K ⟨⟩))
      ⊢ wp frame (wpE (defs₀ (F := F)) Variants.none c none) E
          (cc3__matmul_kernel i arg3 harg3 arg4 harg4 arg5 harg5 arg6 harg6 arg7 harg7) K := by
  simp only [cc3__matmul_kernel_eq_skeleton]; unfold cc3__matmul_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero z_acc inb_S1024x256_S1024x256_0_0 y⟩),
      View.canon_unit_zero z_acc]
    sl_unfold_run_names
    rw [View.readCov_unit_zero (Val := Elt F) arg7.view z_acc inb_S1024x256_S1024x256_0_0,
      View.readAt_eq_ld, View.readAt_eq_ld, View.readAt_eq_ld, View.readAt_eq_ld,
      View.ld_unit_zero z_sq, View.ld_unit_zero z_acc, View.ld_unit_zero z_acc, View.ld_unit_zero z_row]
  · iexists _; isplitr
    swap; · iexact H7
    ipureintro
    sl_unfold_run_names
    rw [View.read_writes_eq_canon _ _ _ (fun y => ⟨_, List.mem_singleton_self _, View.mem_set_unit_zero z_acc inb_S1024x256_S1024x256_0_0 y⟩),
      View.canon_unit_zero z_acc]
    rw [View.readAt_eq_ld, View.readAt_eq_ld, View.readAt_eq_ld, View.ld_unit_zero z_sq, View.ld_unit_zero z_acc, View.ld_unit_zero z_acc]

/-! ## The accumulator, point by point -/

/-- What the accumulator holds after the body at point `n`: the blocks' product added to zeros at a first step, to what
    the point before left otherwise. -/
def acc (c : Dev nD) : (n : ℕ) → n < cfg3.N → Vec F S1024x256 .f32
  | 0, hn => k3_pay2 (blk V c 0 ⟨0, hn⟩) (blk V c 1 ⟨0, hn⟩) (k3_pay1 (F := F))
  | n + 1, hn =>
    if (n + 1) % 16 = 0 then k3_pay2 (blk V c 0 ⟨n + 1, hn⟩) (blk V c 1 ⟨n + 1, hn⟩) (k3_pay1 (F := F))
    else k3_pay2 (blk V c 0 ⟨n + 1, hn⟩) (blk V c 1 ⟨n + 1, hn⟩) (acc c n (Nat.lt_of_succ_lt hn))

/-- At a first step the accumulator restarts from zeros. -/
theorem acc_first (c : Dev nD) (t : Fin cfg3.N) (h : t.val % 16 = 0) :
    acc V c t.val t.isLt = k3_pay2 (blk V c 0 t) (blk V c 1 t) (k3_pay1 (F := F)) := by
  obtain ⟨n, hn⟩ := t
  cases n with
  | zero => rfl
  | succ n => exact (if_pos h).trans rfl

/-- At any other step it goes on from what the point before left. -/
theorem acc_next (c : Dev nD) (t : Fin cfg3.N) (h : t.val % 16 ≠ 0) :
    acc V c t.val t.isLt
      = k3_pay2 (blk V c 0 t) (blk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the class's, with the accumulator at what the point before left -/

/-- The accumulator's buffer, whole. -/
abbrev accM : Memref sig .tc .vmem S1024x256 .f32 := Memref.whole cc3_scratch0

/-- The core's other scoped buffers that are no staging buffer of this region, at some contents each. -/
abbrev others (c : Dev nD) : sProp 𝕄 :=
  Pipeline.scopedRestBut (Ix := Unit) (Name := ℕ) (U := UR sig nD τ) (Lvl := ℕ) (Val := Elt F) spec3 c [cc3_scratch0]

/-- The class invariant is the accumulator at some contents, the other scoped buffers that are no staging buffer of
    this region at some contents each, and the generator register at some state. -/
theorem PhiA_split (c : Dev nD) :
    (Pipeline.ΦA spec3 c : sProp 𝕄)
      = iprop(((∃ d, owns (c : Thread nD τ) accM fullShare d) ∗ others c) ∗ ∃ r, prngReg c r) := by
  unfold Pipeline.ΦA
  rw [Pipeline.scopedRest_split_of_list spec3 c [cc3_scratch0] (by decide) (by decide)]
  simp only [bigSepL_singleton, accM, owns_whole]
  rfl

/-- The invariant before position `n`: the class's before the first point; afterwards the same with the accumulator at
    what the point before left in it. -/
def Phi (c : Dev nD) : (n : ℕ) → n ≤ cfg3.N → sProp 𝕄
  | 0, _ => Pipeline.ΦA spec3 c
  | n + 1, hn => iprop((owns (c : Thread nD τ) accM fullShare (acc V c n hn) ∗ others c) ∗ ∃ r, prngReg c r)

theorem Phi_zero (c : Dev nD) (h : 0 ≤ cfg3.N) : Phi V c 0 h = Pipeline.ΦA spec3 c := rfl

theorem Phi_succ (c : Dev nD) (n : ℕ) (hn : n < cfg3.N) :
    Phi V c (n + 1) hn = iprop((owns (c : Thread nD τ) accM fullShare (acc V c n hn) ∗ others c) ∗ ∃ r, prngReg c r) := rfl

/-- Before a point that is not the first the accumulator holds what the point before left. -/
theorem Phi_pos (c : Dev nD) (n : ℕ) (h : n ≤ cfg3.N) (hz : n ≠ 0) :
    Phi V c n h = iprop((owns (c : Thread nD τ) accM fullShare (acc V c (n - 1) (by omega)) ∗ others c) ∗ ∃ r, prngReg c r) := by
  cases n with
  | zero => exact absurd rfl hz
  | succ n => rfl

/-- At any position the invariant yields the class's: the accumulator's contents are forgotten. -/
theorem Phi_forget (c : Dev nD) (n : ℕ) (h : n ≤ cfg3.N) :
    Phi V c n h ⊢ iprop(((∃ d, owns (c : Thread nD τ) accM fullShare d) ∗ others c) ∗ ∃ r, prngReg c r) := by
  cases n with
  | zero => rw [Phi_zero, PhiA_split]
  | succ n =>
    rw [Phi_succ]
    iintro ⟨⟨HS, HR⟩, Hg⟩
    isplitl [HS HR]
    · isplitl [HS]; · iexists _; iexact HS
      iexact HR
    iexact Hg

/-! ## The region's proof data -/

/-- The proof data of this pipeline on core `c`: the arrays as the region finds them; after the body at a point each
    input's buffer still at its block, the output's at the accumulator plus the bias row (read
    only at the last steps, where the body stores it); the invariant above; full shares, nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => k3_pay3 (acc V c t.val t.isLt) (blk V c 2 t)
  Φ t := Phi V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) :
    (dat V c).after 3 t = k3_pay3 (acc V c t.val t.isLt) (blk V c 2 t) := by dsimp only [dat]

/-- The invariant at a point's start, restated at the point's position. -/
theorem Phi_castSucc (c : Dev nD) (t : Fin cfg3.N) :
    (dat V c).Φ t.castSucc = Phi V c t.val (Nat.le_of_lt t.isLt) := by
  dsimp only [dat]; simp only [Fin.coe_castSucc]

/-- An input's staging buffer holds its block at every point, fetched there or not: the body leaves it in place and
    an unfetched window's block index has not moved. -/
theorem before_0 (c : Dev nD) (t : Fin cfg3.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg3.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg3.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' memrefs hold their blocks. At a first step the accumulator comes out of the
    invariant at some contents; at any other at what the point before left. It goes back at this point's contents. Off
    the last steps the output's buffer passes through untouched, as the pipeline expects of an idle window it does not
    write back; at a last step it is taken at anything and handed back at the finished block. The bias buffer is
    read at the last steps only and left in place everywhere; the invariant's rest and the core's `owes` pass through
    unread. No point is both a first and a last step. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).leavesExact 0 t = owns (c : Thread nD τ) (st3_0 t) fullShare ((dat V c).after 0 t) from rfl,
    show (dat V c).leavesExact 1 t = owns (c : Thread nD τ) (st3_1 t) fullShare ((dat V c).after 1 t) from rfl,
    show (dat V c).leavesExact 2 t = owns (c : Thread nD τ) (st3_2 t) fullShare ((dat V c).after 2 t) from rfl,
    show (dat V c).owesAt () t.succ = (dat V c).owesAt () t.castSucc from rfl,
    after_0, after_1, after_2,
    show (dat V c).Φ t.succ = Phi V c (t.val + 1) t.isLt from rfl, Phi_succ, Phi_castSucc]
  by_cases h0 : t.val % 16 = 0
  · have h15 : t.val % 16 ≠ 15 := by omega
    rw [Dat.leavesExact_idle (dat V c) 3 t (out_idle t h15) (out_kept t h15), acc_first V c t h0]
    iintro ⟨HΦ, Ho, ⟨%d0, H0⟩, ⟨%d1, H1⟩, ⟨%d2, H2⟩, H3⟩
    ihave ⟨⟨HS, HR⟩, Hg⟩ := (Phi_forget V c t.val _) $$ HΦ
    iapply (body_first c Set.univ (grid3.coords t) ((firstStep_iff t).mpr h0) (fun h => h15 ((lastStep_iff t).mp h))
      _ _ _ _ _ _ _ _ _ _ (blk V c 0 t) (blk V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz]
    by_cases h15 : t.val % 16 = 15
    · rw [show (dat V c).leavesExact 3 t = owns (c : Thread nD τ) (st3_3 t) fullShare ((dat V c).after 3 t) from by
          unfold Dat.leavesExact; rw [out_live t h15], after_3, acc_next V c t h0]
      iintro ⟨⟨⟨HS, HR⟩, Hg⟩, Ho, ⟨%d0, H0⟩, ⟨%d1, H1⟩, ⟨%d2, H2⟩, ⟨%d3, H3⟩⟩
      iapply (body_last c Set.univ (grid3.coords t) (fun h => h0 ((firstStep_iff t).mp h)) ((lastStep_iff t).mpr h15)
        _ _ _ _ _ _ _ _ _ _ (blk V c 0 t) (blk V c 1 t) _ (blk V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (out_idle t h15) (out_kept t h15), acc_next V c t h0]
      iintro ⟨⟨⟨HS, HR⟩, Hg⟩, Ho, ⟨%d0, H0⟩, ⟨%d1, H1⟩, ⟨%d2, H2⟩, H3⟩
      iapply (body_middle c Set.univ (grid3.coords t) (fun h => h0 ((firstStep_iff t).mp h)) (fun h => h15 ((lastStep_iff t).mp h))
        _ _ _ _ _ _ _ _ _ _ (blk V c 0 t) (blk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem Phi_in (c : Dev nD) : Pipeline.ΦA spec3 c ⊢ (dat V c).Φ 0 :=
  Entails.of_eq (show Pipeline.ΦA spec3 c = Phi V c 0 (Nat.zero_le _) from rfl)

/-- After the last point the invariant gives the class's back: the accumulator's contents are forgotten. -/
theorem Phi_out (c : Dev nD) : (dat V c).Φ (Fin.last cfg3.N) ⊢ Pipeline.ΦA spec3 c := by
  rw [show (dat V c).Φ (Fin.last cfg3.N) = Phi V c (Fin.last cfg3.N).val (Nat.le_of_lt_succ (Fin.last cfg3.N).isLt) from rfl,
    PhiA_split]
  exact Phi_forget V c _ _

end Cert.KernelIdeal.Agg2

end
-- ==== Proof.Ideal.Assembly.lean ====
/-
  The four regions put together.  The buffer contents each region is entered at are the previous region's exit
  contents: region 0 (S1 = x·W1) is entered after the six host operations and writes main_v4; region 1
  (h = max(adj·S1 + b1, 0)) reads it and writes main_v5; region 2 (S2 = h·W2) writes main_v6; region 3
  (out = adj·S2 + b2) writes main_v7, the program's result.  This module names those contents one after the other,
  collects the four regions' proof data into one family, runs the program over it, and reads back the buffers
  the value of the result is stated over.
-/
import proofs.«157708_j82497731822002_1_alg».proof.Proof.Ideal.Whole
import proofs.«157708_j82497731822002_1_alg».proof.Proof.Ideal.Proj1
import proofs.«157708_j82497731822002_1_alg».proof.Proof.Ideal.Agg1
import proofs.«157708_j82497731822002_1_alg».proof.Proof.Ideal.Proj2
import proofs.«157708_j82497731822002_1_alg».proof.Proof.Ideal.Agg2
import Idealize.ShloMosaic.Lib.StableHlo.Run

set_option maxRecDepth 16384

noncomputable section

namespace Cert.KernelIdeal.Assembly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ)

/-! ## A valuation changed at one buffer -/

/-- A valuation changed at `r'` is as it was at any other reference, -/
theorem update_ne (W : Valuation τ sig (Elt F)) (r r' : Ref sig .tc) (v : (Proc.devRef (τ := τ) .tc r').ty.Contents (Elt F)) (h : r ≠ r') :
    Function.update W (Proc.devRef .tc r') v (Proc.devRef .tc r) = W (Proc.devRef .tc r) :=
  Function.update_of_ne (StableHlo.devRef_ne_of_ne h) _ _
/-- and holds the new contents at `r'`. -/
theorem update_at (W : Valuation τ sig (Elt F)) (r' : Ref sig .tc) (v : (Proc.devRef (τ := τ) .tc r').ty.Contents (Elt F)) :
    Function.update W (Proc.devRef .tc r') v (Proc.devRef .tc r') = v :=
  Function.update_self _ _ _

/-! ## The contents each region is entered at, and what it leaves in its output array

`E1` is what the host operations leave; `oK` is region K−4's output array after its last write-back, over the
contents it was entered at; the next region is entered at the same contents with that one array replaced. -/

/-- Region 0 is entered at what the host operations leave. -/
abbrev E1 : (c : Dev nD) → (b : Ref sig .tc) → Buf (Elt F) ((c : Thread nD τ).loc b) := fun c b => V1 m c b
/-- What region 0 leaves in main_v4: S1. -/
def o4 (c : Dev nD) : Buf (Elt F) ((c : Thread nD τ).loc main_v4) := (Proj1.dat (E1 m) c).arrAt 3 cfg0.N
/-- The buffers after region 0. -/
def W2 (c : Dev nD) : Valuation τ sig (Elt F) := Function.update (V1 m c) main_v4 (o4 m c)
/-- Region 1 is entered there. -/
abbrev E2 : (c : Dev nD) → (b : Ref sig .tc) → Buf (Elt F) ((c : Thread nD τ).loc b) := fun c b => W2 m c b
/-- What region 1 leaves in main_v5: h. -/
def o5 (c : Dev nD) : Buf (Elt F) ((c : Thread nD τ).loc main_v5) := (Agg1.dat (E2 m) c).arrAt 3 cfg1.N
/-- The buffers after region 1. -/
def W3 (c : Dev nD) : Valuation τ sig (Elt F) := Function.update (W2 m c) main_v5 (o5 m c)
/-- Region 2 is entered there. -/
abbrev E3 : (c : Dev nD) → (b : Ref sig .tc) → Buf (Elt F) ((c : Thread nD τ).loc b) := fun c b => W3 m c b
/-- What region 2 leaves in main_v6: S2. -/
def o6 (c : Dev nD) : Buf (Elt F) ((c : Thread nD τ).loc main_v6) := (Proj2.dat (E3 m) c).arrAt 3 cfg2.N
/-- The buffers after region 2. -/
def W4 (c : Dev nD) : Valuation τ sig (Elt F) := Function.update (W3 m c) main_v6 (o6 m c)
/-- Region 3 is entered there. -/
abbrev E4 : (c : Dev nD) → (b : Ref sig .tc) → Buf (Elt F) ((c : Thread nD τ).loc b) := fun c b => W4 m c b
/-- What region 3 leaves in main_v7: the result. -/
def o7 (c : Dev nD) : Buf (Elt F) ((c : Thread nD τ).loc main_v7) := (Agg2.dat (E4 m) c).arrAt 3 cfg3.N
/-- The buffers at the end. -/
def W5 (c : Dev nD) : Valuation τ sig (Elt F) := Function.update (W4 m c) main_v7 (o7 m c)

/-! ## The regions' results as the unknowns of the run -/

/-- What each region leaves, as the run's family of unknowns: at main_v4 … main_v7 the four results above (whatever the
    item's number), elsewhere the launch contents (never read). -/
def outs : Outs (F := F) := fun _ r c =>
  if h4 : r = main_v4 then h4 ▸ o4 m c
  else if h5 : r = main_v5 then h5 ▸ o5 m c
  else if h6 : r = main_v6 then h6 ▸ o6 m c
  else if h7 : r = main_v7 then h7 ▸ o7 m c
  else m ((c : Thread nD τ).loc r)

theorem outs_v4 (J : ℕ) (c : Dev nD) : outs m J main_v4 c = o4 m c := by
  unfold outs; rw [dif_pos rfl]
theorem outs_v5 (J : ℕ) (c : Dev nD) : outs m J main_v5 c = o5 m c := by
  unfold outs; rw [dif_neg (by decide), dif_pos rfl]
theorem outs_v6 (J : ℕ) (c : Dev nD) : outs m J main_v6 c = o6 m c := by
  unfold outs; rw [dif_neg (by decide), dif_neg (by decide), dif_pos rfl]
theorem outs_v7 (J : ℕ) (c : Dev nD) : outs m J main_v7 c = o7 m c := by
  unfold outs; rw [dif_neg (by decide), dif_neg (by decide), dif_neg (by decide), dif_pos rfl]

/-- Over these unknowns the run's valuations are the contents named above. -/
theorem V2_eq (c : Dev nD) : V2 m (outs m) c = W2 m c := by
  show Function.update (V1 m c) main_v4 (outs m 2 main_v4 c) = Function.update (V1 m c) main_v4 (o4 m c)
  rw [outs_v4]
theorem V3_eq (c : Dev nD) : V3 m (outs m) c = W3 m c := by
  show Function.update (V2 m (outs m) c) main_v5 (outs m 3 main_v5 c) = Function.update (W2 m c) main_v5 (o5 m c)
  rw [V2_eq, outs_v5]
theorem V4_eq (c : Dev nD) : V4 m (outs m) c = W4 m c := by
  show Function.update (V3 m (outs m) c) main_v6 (outs m 4 main_v6 c) = Function.update (W3 m c) main_v6 (o6 m c)
  rw [V3_eq, outs_v6]
theorem V5_eq (c : Dev nD) : V5 m (outs m) c = W5 m c := by
  show Function.update (V4 m (outs m) c) main_v7 (outs m 5 main_v7 c) = Function.update (W4 m c) main_v7 (o7 m c)
  rw [V4_eq, outs_v7]

/-! ## The proof data family -/

/-- Every pipeline's proof data, each over the contents its region is entered at. -/
def pdats : (p : Fin 4) → (c : Dev nD) → Dat τ (Elt F) Unit ℕ (UR sig nD τ) ℕ (cfgs p) c
  | ⟨0, _⟩ => fun c => Proj1.dat (E1 m) c
  | ⟨1, _⟩ => fun c => Agg1.dat (E2 m) c
  | ⟨2, _⟩ => fun c => Proj2.dat (E3 m) c
  | ⟨3, _⟩ => fun c => Agg2.dat (E4 m) c

/-! ## What a region leaves in each of its arrays, and that it leaves the others alone

A region's three input arrays are never written back; its output array ends at the region's result. So after
region K the buffers are the ones before it with the output array replaced. -/

/-- Region 0's arrays at its exit, -/
theorem exit0 (c : Dev nD) (w : Fin cfg0.W) :
    (Proj1.dat (E1 m) c).arrAt w cfg0.N = W2 m c (Proc.devRef .tc (Pipeline.arrRef spec0 w)) :=
  match w with
  | ⟨0, _⟩ => ((Proj1.dat (E1 m) c).arrAt_in 0 rfl _).trans <| (Proj1.A_eq (E1 m) c 0).trans (update_ne (V1 m c) main_arg0 main_v4 (o4 m c) (by decide)).symm
  | ⟨1, _⟩ => ((Proj1.dat (E1 m) c).arrAt_in 1 rfl _).trans <| (Proj1.A_eq (E1 m) c 1).trans (update_ne (V1 m c) main_arg2 main_v4 (o4 m c) (by decide)).symm
  | ⟨2, _⟩ => ((Proj1.dat (E1 m) c).arrAt_in 2 rfl _).trans <| (Proj1.A_eq (E1 m) c 2).trans (update_ne (V1 m c) main_v2 main_v4 (o4 m c) (by decide)).symm
  | ⟨3, _⟩ => (update_at (V1 m c) main_v4 (o4 m c)).symm
/-- and every buffer that is none of them. -/
theorem rest0 (c : Dev nD) (b : Ref sig .tc) (hb : b ∉ Finset.univ.image (Pipeline.arrRef spec0)) :
    W2 m c (Proc.devRef .tc b) = V1 m c (Proc.devRef .tc b) :=
  update_ne (V1 m c) b main_v4 (o4 m c) fun h => hb (h ▸ Finset.mem_image.mpr ⟨3, Finset.mem_univ _, rfl⟩)

/-- Region 1's arrays at its exit, -/
theorem exit1 (c : Dev nD) (w : Fin cfg1.W) :
    (Agg1.dat (E2 m) c).arrAt w cfg1.N = W3 m c (Proc.devRef .tc (Pipeline.arrRef spec1 w)) :=
  match w with
  | ⟨0, _⟩ => ((Agg1.dat (E2 m) c).arrAt_in 0 rfl _).trans <| (Agg1.A_eq (E2 m) c 0).trans (update_ne (W2 m c) main_arg1 main_v5 (o5 m c) (by decide)).symm
  | ⟨1, _⟩ => ((Agg1.dat (E2 m) c).arrAt_in 1 rfl _).trans <| (Agg1.A_eq (E2 m) c 1).trans (update_ne (W2 m c) main_v4 main_v5 (o5 m c) (by decide)).symm
  | ⟨2, _⟩ => ((Agg1.dat (E2 m) c).arrAt_in 2 rfl _).trans <| (Agg1.A_eq (E2 m) c 2).trans (update_ne (W2 m c) main_v0 main_v5 (o5 m c) (by decide)).symm
  | ⟨3, _⟩ => (update_at (W2 m c) main_v5 (o5 m c)).symm
/-- and every buffer that is none of them. -/
theorem rest1 (c : Dev nD) (b : Ref sig .tc) (hb : b ∉ Finset.univ.image (Pipeline.arrRef spec1)) :
    W3 m c (Proc.devRef .tc b) = W2 m c (Proc.devRef .tc b) :=
  update_ne (W2 m c) b main_v5 (o5 m c) fun h => hb (h ▸ Finset.mem_image.mpr ⟨3, Finset.mem_univ _, rfl⟩)

/-- Region 2's arrays at its exit, -/
theorem exit2 (c : Dev nD) (w : Fin cfg2.W) :
    (Proj2.dat (E3 m) c).arrAt w cfg2.N = W4 m c (Proc.devRef .tc (Pipeline.arrRef spec2 w)) :=
  match w with
  | ⟨0, _⟩ => ((Proj2.dat (E3 m) c).arrAt_in 0 rfl _).trans <| (Proj2.A_eq (E3 m) c 0).trans (update_ne (W3 m c) main_v5 main_v6 (o6 m c) (by decide)).symm
  | ⟨1, _⟩ => ((Proj2.dat (E3 m) c).arrAt_in 1 rfl _).trans <| (Proj2.A_eq (E3 m) c 1).trans (update_ne (W3 m c) main_arg4 main_v6 (o6 m c) (by decide)).symm
  | ⟨2, _⟩ => ((Proj2.dat (E3 m) c).arrAt_in 2 rfl _).trans <| (Proj2.A_eq (E3 m) c 2).trans (update_ne (W3 m c) main_v3 main_v6 (o6 m c) (by decide)).symm
  | ⟨3, _⟩ => (update_at (W3 m c) main_v6 (o6 m c)).symm
/-- and every buffer that is none of them. -/
theorem rest2 (c : Dev nD) (b : Ref sig .tc) (hb : b ∉ Finset.univ.image (Pipeline.arrRef spec2)) :
    W4 m c (Proc.devRef .tc b) = W3 m c (Proc.devRef .tc b) :=
  update_ne (W3 m c) b main_v6 (o6 m c) fun h => hb (h ▸ Finset.mem_image.mpr ⟨3, Finset.mem_univ _, rfl⟩)

/-- Region 3's arrays at its exit, -/
theorem exit3 (c : Dev nD) (w : Fin cfg3.W) :
    (Agg2.dat (E4 m) c).arrAt w cfg3.N = W5 m c (Proc.devRef .tc (Pipeline.arrRef spec3 w)) :=
  match w with
  | ⟨0, _⟩ => ((Agg2.dat (E4 m) c).arrAt_in 0 rfl _).trans <| (Agg2.A_eq (E4 m) c 0).trans (update_ne (W4 m c) main_arg1 main_v7 (o7 m c) (by decide)).symm
  | ⟨1, _⟩ => ((Agg2.dat (E4 m) c).arrAt_in 1 rfl _).trans <| (Agg2.A_eq (E4 m) c 1).trans (update_ne (W4 m c) main_v6 main_v7 (o7 m c) (by decide)).symm
  | ⟨2, _⟩ => ((Agg2.dat (E4 m) c).arrAt_in 2 rfl _).trans <| (Agg2.A_eq (E4 m) c 2).trans (update_ne (W4 m c) main_v1 main_v7 (o7 m c) (by decide)).symm
  | ⟨3, _⟩ => (update_at (W4 m c) main_v7 (o7 m c)).symm
/-- and every buffer that is none of them. -/
theorem rest3 (c : Dev nD) (b : Ref sig .tc) (hb : b ∉ Finset.univ.image (Pipeline.arrRef spec3)) :
    W5 m c (Proc.devRef .tc b) = W4 m c (Proc.devRef .tc b) :=
  update_ne (W4 m c) b main_v7 (o7 m c) fun h => hb (h ▸ Finset.mem_image.mpr ⟨3, Finset.mem_univ _, rfl⟩)

/-! ## The run -/

/-- THE RUN of the four regions: every weakly fair execution of @main from memory `m` terminates; at the end the result
    buffer main_v7 holds `o7 m c`, what the last region leaves over the contents the first three made, and every argument
    array is as launched. -/
theorem run_all (ρ : Dev nD → PrngReg) :
    θ_run defs (onTc (τ := τ) (main (F := F))) ⟨m, fun _ => 0, ρ⟩ (fun r => ∀ c : Dev nD,
      r.2.mem ((c.tc : Thread nD τ).loc main_v7) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((Whole.V5_main_v7 m (outs m) c).trans (outs_v7 m 5 c)), (h c).2⟩)
    (Whole.run_of_regions m ρ (outs m) (pdats m)
      -- region 0
      (fun c w => Proj1.A_eq (E1 m) c w) (fun c => (pdats m 0 c).share_full fun _ => rfl) (fun _ _ => rfl) (fun _ => rfl)
      (fun c => (Proj1.body_obligation (E1 m) c).loose) (Proj1.Phi_in (E1 m)) (Proj1.Phi_out (E1 m))
      (fun c w => (exit0 m c w).trans (congrFun (V2_eq m c) (Proc.devRef .tc (Pipeline.arrRef spec0 w))).symm)
      (fun c b hb => (congrFun (V2_eq m c) (Proc.devRef .tc b)).trans (rest0 m c b hb))
      -- region 1
      (fun c w => (Agg1.A_eq (E2 m) c w).trans (congrFun (V2_eq m c) (Proc.devRef .tc (Pipeline.arrRef spec1 w))).symm) (fun c => (pdats m 1 c).share_full fun _ => rfl) (fun _ _ => rfl) (fun _ => rfl)
      (fun c => (Agg1.body_obligation (E2 m) c).loose) (Agg1.Phi_in (E2 m)) (Agg1.Phi_out (E2 m))
      (fun c w => (exit1 m c w).trans (congrFun (V3_eq m c) (Proc.devRef .tc (Pipeline.arrRef spec1 w))).symm)
      (fun c b hb => (congrFun (V3_eq m c) (Proc.devRef .tc b)).trans ((rest1 m c b hb).trans (congrFun (V2_eq m c) (Proc.devRef .tc b)).symm))
      -- region 2
      (fun c w => (Proj2.A_eq (E3 m) c w).trans (congrFun (V3_eq m c) (Proc.devRef .tc (Pipeline.arrRef spec2 w))).symm) (fun c => (pdats m 2 c).share_full fun _ => rfl) (fun _ _ => rfl) (fun _ => rfl)
      (fun c => (Proj2.body_obligation (E3 m) c).loose) (Proj2.Phi_in (E3 m)) (Proj2.Phi_out (E3 m))
      (fun c w => (exit2 m c w).trans (congrFun (V4_eq m c) (Proc.devRef .tc (Pipeline.arrRef spec2 w))).symm)
      (fun c b hb => (congrFun (V4_eq m c) (Proc.devRef .tc b)).trans ((rest2 m c b hb).trans (congrFun (V3_eq m c) (Proc.devRef .tc b)).symm))
      -- region 3
      (fun c w => (Agg2.A_eq (E4 m) c w).trans (congrFun (V4_eq m c) (Proc.devRef .tc (Pipeline.arrRef spec3 w))).symm) (fun c => (pdats m 3 c).share_full fun _ => rfl) (fun _ _ => rfl) (fun _ => rfl)
      (fun c => (Agg2.body_obligation (E4 m) c).loose) (Agg2.Phi_in (E4 m)) (Agg2.Phi_out (E4 m))
      (fun c w => (exit3 m c w).trans (congrFun (V5_eq m c) (Proc.devRef .tc (Pipeline.arrRef spec3 w))).symm)
      (fun c b hb => (congrFun (V5_eq m c) (Proc.devRef .tc b)).trans ((rest3 m c b hb).trans (congrFun (V4_eq m c) (Proc.devRef .tc b)).symm)))

/-! ## The buffers the value of the result is stated over

Each region's inputs read back: an argument array through every replacement to the launch memory (no host operation
writes an argument), an earlier region's output at that region's result, a host result at what the host operations
leave. -/

theorem E1_main_arg0 (c : Dev nD) : E1 m c main_arg0 = m ((c : Thread nD τ).loc main_arg0) := V1_of m c main_arg0 (by decide)
theorem E1_main_arg2 (c : Dev nD) : E1 m c main_arg2 = m ((c : Thread nD τ).loc main_arg2) := V1_of m c main_arg2 (by decide)

theorem E2_main_arg1 (c : Dev nD) : E2 m c main_arg1 = m ((c : Thread nD τ).loc main_arg1) :=
  (update_ne (V1 m c) main_arg1 main_v4 (o4 m c) (by decide)).trans (V1_of m c main_arg1 (by decide))
theorem E2_main_v4 (c : Dev nD) : E2 m c main_v4 = o4 m c := update_at (V1 m c) main_v4 (o4 m c)
theorem E2_main_v0 (c : Dev nD) : E2 m c main_v0 = V1 m c main_v0 := update_ne (V1 m c) main_v0 main_v4 (o4 m c) (by decide)

theorem E3_main_v5 (c : Dev nD) : E3 m c main_v5 = o5 m c := update_at (W2 m c) main_v5 (o5 m c)
theorem E3_main_arg4 (c : Dev nD) : E3 m c main_arg4 = m ((c : Thread nD τ).loc main_arg4) :=
  (update_ne (W2 m c) main_arg4 main_v5 (o5 m c) (by decide)).trans
    ((update_ne (V1 m c) main_arg4 main_v4 (o4 m c) (by decide)).trans (V1_of m c main_arg4 (by decide)))

theorem E4_main_arg1 (c : Dev nD) : E4 m c main_arg1 = m ((c : Thread nD τ).loc main_arg1) :=
  (update_ne (W3 m c) main_arg1 main_v6 (o6 m c) (by decide)).trans
    ((update_ne (W2 m c) main_arg1 main_v5 (o5 m c) (by decide)).trans (E2_main_arg1 m c))
theorem E4_main_v6 (c : Dev nD) : E4 m c main_v6 = o6 m c := update_at (W3 m c) main_v6 (o6 m c)
theorem E4_main_v1 (c : Dev nD) : E4 m c main_v1 = V1 m c main_v1 :=
  (update_ne (W3 m c) main_v1 main_v6 (o6 m c) (by decide)).trans
    ((update_ne (W2 m c) main_v1 main_v5 (o5 m c) (by decide)).trans (update_ne (V1 m c) main_v1 main_v4 (o4 m c) (by decide)))

/-! ## The two bias rows as the host operations leave them -/

/-- main_v0 is the first bias, the 1024 entries of main_arg3 read as one row; -/
theorem V1_main_v0 (c : Dev nD) :
    V1 m c main_v0 = shapeCast S1x1024 (m ((c : Thread nD τ).loc main_arg3)) shapeCasts_S1024_S1x1024 := by
  show StableHlo.after hostOps0 (V0 m c) (Proc.devRef .tc main_v0) = _
  after_results
  rfl
/-- main_v1 the second, the 256 entries of main_arg5 read as one row. -/
theorem V1_main_v1 (c : Dev nD) :
    V1 m c main_v1 = shapeCast S1x256 (m ((c : Thread nD τ).loc main_arg5)) shapeCasts_S256_S1x256 := by
  show StableHlo.after hostOps0 (V0 m c) (Proc.devRef .tc main_v1) = _
  after_results
  rfl

end Cert.KernelIdeal.Assembly

end
-- ==== Proof.Spec.lean ====
/-
  The function both programs compute: two graph-convolution layers with a rectifier between them.

  One layer takes node features `X` (one row per node), the dense adjacency `adj`, a weight matrix `W` and a bias
  row `b`, and returns `adj · (X · W) + b`: at entry `(p, q)` the sum over nodes `k` of `adj (p, k)` times the
  projected feature `(X · W) (k, q)`, plus `b q`. The network is `layer (max (layer x W1 b1) 0) W2 b2`. Everything is
  read at the ideal values, where a float is an extended real, a product of matrices is the plain double sum and a
  sum has no order.
-/
import Idealize.ShloMosaic.PureOps.Ideal.Laws
import Idealize.ShloMosaic.Lib.ValueIdx

noncomputable section

namespace Cert.GcnSpec

open Idealize.ShloMosaic Idealize.ShloMosaic.ValueIdx

/-- An `M × N` array of ideal values. -/
abbrev Mat (M N : ℕ) : Type := FVec Ideal ⟨2, ![M, N]⟩ .f32
/-- A row of `N` ideal values. -/
abbrev Row (N : ℕ) : Type := FVec Ideal ⟨1, ![N]⟩ .f32

/-- Rows by columns: entry `(p, q)` is the sum over `k` of `A (p, k) · B (k, q)`. -/
def mm {M K N : ℕ} (A : Mat M K) (B : Mat K N) : Mat M N :=
  fun i => ∑ k : Fin K, A (ix2 (i 0) k) * B (ix2 k (i 1))

theorem mm_apply {M K N : ℕ} (A : Mat M K) (B : Mat K N) (p : Fin M) (q : Fin N) :
    mm A B (ix2 p q) = ∑ k : Fin K, A (ix2 p k) * B (ix2 k q) := rfl

/-- One graph-convolution layer: `adj · (X · W) + b`, the bias added to every row. -/
def layer {M K N : ℕ} (adj : Mat M M) (X : Mat M K) (W : Mat K N) (b : Row N) : Mat M N :=
  fun i => mm adj (mm X W) i + b (ix1 (i 1))

theorem layer_apply {M K N : ℕ} (adj : Mat M M) (X : Mat M K) (W : Mat K N) (b : Row N) (p : Fin M) (q : Fin N) :
    layer adj X W b (ix2 p q) = mm adj (mm X W) (ix2 p q) + b (ix1 q) := rfl

/-- The rectifier, entry by entry. -/
def relu {M N : ℕ} (X : Mat M N) : Mat M N := fun i => max (X i) 0

/-- The two-layer network on 16384 nodes: 512 input features, 1024 hidden, 256 output. -/
def gcn (x : Mat 16384 512) (adj : Mat 16384 16384) (W1 : Mat 512 1024) (b1 : Row 1024) (W2 : Mat 1024 256)
    (b2 : Row 256) : Mat 16384 256 :=
  layer adj (relu (layer adj x W1 b1)) W2 b2

end Cert.GcnSpec

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Ideal.Proj1Value.lean ====
/-
  The first projection region at the ideal values: after it, the output array holds x · W1.

  At the ideal values a point's output block is, entry by entry, the plain sum over the contracted axis of the products
  of the point's rows of x with the columns of W1: the accumulator starts at zero, narrowing the operands is the
  identity, and the product has no rounding and no order. Point t is row block t, so what it writes back is block t of
  the rows-by-columns product of the whole arrays; the sixteen row blocks tile the output array, so after the region
  the array is that product.
-/
import proofs.«157708_j82497731822002_1_alg».proof.Proof.Ideal.Proj1
import proofs.«157708_j82497731822002_1_alg».proof.Proof.Spec
import proofs.«157708_j82497731822002_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj1Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The output block of a point, entry by entry -/

/-- The printed dimension record of the product is the plain rows-by-columns one. -/
theorem dims_plain : dot_S1024x512_S512x1024_S1024x1024_1_0_0_1_n_n = DotDims.plain 1024 512 1024 := rfl

/-- Entry (p, q) of a point's output block is the sum over the contracted axis of the products of row p of the point's
    rows of x with column q of W1: the accumulator starts at zero, and at the ideal values narrowing the operands
    changes nothing. -/
theorem rowsTimes_apply (x0 : Vec Ideal S1024x512 .f32) (x1 : Vec Ideal S512x1024 .f32) (p q : Fin 1024) :
    Proj1.rowsTimes x0 x1 (ix2 p q) = ∑ k : Fin 512, x0 (ix2 p k) * x1 (ix2 k q) := by
  unfold Proj1.rowsTimes k0_pay2 k0_pay1
  dsimp only
  rw [shapeCast_self, shapeCast_self, addf_apply, broadcast_apply, Ideal.ofBits_def, Ideal.ofBits_zero_f32, zero_add,
    dims_plain]
  exact Cert.GNN.matmul_plain_zero_apply none (truncf .bf16 x0 bitsLt_bf16_f32) (truncf .bf16 x1 bitsLt_bf16_f32) p q

/-! ## Where a point's blocks sit in their arrays

Point t is row block t: its block of x is rows 1024 t … 1024 t + 1023 (all 512 columns), its block of W1 is all of W1,
and its output block is rows 1024 t … 1024 t + 1023 (all 1024 columns). -/

variable (V : (c : Dev nD) → (b : Ref sig .tc) → Buf (Elt Ideal) ((c : Thread nD τ).loc b))

/-- The printed index maps, decided over the sixteen points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- Row p of point t's rows is row 1024 t + p of the whole. -/
theorem row_lt (t : Fin cfg0.N) (p : Fin 1024) : 1024 * t.val + p.val < 16384 := by
  have ht : t.val < 16 := lt_of_lt_of_eq t.isLt N_0
  have hp := p.isLt
  omega

/-- The point's block of x, entry (p, k), is x at row 1024 t + p, column k. -/
theorem xrows_apply (c : Dev nD) (t : Fin cfg0.N) (p : Fin 1024) (k : Fin 512) :
    (Proj1.blk V c 0 t : Vec Ideal S1024x512 .f32) (ix2 p k)
      = (V c main_arg0 : S16384x512.Idx → Ideal .f32) (ix2 ⟨1024 * t.val + p.val, row_lt t p⟩ k) := by
  obtain ⟨e0, e1, -, -, -, -⟩ := block_indices t
  unfold Proj1.blk
  rw [View.read_apply]
  show V c main_arg0 _ = V c main_arg0 _
  congr 1
  funext a
  apply Fin.ext
  match a with
  | ⟨0, _⟩ => show win0_0.index t (0 : Fin 2) * 1024 + 1 * p.val = 1024 * t.val + p.val; omega
  | ⟨1, _⟩ => show win0_0.index t (1 : Fin 2) * 512 + 1 * k.val = k.val; omega

/-- The point's block of W1 is W1. -/
theorem weights_apply (c : Dev nD) (t : Fin cfg0.N) (k : Fin 512) (q : Fin 1024) :
    (Proj1.blk V c 1 t : Vec Ideal S512x1024 .f32) (ix2 k q) = (V c main_arg2 : S512x1024.Idx → Ideal .f32) (ix2 k q) := by
  obtain ⟨-, -, e0, e1, -, -⟩ := block_indices t
  unfold Proj1.blk
  rw [View.read_apply]
  show V c main_arg2 _ = V c main_arg2 _
  congr 1
  funext a
  apply Fin.ext
  match a with
  | ⟨0, _⟩ => show win0_1.index t (0 : Fin 2) * 512 + 1 * k.val = k.val; omega
  | ⟨1, _⟩ => show win0_1.index t (1 : Fin 2) * 1024 + 1 * q.val = q.val; omega

/-- Entry (p, q) of what point t leaves in its output block is entry (1024 t + p, q) of x · W1. -/
theorem out_block_apply (c : Dev nD) (t : Fin cfg0.N) (p q : Fin 1024) :
    Proj1.rowsTimes (Proj1.blk V c 0 t) (Proj1.blk V c 1 t) (ix2 p q)
      = Cert.GcnSpec.mm (V c main_arg0) (V c main_arg2) (ix2 ⟨1024 * t.val + p.val, row_lt t p⟩ q) := by
  rw [rowsTimes_apply, Cert.GcnSpec.mm_apply]
  exact Finset.sum_congr rfl fun k _ => by rw [xrows_apply, weights_apply]

/-! ## What each point writes back, and the whole array -/

/-- What point t writes back is block t of x · W1. -/
theorem flushed_eq (c : Dev nD) (t : Fin cfg0.N) :
    (Proj1.dat (F := Ideal) V c).flushed 3 t
      = ((cfg0.win 3).blk t).view.read (Elt Ideal) (Cert.GcnSpec.mm (V c main_arg0) (V c main_arg2)) := by
  show (cfg0.win 3).cut (grid0.coords t) ((Proj1.dat (F := Ideal) V c).after 3 t) = _
  rw [Proj1.after_3]
  funext j
  show Proj1.rowsTimes (Proj1.blk V c 0 t) (Proj1.blk V c 1 t) ((cfg0.win 3).xinj (grid0.coords t) j)
    = Cert.GcnSpec.mm (V c main_arg0) (V c main_arg2) (((cfg0.win 3).blk t).view.emb j)
  obtain ⟨-, -, -, -, e0, e1⟩ := block_indices t
  have inBlock : (cfg0.win 3).xinj (grid0.coords t) j = ix2 (⟨(j 0).val, (j 0).isLt⟩ : Fin 1024) (⟨(j 1).val, (j 1).isLt⟩ : Fin 1024) :=
    funext fun a => by match a with | ⟨0, _⟩ => rfl | ⟨1, _⟩ => rfl
  have inArray : ((cfg0.win 3).blk t).view.emb j
      = ix2 (⟨1024 * t.val + (j 0).val, row_lt t ⟨(j 0).val, (j 0).isLt⟩⟩ : Fin 16384) (⟨(j 1).val, (j 1).isLt⟩ : Fin 1024) := by
    funext a
    apply Fin.ext
    match a with
    | ⟨0, _⟩ => show win0_3.index t (0 : Fin 2) * 1024 + 1 * (j 0).val = 1024 * t.val + (j 0).val; omega
    | ⟨1, _⟩ => show win0_3.index t (1 : Fin 2) * 1024 + 1 * (j 1).val = (j 1).val; omega
  rw [inBlock, inArray]
  exact out_block_apply V c t ⟨(j 0).val, (j 0).isLt⟩ ⟨(j 1).val, (j 1).isLt⟩

/-- Every entry of the output array is in the block of the point of its row block. -/
theorem covered (c : Dev nD) (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  let t : Fin cfg0.N := ⟨(i 0).val / 1024, by rw [show cfg0.N = 16 from N_0]; omega⟩
  obtain ⟨-, -, -, -, e0, e1⟩ := block_indices t
  have et : t.val = (i 0).val / 1024 := rfl
  refine ⟨t, flush0_3 t, ?_⟩
  show i ∈ ((View.whole main_v4).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the region the output array holds x · W1. -/
theorem out_eq (c : Dev nD) :
    (Proj1.dat (F := Ideal) V c).arrAt 3 cfg0.N = Cert.GcnSpec.mm (V c main_arg0) (V c main_arg2) :=
  (Proj1.dat (F := Ideal) V c).arrAt_eq_of_cover 3 (Cert.GcnSpec.mm (V c main_arg0) (V c main_arg2))
    (fun t _ => flushed_eq V c t) (covered c)

end Cert.KernelIdeal.Proj1Value

end
-- ==== Proof.Ideal.AggPayloads.lean ====
/-
  What the two aggregation kernels compute in one grid step, entry by entry, at the ideal values.

  A step of `h = max(adj · S1 + b1, 0)` (and of `out = adj · S2 + b2`) takes a 1024 × 1024 block `a` of the adjacency,
  a 1024-row block `b` of the projected features and the accumulator `s`, and leaves `s + a · b`: at entry `(p, q)` the
  accumulator's entry plus the sum over the block's 1024 columns `k` of `a (p, k) · b (k, q)`. The casts of the operands
  to a narrower format are the identity on ideal values and the product has no rounding. The cleared accumulator is
  zero. The last step adds the bias row to every row, and the first kernel then takes the maximum with zero.
-/
import proofs.«157708_j82497731822002_1_alg».proof.Proof.Gen.KernelIdeal.Skeleton
import proofs.«157708_j82497731822002_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AggPayloads

open Cert.KernelIdeal Cert.KernelIdeal.Gen Idealize.ShloMosaic Idealize.ShloMosaic.ValueIdx

/-- The printed dimension records are plain rows-by-columns products. -/
theorem dims_hidden : dot_S1024x1024_S1024x1024_S1024x1024_1_0_0_1_n_n = DotDims.plain 1024 1024 1024 := rfl
theorem dims_out : dot_S1024x1024_S1024x256_S1024x256_1_0_0_1_n_n = DotDims.plain 1024 1024 256 := rfl

/-! ## The hidden layer's kernel (1024 output columns) -/

/-- The cleared accumulator is zero at every entry. -/
theorem cleared_hidden (j : S1024x1024.Idx) : k1_pay1 (F := Ideal) j = 0 := by
  unfold k1_pay1
  rw [shapeCast_self]
  exact Ideal.ofBits_zero_f32

/-- One step: the accumulator plus the product of the step's blocks. -/
theorem step_hidden (a b s : Vec Ideal S1024x1024 .f32) (p q : Fin 1024) :
    k1_pay2 a b s (ix2 p q) = s (ix2 p q) + ∑ k : Fin 1024, a (ix2 p k) * b (ix2 k q) := by
  unfold k1_pay2
  rw [shapeCast_self, shapeCast_self, addf_apply]
  congr 1
  exact Cert.GNN.matmul_plain_zero_apply (M := 1024) (K := 1024) (N := 1024) none _ _ p q

/-- The last step's output: accumulator plus bias row, rectified. -/
theorem finish_hidden (s : Vec Ideal S1024x1024 .f32) (b : Vec Ideal S1x1024 .f32) (p q : Fin 1024) :
    k1_pay3 s b (ix2 p q) = max (s (ix2 p q) + b (ix2 0 q)) 0 := by
  unfold k1_pay3
  rw [shapeCast_self, maximumf_apply, addf_apply, broadcast_apply, broadcastTo_1b_ab_apply]
  congr 1
  exact Ideal.ofBits_zero_f32

/-- The accumulation over the contraction blocks of one row block: started by a step from the cleared accumulator and
    continued by one step per block, after `k + 1` steps the accumulator's entry `(p, q)` is the sum over the first
    `k + 1` blocks `j` of the block products' entries. -/
theorem steps_hidden (n : ℕ) (A B acc : ℕ → Vec Ideal S1024x1024 .f32)
    (h0 : acc 0 = k1_pay2 (A 0) (B 0) (k1_pay1 (F := Ideal)))
    (hs : ∀ k, k + 1 < n → acc (k + 1) = k1_pay2 (A (k + 1)) (B (k + 1)) (acc k)) (k : ℕ) (hk : k < n)
    (p q : Fin 1024) :
    acc k (ix2 p q) = ∑ j ∈ Finset.range (k + 1), ∑ kk : Fin 1024, A j (ix2 p kk) * B j (ix2 kk q) := by
  induction k with
  | zero => rw [h0, step_hidden, cleared_hidden, zero_add, Finset.sum_range_one]
  | succ k ih =>
    rw [hs k hk, step_hidden, ih (Nat.lt_of_succ_lt hk)]
    exact (Finset.sum_range_succ (fun j => ∑ kk : Fin 1024, A j (ix2 p kk) * B j (ix2 kk q)) (k + 1)).symm

/-! ## The output layer's kernel (256 output columns) -/

theorem cleared_out (j : S1024x256.Idx) : k3_pay1 (F := Ideal) j = 0 := by
  unfold k3_pay1
  rw [shapeCast_self]
  exact Ideal.ofBits_zero_f32

theorem step_out (a : Vec Ideal S1024x1024 .f32) (b s : Vec Ideal S1024x256 .f32) (p : Fin 1024) (q : Fin 256) :
    k3_pay2 a b s (ix2 p q) = s (ix2 p q) + ∑ k : Fin 1024, a (ix2 p k) * b (ix2 k q) := by
  unfold k3_pay2
  rw [shapeCast_self, shapeCast_self, addf_apply]
  congr 1
  exact Cert.GNN.matmul_plain_zero_apply (M := 1024) (K := 1024) (N := 256) none _ _ p q

/-- The last step's output: accumulator plus bias row. -/
theorem finish_out (s : Vec Ideal S1024x256 .f32) (b : Vec Ideal S1x256 .f32) (p : Fin 1024) (q : Fin 256) :
    k3_pay3 s b (ix2 p q) = s (ix2 p q) + b (ix2 0 q) := by
  unfold k3_pay3
  rw [shapeCast_self, addf_apply, broadcastTo_1b_ab_apply]

/-- The same accumulation for the output layer's kernel. -/
theorem steps_out (n : ℕ) (A : ℕ → Vec Ideal S1024x1024 .f32) (B acc : ℕ → Vec Ideal S1024x256 .f32)
    (h0 : acc 0 = k3_pay2 (A 0) (B 0) (k3_pay1 (F := Ideal)))
    (hs : ∀ k, k + 1 < n → acc (k + 1) = k3_pay2 (A (k + 1)) (B (k + 1)) (acc k)) (k : ℕ) (hk : k < n)
    (p : Fin 1024) (q : Fin 256) :
    acc k (ix2 p q) = ∑ j ∈ Finset.range (k + 1), ∑ kk : Fin 1024, A j (ix2 p kk) * B j (ix2 kk q) := by
  induction k with
  | zero => rw [h0, step_out, cleared_out, zero_add, Finset.sum_range_one]
  | succ k ih =>
    rw [hs k hk, step_out, ih (Nat.lt_of_succ_lt hk)]
    exact (Finset.sum_range_succ (fun j => ∑ kk : Fin 1024, A j (ix2 p kk) * B j (ix2 kk q)) (k + 1)).symm

end Cert.KernelIdeal.AggPayloads

end
-- ==== Proof.SpecRows.lean ====
/-
  The bias as the kernel holds it. The host reshapes the bias row to a `1 × N` array before the aggregation kernels,
  which add it to every row of their accumulated product. `addRow X b` is that sum, `asRow b` the reshaped row, and a
  layer of the network is `addRow (adj · (X · W)) (asRow b)`.
-/
import proofs.«157708_j82497731822002_1_alg».proof.Proof.Spec

noncomputable section

namespace Cert.GcnSpec

open Idealize.ShloMosaic Idealize.ShloMosaic.ValueIdx

/-- Add the one row of `b` to every row of `X`. -/
def addRow {M N : ℕ} (X : Mat M N) (b : Mat 1 N) : Mat M N := fun i => X i + b (ix2 0 (i 1))

theorem addRow_apply {M N : ℕ} (X : Mat M N) (b : Mat 1 N) (p : Fin M) (q : Fin N) :
    addRow X b (ix2 p q) = X (ix2 p q) + b (ix2 0 q) := rfl

/-- A row of `N` values as a `1 × N` array. -/
def asRow {N : ℕ} (b : Row N) : Mat 1 N := fun i => b (ix1 (i 1))

theorem asRow_apply {N : ℕ} (b : Row N) (q : Fin N) : asRow b (ix2 0 q) = b (ix1 q) := rfl

/-- A layer is the aggregated projection with the bias row added. -/
theorem layer_eq_addRow {M K N : ℕ} (adj : Mat M M) (X : Mat M K) (W : Mat K N) (b : Row N) :
    layer adj X W b = addRow (mm adj (mm X W)) (asRow b) := rfl

/-- The network, region by region: project, aggregate with bias and rectify, project, aggregate with bias. -/
theorem gcn_eq_regions (x : Mat 16384 512) (adj : Mat 16384 16384) (W1 : Mat 512 1024) (b1 : Row 1024)
    (W2 : Mat 1024 256) (b2 : Row 256) :
    gcn x adj W1 b1 W2 b2
      = addRow (mm adj (mm (relu (addRow (mm adj (mm x W1)) (asRow b1))) W2)) (asRow b2) := rfl

end Cert.GcnSpec

end
-- ==== Proof.BlockSum.lean ====
/-
  A sum over a contracted axis cut into blocks.

  The kernel walks the contracted axis of a product in nb blocks of bs consecutive positions and adds each block's
  partial product into an accumulator. Over any commutative additive monoid (the extended reals are one) the block
  sums add up to the whole sum, and the first n of them to the sum over the positions below bs * n: addition is only
  regrouped, so nothing need be finite.
-/
import proofs.«157708_j82497731822002_1_alg».proof.Proof.Spec
import Mathlib.Data.Fintype.BigOperators
import Mathlib.Logic.Equiv.Fin.Basic

namespace Cert.GcnSpec

open scoped BigOperators

/-- Position kk of block kb, in blocks of length bs, lies among the nb * bs positions. -/
theorem block_pos_lt {nb bs kb kk : ℕ} (hkb : kb < nb) (hkk : kk < bs) : bs * kb + kk < nb * bs :=
  calc bs * kb + kk < bs * kb + bs := Nat.add_lt_add_left hkk _
    _ = (kb + 1) * bs := by rw [Nat.succ_mul, Nat.mul_comm]
    _ ≤ nb * bs := Nat.mul_le_mul_right _ hkb

/-- A sum over nb * bs positions is the sum, block by block, of the sums over each block of bs consecutive positions:
    every position is position kk of block kb for exactly one pair (kb, kk). -/
theorem sum_blocks {α : Type*} [AddCommMonoid α] (nb bs : ℕ) (f : Fin (nb * bs) → α) :
    ∑ kb : Fin nb, ∑ kk : Fin bs, f ⟨bs * kb.val + kk.val, block_pos_lt kb.isLt kk.isLt⟩ = ∑ k : Fin (nb * bs), f k := by
  rw [← finProdFinEquiv.sum_comp f, Fintype.sum_prod_type]
  refine Finset.sum_congr rfl fun kb _ => Finset.sum_congr rfl fun kk _ => ?_
  exact congrArg f (Fin.ext (Nat.add_comm _ _))

/-- The sum over block number kb (a natural number; zero from block nb on, where there is no block). -/
def blockSum {α : Type*} [AddCommMonoid α] (nb bs : ℕ) (f : Fin (nb * bs) → α) (kb : ℕ) : α :=
  if h : kb < nb then ∑ kk : Fin bs, f ⟨bs * kb + kk.val, block_pos_lt h kk.isLt⟩ else 0

theorem blockSum_of_lt {α : Type*} [AddCommMonoid α] (nb bs : ℕ) (f : Fin (nb * bs) → α) {kb : ℕ} (h : kb < nb) :
    blockSum nb bs f kb = ∑ kk : Fin bs, f ⟨bs * kb + kk.val, block_pos_lt h kk.isLt⟩ := dif_pos h

/-- The first n blocks together are the positions below bs * n: what an accumulator holds after n block steps. -/
theorem sum_range_blocks {α : Type*} [AddCommMonoid α] (nb bs : ℕ) (f : Fin (nb * bs) → α) (n : ℕ) (hn : n ≤ nb) :
    ∑ kb ∈ Finset.range n, blockSum nb bs f kb = ∑ k : Fin (nb * bs), if k.val < bs * n then f k else 0 := by
  rw [← sum_blocks nb bs fun k => if k.val < bs * n then f k else 0]
  have inner : ∀ kb : Fin nb, (∑ kk : Fin bs, if bs * kb.val + kk.val < bs * n
        then f ⟨bs * kb.val + kk.val, block_pos_lt kb.isLt kk.isLt⟩ else 0)
      = (fun j => if j < n then blockSum nb bs f j else 0) kb.val := by
    intro kb
    show _ = if kb.val < n then blockSum nb bs f kb.val else 0
    by_cases hk : kb.val < n
    · rw [if_pos hk, blockSum_of_lt nb bs f kb.isLt]
      refine Finset.sum_congr rfl fun kk _ => if_pos ?_
      calc bs * kb.val + kk.val < bs * kb.val + bs := Nat.add_lt_add_left kk.isLt _
        _ = bs * (kb.val + 1) := (Nat.mul_succ _ _).symm
        _ ≤ bs * n := Nat.mul_le_mul_left _ hk
    · rw [if_neg hk]
      refine Finset.sum_eq_zero fun kk _ => if_neg ?_
      exact Nat.not_lt.mpr (le_trans (Nat.mul_le_mul_left _ (Nat.not_lt.mp hk)) (Nat.le_add_right _ _))
  rw [Finset.sum_congr rfl fun kb _ => inner kb, Fin.sum_univ_eq_sum_range (fun j => if j < n then blockSum nb bs f j else 0) nb,
    ← Finset.sum_filter]
  refine Finset.sum_congr ?_ fun _ _ => rfl
  ext j
  simp only [Finset.mem_filter, Finset.mem_range]
  exact ⟨fun h => ⟨lt_of_lt_of_le h hn, h⟩, fun h => h.2⟩

/-- After all nb block steps the accumulator holds the whole sum. -/
theorem sum_range_blocks_all {α : Type*} [AddCommMonoid α] (nb bs : ℕ) (f : Fin (nb * bs) → α) :
    ∑ kb ∈ Finset.range nb, blockSum nb bs f kb = ∑ k : Fin (nb * bs), f k := by
  rw [← Fin.sum_univ_eq_sum_range (blockSum nb bs f) nb, ← sum_blocks nb bs f]
  exact Finset.sum_congr rfl fun kb _ => blockSum_of_lt nb bs f kb.isLt

end Cert.GcnSpec
-- ==== Proof.Ideal.Agg1Value.lean ====
/-
  The first aggregation region at the ideal values: after it, the output array holds max (adj · S1 + b1, 0).

  The grid's point t works on row block t / 16 (1024 rows of adj) at contraction step t % 16 (1024 columns of adj against
  1024 rows of S1). Over the sixteen steps of a row block the accumulator gathers, entry by entry, the sum over the
  step's 1024 contracted positions of adj (row, position) · S1 (position, column); the sixteen blocks of 1024 positions
  are all 16384 of them, each once, so after the last step the accumulator's entry is the full contraction: an entry of
  adj · S1. The last step adds the bias row, takes the maximum with zero and writes the block back; the sixteen row
  blocks tile the output array. Addition is only regrouped, so nothing need be finite.
-/
import proofs.«157708_j82497731822002_1_alg».proof.Proof.Ideal.Agg1
import proofs.«157708_j82497731822002_1_alg».proof.Proof.Ideal.AggPayloads
import proofs.«157708_j82497731822002_1_alg».proof.Proof.SpecRows
import proofs.«157708_j82497731822002_1_alg».proof.Proof.BlockSum
import proofs.«157708_j82497731822002_1_alg».proof.Proof.Gen.KernelIdeal.Launch
import proofs.«157708_j82497731822002_1_alg».proof.Proof.Gen.KernelIdeal.Points
import Idealize.ShloMosaic.Lib.Pipeline.Value
import Idealize.ShloMosaic.Lib.ValueIdx

set_option maxRecDepth 16384

noncomputable section

namespace Cert.KernelIdeal.Agg1Value

open Cert.KernelIdeal Cert.KernelIdeal.Gen
open Idealize.ShloMosaic Idealize.ShloMosaic.TcCoe Idealize.ShloMosaic.ValueIdx
open Idealize.ShloMosaic.Pipeline (Dat)
open scoped BigOperators

/-! ## The contracted axis in sixteen blocks -/

/-- Position kk of contraction block j (taken modulo sixteen, so that the statement needs no bound on j). -/
theorem pos_lt (j : ℕ) (kk : Fin 1024) : 1024 * (j % 16) + kk.val < 16384 := by
  have h1 := kk.isLt
  have h2 : j % 16 < 16 := Nat.mod_lt j (by decide)
  omega

/-- A sum over the 16384 contracted positions is the sum over the sixteen blocks of the sums over each block's 1024
    positions. -/
theorem sum_in_blocks {α : Type*} [AddCommMonoid α] (g : Fin 16384 → α) :
    ∑ j ∈ Finset.range 16, ∑ kk : Fin 1024, g ⟨1024 * (j % 16) + kk.val, pos_lt j kk⟩ = ∑ k : Fin 16384, g k := by
  have h : 16 * 1024 = 16384 := by norm_num
  rw [← (finCongr h).sum_comp g, ← Cert.GcnSpec.sum_range_blocks_all 16 1024 fun k => g (finCongr h k)]
  refine Finset.sum_congr rfl fun j hj => ?_
  have hj' : j < 16 := Finset.mem_range.mp hj
  rw [Cert.GcnSpec.blockSum_of_lt 16 1024 _ hj']
  refine Finset.sum_congr rfl fun kk _ => congrArg g (Fin.ext ?_)
  show 1024 * (j % 16) + kk.val = 1024 * j + kk.val
  rw [Nat.mod_eq_of_lt hj']

/-! ## Where a point's blocks sit in their arrays -/

/-- The printed index maps, decided over the 256 points: the adjacency's block is (row block, step), -/
theorem adj_block_index : ∀ t : Fin cfg1.N,
    win1_0.index t (0 : Fin 2) = t.val / 16 ∧ win1_0.index t (1 : Fin 2) = t.val % 16 :=
  (by decide +kernel : ∀ t : Fin grid1.N, _)
/-- the projected features' block is (step, 0), -/
theorem feat_block_index : ∀ t : Fin cfg1.N,
    win1_1.index t (0 : Fin 2) = t.val % 16 ∧ win1_1.index t (1 : Fin 2) = 0 :=
  (by decide +kernel : ∀ t : Fin grid1.N, _)
/-- the bias row is one block, -/
theorem bias_block_index : ∀ t : Fin cfg1.N,
    win1_2.index t (0 : Fin 2) = 0 ∧ win1_2.index t (1 : Fin 2) = 0 :=
  (by decide +kernel : ∀ t : Fin grid1.N, _)
/-- and the output's block is (row block, 0). -/
theorem out_block_index : ∀ t : Fin cfg1.N,
    win1_3.index t (0 : Fin 2) = t.val / 16 ∧ win1_3.index t (1 : Fin 2) = 0 :=
  (by decide +kernel : ∀ t : Fin grid1.N, _)

/-- Row p of the row block of point t is a row of the whole. -/
theorem row_lt (t : Fin cfg1.N) (p : Fin 1024) : 1024 * (t.val / 16) + p.val < 16384 := by
  have ht : t.val < 256 := lt_of_lt_of_eq t.isLt N_1
  have hp := p.isLt
  omega

/-- Entry (p, kk) of point t's block of an array of the adjacency's shape is the array's entry at row
    1024 (t / 16) + p, column 1024 (t % 16) + kk. -/
theorem adj_block_apply (X : Vec Ideal S16384x16384 .f32) (t : Fin cfg1.N) (p kk : Fin 1024) (r k : Fin 16384)
    (hr : r.val = 1024 * (t.val / 16) + p.val) (hk : k.val = 1024 * (t.val % 16) + kk.val) :
    ((cfg1.win 0).blk t).view.read (Elt Ideal) X (ix2 p kk) = X (ix2 r k) := by
  obtain ⟨e0, e1⟩ := adj_block_index t
  rw [View.read_apply]
  refine congrArg X (funext fun a => Fin.ext ?_)
  match a with
  | ⟨0, _⟩ => show win1_0.index t (0 : Fin 2) * 1024 + 1 * p.val = r.val; omega
  | ⟨1, _⟩ => show win1_0.index t (1 : Fin 2) * 1024 + 1 * kk.val = k.val; omega

/-- Entry (kk, q) of point t's block of an array of the projected features' shape is the array's entry at row
    1024 (t % 16) + kk, column q. -/
theorem feat_block_apply (X : Vec Ideal S16384x1024 .f32) (t : Fin cfg1.N) (kk q : Fin 1024) (k : Fin 16384)
    (hk : k.val = 1024 * (t.val % 16) + kk.val) :
    ((cfg1.win 1).blk t).view.read (Elt Ideal) X (ix2 kk q) = X (ix2 k q) := by
  obtain ⟨e0, e1⟩ := feat_block_index t
  rw [View.read_apply]
  refine congrArg X (funext fun a => Fin.ext ?_)
  match a with
  | ⟨0, _⟩ => show win1_1.index t (0 : Fin 2) * 1024 + 1 * kk.val = k.val; omega
  | ⟨1, _⟩ => show win1_1.index t (1 : Fin 2) * 1024 + 1 * q.val = q.val; omega

/-- The bias block of every point is the whole bias row. -/
theorem bias_block_apply (X : Vec Ideal S1x1024 .f32) (t : Fin cfg1.N) (q : Fin 1024) :
    ((cfg1.win 2).blk t).view.read (Elt Ideal) X (ix2 0 q) = X (ix2 0 q) := by
  obtain ⟨e0, e1⟩ := bias_block_index t
  rw [View.read_apply]
  refine congrArg X (funext fun a => Fin.ext ?_)
  match a with
  | ⟨0, _⟩ => show win1_2.index t (0 : Fin 2) * 1 + 1 * 0 = 0; omega
  | ⟨1, _⟩ => show win1_2.index t (1 : Fin 2) * 1024 + 1 * q.val = q.val; omega

/-- Entry (p, q) of point t's block of an array of the output's shape is the array's entry at row 1024 (t / 16) + p,
    column q. -/
theorem out_block_emb (t : Fin cfg1.N) (j : ((cfg1.win 3).xblock (grid1.coords t)).Idx) :
    ((cfg1.win 3).blk t).view.emb j
      = ix2 (⟨1024 * (t.val / 16) + (j 0).val, row_lt t ⟨(j 0).val, (j 0).isLt⟩⟩ : Fin 16384) (⟨(j 1).val, (j 1).isLt⟩ : Fin 1024) := by
  obtain ⟨e0, e1⟩ := out_block_index t
  funext a
  apply Fin.ext
  match a with
  | ⟨0, _⟩ => show win1_3.index t (0 : Fin 2) * 1024 + 1 * (j 0).val = 1024 * (t.val / 16) + (j 0).val; omega
  | ⟨1, _⟩ => show win1_3.index t (1 : Fin 2) * 1024 + 1 * (j 1).val = (j 1).val; omega

/-- Every entry of the output array is in the block written back at the last step of its row block. -/
theorem covered (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  let t : Fin cfg1.N := ⟨16 * ((i 0).val / 1024) + 15, by rw [show cfg1.N = 256 from N_1]; omega⟩
  obtain ⟨e0, e1⟩ := out_block_index t
  have et : t.val = 16 * ((i 0).val / 1024) + 15 := rfl
  refine ⟨t, (flush1_3 t).mpr (by omega), ?_⟩
  show i ∈ ((View.whole main_v5).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-! ## The accumulator after the last step of a row block -/

variable (V : (c : Dev nD) → (b : Ref sig .tc) → Buf (Elt Ideal) ((c : Thread nD τ).loc b))

/-- The arrays the region reads, as it finds them, and a point's blocks of the first two, at their literal types. -/
abbrev adjArr (c : Dev nD) : Vec Ideal S16384x16384 .f32 := V c main_arg1
abbrev featArr (c : Dev nD) : Vec Ideal S16384x1024 .f32 := V c main_v4
abbrev biasArr (c : Dev nD) : Vec Ideal S1x1024 .f32 := V c main_v0
abbrev adjBlk (c : Dev nD) (t : Fin cfg1.N) : Vec Ideal S1024x1024 .f32 := Agg1.blk V c 0 t
abbrev featBlk (c : Dev nD) (t : Fin cfg1.N) : Vec Ideal S1024x1024 .f32 := Agg1.blk V c 1 t
abbrev biasBlk (c : Dev nD) (t : Fin cfg1.N) : Vec Ideal S1x1024 .f32 := Agg1.blk V c 2 t

/-- Step j of row block i as a point of the grid (wrapped around, so that it is a point for all i and j). -/
def step (i j : ℕ) : Fin cfg1.N := ⟨(16 * i + j) % 256, lt_of_lt_of_eq (Nat.mod_lt _ (by decide)) N_1.symm⟩

theorem step_val (i j : ℕ) : (step i j).val = (16 * i + j) % 256 := rfl

/-- The accumulator does not depend on how its point is presented. -/
theorem acc_congr (c : Dev nD) (n n' : ℕ) (h : n < cfg1.N) (h' : n' < cfg1.N) (e : n = n') :
    Agg1.acc (F := Ideal) V c n h = Agg1.acc (F := Ideal) V c n' h' := by
  subst e; rfl

/-- After step j of row block i (i, j < 16) the accumulator's entry (p, q) is the sum over the blocks 0 … j of the
    contracted axis of the products of the adjacency's and the projected features' block entries. -/
theorem acc_steps (c : Dev nD) (i : ℕ) (hi : i < 16) (j : ℕ) (hj : j < 16) (p q : Fin 1024) :
    Agg1.acc (F := Ideal) V c (step i j).val (step i j).isLt (ix2 p q)
      = ∑ s ∈ Finset.range (j + 1), ∑ kk : Fin 1024,
          adjBlk V c (step i s) (ix2 p kk) * featBlk V c (step i s) (ix2 kk q) := by
  refine AggPayloads.steps_hidden 16 (fun s => adjBlk V c (step i s)) (fun s => featBlk V c (step i s))
    (fun s => Agg1.acc (F := Ideal) V c (step i s).val (step i s).isLt) ?_ ?_ j hj p q
  · exact Agg1.acc_first V c (step i 0) (by rw [step_val]; omega)
  · intro k hk
    have h0 : (step i (k + 1)).val % 16 ≠ 0 := by rw [step_val]; omega
    rw [Agg1.acc_next V c (step i (k + 1)) h0]
    congr 1
    exact acc_congr V c _ _ _ _ (by rw [step_val, step_val]; omega)

/-- After the last step of a row block the accumulator's entry (p, q) is entry (1024 (t / 16) + p, q) of adj · S1. -/
theorem acc_last (c : Dev nD) (t : Fin cfg1.N) (ht : t.val % 16 = 15) (p q : Fin 1024) :
    Agg1.acc (F := Ideal) V c t.val t.isLt (ix2 p q)
      = Cert.GcnSpec.mm (V c main_arg1) (V c main_v4) (ix2 ⟨1024 * (t.val / 16) + p.val, row_lt t p⟩ q) := by
  have hN : t.val < 256 := lt_of_lt_of_eq t.isLt N_1
  have hi : t.val / 16 < 16 := by omega
  have et : step (t.val / 16) 15 = t := Fin.ext (by rw [step_val]; omega)
  have h := acc_steps V c (t.val / 16) hi 15 (by decide) p q
  rw [et] at h
  rw [h, Cert.GcnSpec.mm_apply,
    ← sum_in_blocks fun k => adjArr V c (ix2 ⟨1024 * (t.val / 16) + p.val, row_lt t p⟩ k) * featArr V c (ix2 k q)]
  refine Finset.sum_congr rfl fun s hs => Finset.sum_congr rfl fun kk _ => ?_
  have hs' : s < 16 := Finset.mem_range.mp hs
  have e1 : (step (t.val / 16) s).val / 16 = t.val / 16 := by rw [step_val]; omega
  have e2 : (step (t.val / 16) s).val % 16 = s % 16 := by rw [step_val]; omega
  have hr : 1024 * (t.val / 16) + p.val = 1024 * ((step (t.val / 16) s).val / 16) + p.val := by rw [e1]
  have hk : 1024 * (s % 16) + kk.val = 1024 * ((step (t.val / 16) s).val % 16) + kk.val := by rw [e2]
  congr 1
  · exact adj_block_apply (adjArr V c) (step (t.val / 16) s) p kk _ _ hr hk
  · exact feat_block_apply (featArr V c) (step (t.val / 16) s) kk q _ hk

/-! ## What each last step writes back, and the whole array -/

/-- The region's result: the rectified sum of adj · S1 and the bias row. -/
abbrev hidden (c : Dev nD) : Cert.GcnSpec.Mat 16384 1024 :=
  Cert.GcnSpec.relu (Cert.GcnSpec.addRow (Cert.GcnSpec.mm (V c main_arg1) (V c main_v4)) (V c main_v0))

/-- Entry (p, q) of what a last step leaves in its output block is entry (1024 (t / 16) + p, q) of the result. -/
theorem out_block_apply (c : Dev nD) (t : Fin cfg1.N) (ht : t.val % 16 = 15) (p q : Fin 1024) :
    k1_pay3 (Agg1.acc (F := Ideal) V c t.val t.isLt) (Agg1.blk V c 2 t) (ix2 p q)
      = hidden V c (ix2 ⟨1024 * (t.val / 16) + p.val, row_lt t p⟩ q) := by
  rw [AggPayloads.finish_hidden, acc_last V c t ht]
  show max (_ + _) 0 = max (_ + _) 0
  congr 2
  exact bias_block_apply (biasArr V c) t q

/-- What a last step writes back is its block of the result. -/
theorem flushed_eq (c : Dev nD) (t : Fin cfg1.N) (ht : t.val % 16 = 15) :
    (Agg1.dat (F := Ideal) V c).flushed 3 t = ((cfg1.win 3).blk t).view.read (Elt Ideal) (hidden V c) := by
  show (cfg1.win 3).cut (grid1.coords t) ((Agg1.dat (F := Ideal) V c).after 3 t) = _
  rw [Agg1.after_3]
  funext j
  show k1_pay3 (Agg1.acc (F := Ideal) V c t.val t.isLt) (Agg1.blk V c 2 t) ((cfg1.win 3).xinj (grid1.coords t) j)
    = hidden V c (((cfg1.win 3).blk t).view.emb j)
  have inBlock : (cfg1.win 3).xinj (grid1.coords t) j
      = ix2 (⟨(j 0).val, (j 0).isLt⟩ : Fin 1024) (⟨(j 1).val, (j 1).isLt⟩ : Fin 1024) :=
    funext fun a => by match a with | ⟨0, _⟩ => rfl | ⟨1, _⟩ => rfl
  rw [inBlock, out_block_emb t j]
  exact out_block_apply V c t ht ⟨(j 0).val, (j 0).isLt⟩ ⟨(j 1).val, (j 1).isLt⟩

/-- After the region the output array holds max (adj · S1 + b1, 0). -/
theorem out_eq (c : Dev nD) :
    (Agg1.dat (F := Ideal) V c).arrAt 3 cfg1.N
      = Cert.GcnSpec.relu (Cert.GcnSpec.addRow (Cert.GcnSpec.mm (V c main_arg1) (V c main_v4)) (V c main_v0)) :=
  (Agg1.dat (F := Ideal) V c).arrAt_eq_of_cover 3 (hidden V c)
    (fun t hf => flushed_eq V c t ((flush1_3 t).mp hf)) covered

end Cert.KernelIdeal.Agg1Value

end
-- ==== Proof.Ideal.Proj2Value.lean ====
/-
  The second projection region at the ideal values: after it, the output array holds h · W2.

  Here h is the array of hidden features as the region finds it (16384 nodes by 1024 features) and W2 the second weight
  matrix (1024 by 256). At the ideal values a point's output block is, entry by entry, the plain sum over the 1024
  hidden features of the products of the point's rows of h with the columns of W2: the accumulator starts at zero,
  narrowing the operands is the identity, and the product has no rounding and no order. Point t is row block t, so
  what it writes back is block t of the rows-by-columns product of the whole arrays; the sixteen row blocks tile the
  output array, so after the region the array is that product.
-/
import proofs.«157708_j82497731822002_1_alg».proof.Proof.Ideal.Proj2
import proofs.«157708_j82497731822002_1_alg».proof.Proof.Spec
import proofs.«157708_j82497731822002_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj2Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The output block of a point, entry by entry -/

/-- The printed dimension record of the product is the plain rows-by-columns one. -/
theorem dims_plain : dot_S1024x1024_S1024x256_S1024x256_1_0_0_1_n_n = DotDims.plain 1024 1024 256 := rfl

/-- Entry (p, q) of a point's output block is the sum over the hidden features of the products of row p of the point's
    rows of h with column q of W2. -/
theorem rowsTimes_apply (x0 : Vec Ideal S1024x1024 .f32) (x1 : Vec Ideal S1024x256 .f32) (p : Fin 1024) (q : Fin 256) :
    Proj2.rowsTimes x0 x1 (ix2 p q) = ∑ k : Fin 1024, x0 (ix2 p k) * x1 (ix2 k q) := by
  unfold Proj2.rowsTimes k2_pay2 k2_pay1
  dsimp only
  simp only [shapeCast_self]
  rw [addf_apply, broadcast_apply, Ideal.ofBits_def, Ideal.ofBits_zero_f32, zero_add, dims_plain]
  exact Cert.GNN.matmul_plain_zero_apply none (truncf .bf16 x0 bitsLt_bf16_f32) (truncf .bf16 x1 bitsLt_bf16_f32) p q

/-! ## Where a point's blocks sit in their arrays

Point t is row block t: its block of h is rows 1024 t … 1024 t + 1023 (all 1024 hidden features), its block of W2 is
all of W2, and its output block is rows 1024 t … 1024 t + 1023 (all 256 columns). -/

variable (V : (c : Dev nD) → (b : Ref sig .tc) → Buf (Elt Ideal) ((c : Thread nD τ).loc b))

/-- The printed index maps, decided over the sixteen points. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

/-- Row p of point t's rows is row 1024 t + p of the whole. -/
theorem row_lt (t : Fin cfg2.N) (p : Fin 1024) : 1024 * t.val + p.val < 16384 := by
  have ht : t.val < 16 := lt_of_lt_of_eq t.isLt N_2
  have hp := p.isLt
  omega

/-- The point's block of h, entry (p, k), is h at row 1024 t + p, feature k. -/
theorem hrows_apply (c : Dev nD) (t : Fin cfg2.N) (p : Fin 1024) (k : Fin 1024) :
    (Proj2.blk V c 0 t : Vec Ideal S1024x1024 .f32) (ix2 p k)
      = (V c main_v5 : S16384x1024.Idx → Ideal .f32) (ix2 ⟨1024 * t.val + p.val, row_lt t p⟩ k) := by
  obtain ⟨e0, e1, -, -, -, -⟩ := block_indices t
  unfold Proj2.blk
  rw [View.read_apply]
  show V c main_v5 _ = V c main_v5 _
  congr 1
  funext a
  apply Fin.ext
  match a with
  | ⟨0, _⟩ => show win2_0.index t (0 : Fin 2) * 1024 + 1 * p.val = 1024 * t.val + p.val; omega
  | ⟨1, _⟩ => show win2_0.index t (1 : Fin 2) * 1024 + 1 * k.val = k.val; omega

/-- The point's block of W2 is W2. -/
theorem weights_apply (c : Dev nD) (t : Fin cfg2.N) (k : Fin 1024) (q : Fin 256) :
    (Proj2.blk V c 1 t : Vec Ideal S1024x256 .f32) (ix2 k q) = (V c main_arg4 : S1024x256.Idx → Ideal .f32) (ix2 k q) := by
  obtain ⟨-, -, e0, e1, -, -⟩ := block_indices t
  unfold Proj2.blk
  rw [View.read_apply]
  show V c main_arg4 _ = V c main_arg4 _
  congr 1
  funext a
  apply Fin.ext
  match a with
  | ⟨0, _⟩ => show win2_1.index t (0 : Fin 2) * 1024 + 1 * k.val = k.val; omega
  | ⟨1, _⟩ => show win2_1.index t (1 : Fin 2) * 256 + 1 * q.val = q.val; omega

/-- Entry (p, q) of what point t leaves in its output block is entry (1024 t + p, q) of h · W2. -/
theorem out_block_apply (c : Dev nD) (t : Fin cfg2.N) (p : Fin 1024) (q : Fin 256) :
    Proj2.rowsTimes (Proj2.blk V c 0 t) (Proj2.blk V c 1 t) (ix2 p q)
      = Cert.GcnSpec.mm (V c main_v5) (V c main_arg4) (ix2 ⟨1024 * t.val + p.val, row_lt t p⟩ q) := by
  rw [rowsTimes_apply, Cert.GcnSpec.mm_apply]
  exact Finset.sum_congr rfl fun k _ => by rw [hrows_apply, weights_apply]

/-! ## What each point writes back, and the whole array -/

/-- What point t writes back is block t of h · W2. -/
theorem flushed_eq (c : Dev nD) (t : Fin cfg2.N) :
    (Proj2.dat (F := Ideal) V c).flushed 3 t
      = ((cfg2.win 3).blk t).view.read (Elt Ideal) (Cert.GcnSpec.mm (V c main_v5) (V c main_arg4)) := by
  show (cfg2.win 3).cut (grid2.coords t) ((Proj2.dat (F := Ideal) V c).after 3 t) = _
  rw [Proj2.after_3]
  funext j
  show Proj2.rowsTimes (Proj2.blk V c 0 t) (Proj2.blk V c 1 t) ((cfg2.win 3).xinj (grid2.coords t) j)
    = Cert.GcnSpec.mm (V c main_v5) (V c main_arg4) (((cfg2.win 3).blk t).view.emb j)
  obtain ⟨-, -, -, -, e0, e1⟩ := block_indices t
  have inBlock : (cfg2.win 3).xinj (grid2.coords t) j = ix2 (⟨(j 0).val, (j 0).isLt⟩ : Fin 1024) (⟨(j 1).val, (j 1).isLt⟩ : Fin 256) :=
    funext fun a => by match a with | ⟨0, _⟩ => rfl | ⟨1, _⟩ => rfl
  have inArray : ((cfg2.win 3).blk t).view.emb j
      = ix2 (⟨1024 * t.val + (j 0).val, row_lt t ⟨(j 0).val, (j 0).isLt⟩⟩ : Fin 16384) (⟨(j 1).val, (j 1).isLt⟩ : Fin 256) := by
    funext a
    apply Fin.ext
    match a with
    | ⟨0, _⟩ => show win2_3.index t (0 : Fin 2) * 1024 + 1 * (j 0).val = 1024 * t.val + (j 0).val; omega
    | ⟨1, _⟩ => show win2_3.index t (1 : Fin 2) * 256 + 1 * (j 1).val = (j 1).val; omega
  rw [inBlock, inArray]
  exact out_block_apply V c t ⟨(j 0).val, (j 0).isLt⟩ ⟨(j 1).val, (j 1).isLt⟩

/-- Every entry of the output array is in the block of the point of its row block. -/
theorem covered (c : Dev nD) (i : S16384x256.Idx) :
    ∃ t : Fin cfg2.N, (cfg2.win 3).flush t = true ∧ i ∈ ((cfg2.win 3).blk t).view.set := by
  have hi0 : (i 0).val < 16384 := (i 0).isLt
  have hi1 : (i 1).val < 256 := (i 1).isLt
  let t : Fin cfg2.N := ⟨(i 0).val / 1024, by rw [show cfg2.N = 16 from N_2]; omega⟩
  obtain ⟨-, -, -, -, e0, e1⟩ := block_indices t
  have et : t.val = (i 0).val / 1024 := rfl
  refine ⟨t, flush2_3 t, ?_⟩
  show i ∈ ((View.whole main_v6).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 256 ≤ (i 1).val ∧ (i 1).val < win2_3.index t (1 : Fin 2) * 256 + 256
    omega

/-- After the region the output array holds h · W2. -/
theorem out_eq (c : Dev nD) :
    (Proj2.dat (F := Ideal) V c).arrAt 3 cfg2.N = Cert.GcnSpec.mm (V c main_v5) (V c main_arg4) :=
  (Proj2.dat (F := Ideal) V c).arrAt_eq_of_cover 3 (Cert.GcnSpec.mm (V c main_v5) (V c main_arg4))
    (fun t _ => flushed_eq V c t) (covered c)

end Cert.KernelIdeal.Proj2Value

end
-- ==== Proof.Ideal.Agg2Value.lean ====
/-
  The second aggregation region at the ideal values: after it, the output array holds adj · S2 + b2.

  As in the first aggregation, the grid's point t works on row block t / 16 (1024 rows of adj) at contraction step t % 16
  (1024 columns of adj against 1024 rows of S2, which has 256 columns). Over the sixteen steps of a row block the
  accumulator gathers, entry by entry, the products over all 16384 contracted positions, each once: an entry of adj · S2.
  The last step adds the bias row and writes the block back, with no rectifier; the sixteen row blocks tile the output
  array. Addition is only regrouped, so nothing need be finite.
-/
import proofs.«157708_j82497731822002_1_alg».proof.Proof.Ideal.Agg2
import proofs.«157708_j82497731822002_1_alg».proof.Proof.Ideal.Agg1Value
import proofs.«157708_j82497731822002_1_alg».proof.Proof.Ideal.AggPayloads
import proofs.«157708_j82497731822002_1_alg».proof.Proof.SpecRows
import proofs.«157708_j82497731822002_1_alg».proof.Proof.Gen.KernelIdeal.Launch
import proofs.«157708_j82497731822002_1_alg».proof.Proof.Gen.KernelIdeal.Points
import Idealize.ShloMosaic.Lib.Pipeline.Value
import Idealize.ShloMosaic.Lib.ValueIdx

set_option maxRecDepth 16384

noncomputable section

namespace Cert.KernelIdeal.Agg2Value

open Cert.KernelIdeal Cert.KernelIdeal.Gen
open Idealize.ShloMosaic Idealize.ShloMosaic.TcCoe Idealize.ShloMosaic.ValueIdx
open Idealize.ShloMosaic.Pipeline (Dat)
open scoped BigOperators

/-! ## Where a point's blocks sit in their arrays -/

/-- The printed index maps, decided over the 256 points: the adjacency's block is (row block, step), -/
theorem adj_block_index : ∀ t : Fin cfg3.N,
    win3_0.index t (0 : Fin 2) = t.val / 16 ∧ win3_0.index t (1 : Fin 2) = t.val % 16 :=
  (by decide +kernel : ∀ t : Fin grid3.N, _)
/-- the second projection's block is (step, 0), -/
theorem feat_block_index : ∀ t : Fin cfg3.N,
    win3_1.index t (0 : Fin 2) = t.val % 16 ∧ win3_1.index t (1 : Fin 2) = 0 :=
  (by decide +kernel : ∀ t : Fin grid3.N, _)
/-- the bias row is one block, -/
theorem bias_block_index : ∀ t : Fin cfg3.N,
    win3_2.index t (0 : Fin 2) = 0 ∧ win3_2.index t (1 : Fin 2) = 0 :=
  (by decide +kernel : ∀ t : Fin grid3.N, _)
/-- and the output's block is (row block, 0). -/
theorem out_block_index : ∀ t : Fin cfg3.N,
    win3_3.index t (0 : Fin 2) = t.val / 16 ∧ win3_3.index t (1 : Fin 2) = 0 :=
  (by decide +kernel : ∀ t : Fin grid3.N, _)

/-- Row p of the row block of point t is a row of the whole. -/
theorem row_lt (t : Fin cfg3.N) (p : Fin 1024) : 1024 * (t.val / 16) + p.val < 16384 := by
  have ht : t.val < 256 := lt_of_lt_of_eq t.isLt N_3
  have hp := p.isLt
  omega

/-- Entry (p, kk) of point t's block of an array of the adjacency's shape is the array's entry at row
    1024 (t / 16) + p, column 1024 (t % 16) + kk. -/
theorem adj_block_apply (X : Vec Ideal S16384x16384 .f32) (t : Fin cfg3.N) (p kk : Fin 1024) (r k : Fin 16384)
    (hr : r.val = 1024 * (t.val / 16) + p.val) (hk : k.val = 1024 * (t.val % 16) + kk.val) :
    ((cfg3.win 0).blk t).view.read (Elt Ideal) X (ix2 p kk) = X (ix2 r k) := by
  obtain ⟨e0, e1⟩ := adj_block_index t
  rw [View.read_apply]
  refine congrArg X (funext fun a => Fin.ext ?_)
  match a with
  | ⟨0, _⟩ => show win3_0.index t (0 : Fin 2) * 1024 + 1 * p.val = r.val; omega
  | ⟨1, _⟩ => show win3_0.index t (1 : Fin 2) * 1024 + 1 * kk.val = k.val; omega

/-- Entry (kk, q) of point t's block of an array of the second projection's shape is the array's entry at row
    1024 (t % 16) + kk, column q. -/
theorem feat_block_apply (X : Vec Ideal S16384x256 .f32) (t : Fin cfg3.N) (kk : Fin 1024) (q : Fin 256) (k : Fin 16384)
    (hk : k.val = 1024 * (t.val % 16) + kk.val) :
    ((cfg3.win 1).blk t).view.read (Elt Ideal) X (ix2 kk q) = X (ix2 k q) := by
  obtain ⟨e0, e1⟩ := feat_block_index t
  rw [View.read_apply]
  refine congrArg X (funext fun a => Fin.ext ?_)
  match a with
  | ⟨0, _⟩ => show win3_1.index t (0 : Fin 2) * 1024 + 1 * kk.val = k.val; omega
  | ⟨1, _⟩ => show win3_1.index t (1 : Fin 2) * 256 + 1 * q.val = q.val; omega

/-- The bias block of every point is the whole bias row. -/
theorem bias_block_apply (X : Vec Ideal S1x256 .f32) (t : Fin cfg3.N) (q : Fin 256) :
    ((cfg3.win 2).blk t).view.read (Elt Ideal) X (ix2 0 q) = X (ix2 0 q) := by
  obtain ⟨e0, e1⟩ := bias_block_index t
  rw [View.read_apply]
  refine congrArg X (funext fun a => Fin.ext ?_)
  match a with
  | ⟨0, _⟩ => show win3_2.index t (0 : Fin 2) * 1 + 1 * 0 = 0; omega
  | ⟨1, _⟩ => show win3_2.index t (1 : Fin 2) * 256 + 1 * q.val = q.val; omega

/-- Entry (p, q) of point t's block of an array of the output's shape is the array's entry at row 1024 (t / 16) + p,
    column q. -/
theorem out_block_emb (t : Fin cfg3.N) (j : ((cfg3.win 3).xblock (grid3.coords t)).Idx) :
    ((cfg3.win 3).blk t).view.emb j
      = ix2 (⟨1024 * (t.val / 16) + (j 0).val, row_lt t ⟨(j 0).val, (j 0).isLt⟩⟩ : Fin 16384) (⟨(j 1).val, (j 1).isLt⟩ : Fin 256) := by
  obtain ⟨e0, e1⟩ := out_block_index t
  funext a
  apply Fin.ext
  match a with
  | ⟨0, _⟩ => show win3_3.index t (0 : Fin 2) * 1024 + 1 * (j 0).val = 1024 * (t.val / 16) + (j 0).val; omega
  | ⟨1, _⟩ => show win3_3.index t (1 : Fin 2) * 256 + 1 * (j 1).val = (j 1).val; omega

/-- Every entry of the output array is in the block written back at the last step of its row block. -/
theorem covered (i : S16384x256.Idx) :
    ∃ t : Fin cfg3.N, (cfg3.win 3).flush t = true ∧ i ∈ ((cfg3.win 3).blk t).view.set := by
  have hi0 : (i 0).val < 16384 := (i 0).isLt
  have hi1 : (i 1).val < 256 := (i 1).isLt
  let t : Fin cfg3.N := ⟨16 * ((i 0).val / 1024) + 15, by rw [show cfg3.N = 256 from N_3]; omega⟩
  obtain ⟨e0, e1⟩ := out_block_index t
  have et : t.val = 16 * ((i 0).val / 1024) + 15 := rfl
  refine ⟨t, (flush3_3 t).mpr (by omega), ?_⟩
  show i ∈ ((View.whole main_v7).slice (win3_3.rect t)).set
  rw [View.set_slice_whole, Rect.mem_set_unit]
  intro a
  match a with
  | ⟨0, _⟩ =>
    show win3_3.index t (0 : Fin 2) * 1024 ≤ (i 0).val ∧ (i 0).val < win3_3.index t (0 : Fin 2) * 1024 + 1024
    omega
  | ⟨1, _⟩ =>
    show win3_3.index t (1 : Fin 2) * 256 ≤ (i 1).val ∧ (i 1).val < win3_3.index t (1 : Fin 2) * 256 + 256
    omega

/-! ## The accumulator after the last step of a row block -/

variable (V : (c : Dev nD) → (b : Ref sig .tc) → Buf (Elt Ideal) ((c : Thread nD τ).loc b))

/-- The arrays the region reads, as it finds them, and a point's blocks of them, at their literal types. -/
abbrev adjArr (c : Dev nD) : Vec Ideal S16384x16384 .f32 := V c main_arg1
abbrev featArr (c : Dev nD) : Vec Ideal S16384x256 .f32 := V c main_v6
abbrev biasArr (c : Dev nD) : Vec Ideal S1x256 .f32 := V c main_v1
abbrev adjBlk (c : Dev nD) (t : Fin cfg3.N) : Vec Ideal S1024x1024 .f32 := Agg2.blk V c 0 t
abbrev featBlk (c : Dev nD) (t : Fin cfg3.N) : Vec Ideal S1024x256 .f32 := Agg2.blk V c 1 t

/-- Step j of row block i as a point of the grid (wrapped around, so that it is a point for all i and j). -/
def step (i j : ℕ) : Fin cfg3.N := ⟨(16 * i + j) % 256, lt_of_lt_of_eq (Nat.mod_lt _ (by decide)) N_3.symm⟩

theorem step_val (i j : ℕ) : (step i j).val = (16 * i + j) % 256 := rfl

/-- The accumulator does not depend on how its point is presented. -/
theorem acc_congr (c : Dev nD) (n n' : ℕ) (h : n < cfg3.N) (h' : n' < cfg3.N) (e : n = n') :
    Agg2.acc (F := Ideal) V c n h = Agg2.acc (F := Ideal) V c n' h' := by
  subst e; rfl

/-- After step j of row block i (i, j < 16) the accumulator's entry (p, q) is the sum over the blocks 0 … j of the
    contracted axis of the products of the adjacency's and the second projection's block entries. -/
theorem acc_steps (c : Dev nD) (i : ℕ) (hi : i < 16) (j : ℕ) (hj : j < 16) (p : Fin 1024) (q : Fin 256) :
    Agg2.acc (F := Ideal) V c (step i j).val (step i j).isLt (ix2 p q)
      = ∑ s ∈ Finset.range (j + 1), ∑ kk : Fin 1024,
          adjBlk V c (step i s) (ix2 p kk) * featBlk V c (step i s) (ix2 kk q) := by
  refine AggPayloads.steps_out 16 (fun s => adjBlk V c (step i s)) (fun s => featBlk V c (step i s))
    (fun s => Agg2.acc (F := Ideal) V c (step i s).val (step i s).isLt) ?_ ?_ j hj p q
  · exact Agg2.acc_first V c (step i 0) (by rw [step_val]; omega)
  · intro k hk
    have h0 : (step i (k + 1)).val % 16 ≠ 0 := by rw [step_val]; omega
    rw [Agg2.acc_next V c (step i (k + 1)) h0]
    congr 1
    exact acc_congr V c _ _ _ _ (by rw [step_val, step_val]; omega)

/-- After the last step of a row block the accumulator's entry (p, q) is entry (1024 (t / 16) + p, q) of adj · S2. -/
theorem acc_last (c : Dev nD) (t : Fin cfg3.N) (ht : t.val % 16 = 15) (p : Fin 1024) (q : Fin 256) :
    Agg2.acc (F := Ideal) V c t.val t.isLt (ix2 p q)
      = Cert.GcnSpec.mm (V c main_arg1) (V c main_v6) (ix2 ⟨1024 * (t.val / 16) + p.val, row_lt t p⟩ q) := by
  have hN : t.val < 256 := lt_of_lt_of_eq t.isLt N_3
  have hi : t.val / 16 < 16 := by omega
  have et : step (t.val / 16) 15 = t := Fin.ext (by rw [step_val]; omega)
  have h := acc_steps V c (t.val / 16) hi 15 (by decide) p q
  rw [et] at h
  rw [h, Cert.GcnSpec.mm_apply,
    ← Agg1Value.sum_in_blocks fun k => adjArr V c (ix2 ⟨1024 * (t.val / 16) + p.val, row_lt t p⟩ k) * featArr V c (ix2 k q)]
  refine Finset.sum_congr rfl fun s hs => Finset.sum_congr rfl fun kk _ => ?_
  have hs' : s < 16 := Finset.mem_range.mp hs
  have e1 : (step (t.val / 16) s).val / 16 = t.val / 16 := by rw [step_val]; omega
  have e2 : (step (t.val / 16) s).val % 16 = s % 16 := by rw [step_val]; omega
  have hr : 1024 * (t.val / 16) + p.val = 1024 * ((step (t.val / 16) s).val / 16) + p.val := by rw [e1]
  have hk : 1024 * (s % 16) + kk.val = 1024 * ((step (t.val / 16) s).val % 16) + kk.val := by rw [e2]
  congr 1
  · exact adj_block_apply (adjArr V c) (step (t.val / 16) s) p kk _ _ hr hk
  · exact feat_block_apply (featArr V c) (step (t.val / 16) s) kk q _ hk

/-! ## What each last step writes back, and the whole array -/

/-- The region's result: adj · S2 with the bias row added to every row. -/
abbrev result (c : Dev nD) : Cert.GcnSpec.Mat 16384 256 :=
  Cert.GcnSpec.addRow (Cert.GcnSpec.mm (V c main_arg1) (V c main_v6)) (V c main_v1)

/-- Entry (p, q) of what a last step leaves in its output block is entry (1024 (t / 16) + p, q) of the result. -/
theorem out_block_apply (c : Dev nD) (t : Fin cfg3.N) (ht : t.val % 16 = 15) (p : Fin 1024) (q : Fin 256) :
    k3_pay3 (Agg2.acc (F := Ideal) V c t.val t.isLt) (Agg2.blk V c 2 t) (ix2 p q)
      = result V c (ix2 ⟨1024 * (t.val / 16) + p.val, row_lt t p⟩ q) := by
  rw [AggPayloads.finish_out, acc_last V c t ht]
  show _ + _ = _ + _
  congr 1
  exact bias_block_apply (biasArr V c) t q

/-- What a last step writes back is its block of the result. -/
theorem flushed_eq (c : Dev nD) (t : Fin cfg3.N) (ht : t.val % 16 = 15) :
    (Agg2.dat (F := Ideal) V c).flushed 3 t = ((cfg3.win 3).blk t).view.read (Elt Ideal) (result V c) := by
  show (cfg3.win 3).cut (grid3.coords t) ((Agg2.dat (F := Ideal) V c).after 3 t) = _
  rw [Agg2.after_3]
  funext j
  show k3_pay3 (Agg2.acc (F := Ideal) V c t.val t.isLt) (Agg2.blk V c 2 t) ((cfg3.win 3).xinj (grid3.coords t) j)
    = result V c (((cfg3.win 3).blk t).view.emb j)
  have inBlock : (cfg3.win 3).xinj (grid3.coords t) j
      = ix2 (⟨(j 0).val, (j 0).isLt⟩ : Fin 1024) (⟨(j 1).val, (j 1).isLt⟩ : Fin 256) :=
    funext fun a => by match a with | ⟨0, _⟩ => rfl | ⟨1, _⟩ => rfl
  rw [inBlock, out_block_emb t j]
  exact out_block_apply V c t ht ⟨(j 0).val, (j 0).isLt⟩ ⟨(j 1).val, (j 1).isLt⟩

/-- After the region the output array holds adj · S2 + b2. -/
theorem out_eq (c : Dev nD) :
    (Agg2.dat (F := Ideal) V c).arrAt 3 cfg3.N
      = Cert.GcnSpec.addRow (Cert.GcnSpec.mm (V c main_arg1) (V c main_v6)) (V c main_v1) :=
  (Agg2.dat (F := Ideal) V c).arrAt_eq_of_cover 3 (result V c)
    (fun t hf => flushed_eq V c t ((flush3_3 t).mp hf)) covered

end Cert.KernelIdeal.Agg2Value

end
-- ==== Proof.Ideal.Value.lean ====
/-
  What the kernel program's result buffer holds at the end, at the ideal values: the two-layer network of the arguments.

  Region by region, each entered at the buffers the one before left: the first writes `x · W1`; the second reads it
  with the adjacency and the first bias (which the host reshaped to one row) and writes the rectified
  `adj · (x · W1) + b1`; the third multiplies that by `W2`; the fourth reads it with the adjacency and the second bias and
  writes `adj · (h · W2) + b2`, the program's result. Substituting each region's output for the next one's input is the
  network as the specification spells it.
-/
import proofs.«157708_j82497731822002_1_alg».proof.Proof.Ideal.Assembly
import proofs.«157708_j82497731822002_1_alg».proof.Proof.Ideal.Proj1Value
import proofs.«157708_j82497731822002_1_alg».proof.Proof.Ideal.Agg1Value
import proofs.«157708_j82497731822002_1_alg».proof.Proof.Ideal.Proj2Value
import proofs.«157708_j82497731822002_1_alg».proof.Proof.Ideal.Agg2Value
import proofs.«157708_j82497731822002_1_alg».proof.Proof.SpecRows
import Idealize.ShloMosaic.Lib.ValueLayout

noncomputable section

namespace Cert.KernelIdeal.Value

open Cert.KernelIdeal Cert.KernelIdeal.Gen Cert.KernelIdeal.Assembly Cert.GcnSpec
open Idealize.ShloMosaic Idealize.ShloMosaic.ValueIdx Idealize.ShloMosaic.TcCoe Idealize.SL.Sem

variable (m : (ℓ : Loc nD τ sig) → Buf (Elt Ideal) ℓ) (c : Dev nD)

/-- The host's reshape of the first bias to a `1 × 1024` array is the bias as one row. -/
theorem bias_hidden : (V1 m c main_v0 : Mat 1 1024) = asRow (m ((c : Thread nD τ).loc main_arg3)) := by
  rw [V1_main_v0]
  funext i
  obtain ⟨u, q, rfl⟩ : ∃ (u : Fin 1) (q : Fin 1024), i = ix2 u q := ⟨i 0, i 1, eq_ix2 i⟩
  obtain rfl : u = 0 := Subsingleton.elim _ _
  rw [asRow_apply]
  exact shapeCast_a_1a_apply _ _ 0 q

/-- The same of the second bias, to `1 × 256`. -/
theorem bias_out : (V1 m c main_v1 : Mat 1 256) = asRow (m ((c : Thread nD τ).loc main_arg5)) := by
  rw [V1_main_v1]
  funext i
  obtain ⟨u, q, rfl⟩ : ∃ (u : Fin 1) (q : Fin 256), i = ix2 u q := ⟨i 0, i 1, eq_ix2 i⟩
  obtain rfl : u = 0 := Subsingleton.elim _ _
  rw [asRow_apply]
  exact shapeCast_a_1a_apply _ _ 0 q

/-- The result buffer after the run is the network of the six arguments. -/
theorem result_eq :
    o7 (F := Ideal) m c
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [gcn_eq_regions]
  unfold o7
  rw [Agg2Value.out_eq, E4_main_arg1, E4_main_v6, E4_main_v1, bias_out]
  unfold o6
  rw [Proj2Value.out_eq, E3_main_v5, E3_main_arg4]
  unfold o5
  rw [Agg1Value.out_eq, E2_main_arg1, E2_main_v4, E2_main_v0, bias_hidden]
  unfold o4
  rw [Proj1Value.out_eq, E1_main_arg0, E1_main_arg2]

end Cert.KernelIdeal.Value

end
-- ==== Proof.RefValue.lean ====
/-
  The reference program computes the two-layer graph convolution of the specification.

  The reference projects the node features by the first weight matrix, aggregates the projected features over the
  graph with the adjacency matrix, adds the first bias row to every node's row, and takes the maximum with zero;
  then it projects, aggregates and adds the second bias row once more. Read at an entry (p, q), each stage is the
  stage of the specification of the same name: a contraction is the plain sum over the contracted axis, the bias
  broadcast twice reads the row at column q, and the maximum against the zero literal is the rectifier. The
  reference's sums are already whole, so no sum is regrouped and no finiteness is used.
-/
import proofs.«157708_j82497731822002_1_alg».proof.Proof.Gen.ReferenceIdeal.Read
import proofs.«157708_j82497731822002_1_alg».proof.Proof.Spec
import Idealize.ShloMosaic.Lib.ValueIdx
import Idealize.ShloMosaic.PureOps.Ideal.Laws

noncomputable section

namespace Cert.RefValue

open Idealize.ShloMosaic Idealize.ShloMosaic.ValueIdx
open Cert.ReferenceIdeal Cert.ReferenceIdeal.Gen Cert.ReferenceIdeal.Read Cert.GcnSpec

/-! ## Where each contraction reads its operands

At output entry (p, q) and contracted position k, a rows-by-columns product reads its left operand at (p, k) and its
right operand at (k, q). -/

/-- Projecting the features: the left operand (the features) is read at (p, k). -/
theorem project1_left (p : Fin 16384) (q : Fin 1024) (k : Fin 512) : lidx_main_v0 (ix2 p q) k = ix2 p k :=
  funext fun a => by match a with | ⟨0, _⟩ => rfl | ⟨1, _⟩ => rfl
/-- Projecting the features: the right operand (the first weights) is read at (k, q). -/
theorem project1_right (p : Fin 16384) (q : Fin 1024) (k : Fin 512) : ridx_main_v0 (ix2 p q) k = ix2 k q :=
  funext fun a => by match a with | ⟨0, _⟩ => rfl | ⟨1, _⟩ => rfl
/-- Aggregating the projected features: the adjacency is read at (p, k). -/
theorem aggregate1_left (p : Fin 16384) (q : Fin 1024) (k : Fin 16384) : lidx_main_v1 (ix2 p q) k = ix2 p k :=
  funext fun a => by match a with | ⟨0, _⟩ => rfl | ⟨1, _⟩ => rfl
/-- Aggregating the projected features: the projected features are read at (k, q). -/
theorem aggregate1_right (p : Fin 16384) (q : Fin 1024) (k : Fin 16384) : ridx_main_v1 (ix2 p q) k = ix2 k q :=
  funext fun a => by match a with | ⟨0, _⟩ => rfl | ⟨1, _⟩ => rfl
/-- Projecting the hidden features: the hidden features are read at (p, k). -/
theorem project2_left (p : Fin 16384) (q : Fin 256) (k : Fin 1024) : lidx_main_v6 (ix2 p q) k = ix2 p k :=
  funext fun a => by match a with | ⟨0, _⟩ => rfl | ⟨1, _⟩ => rfl
/-- Projecting the hidden features: the second weights are read at (k, q). -/
theorem project2_right (p : Fin 16384) (q : Fin 256) (k : Fin 1024) : ridx_main_v6 (ix2 p q) k = ix2 k q :=
  funext fun a => by match a with | ⟨0, _⟩ => rfl | ⟨1, _⟩ => rfl
/-- Aggregating the projected hidden features: the adjacency is read at (p, k). -/
theorem aggregate2_left (p : Fin 16384) (q : Fin 256) (k : Fin 16384) : lidx_main_v7 (ix2 p q) k = ix2 p k :=
  funext fun a => by match a with | ⟨0, _⟩ => rfl | ⟨1, _⟩ => rfl
/-- Aggregating the projected hidden features: the projected hidden features are read at (k, q). -/
theorem aggregate2_right (p : Fin 16384) (q : Fin 256) (k : Fin 16384) : ridx_main_v7 (ix2 p q) k = ix2 k q :=
  funext fun a => by match a with | ⟨0, _⟩ => rfl | ⟨1, _⟩ => rfl

/-! ## Where each broadcast bias reads its row

A bias row is first given a leading axis of size one and then repeated over the nodes: entry (p, q) of the result is the
row's entry q, whatever the node p. -/

/-- The two broadcasts of the first bias, composed, read the row at column q. -/
theorem bias1_index (p : Fin 16384) (q : Fin 1024) : idx_main_v2 (idx_main_v3 (ix2 p q)) = ix1 q :=
  funext fun a => by match a with | ⟨0, _⟩ => rfl
/-- The two broadcasts of the second bias, composed, read the row at column q. -/
theorem bias2_index (p : Fin 16384) (q : Fin 256) : idx_main_v8 (idx_main_v9 (ix2 p q)) = ix1 q :=
  funext fun a => by match a with | ⟨0, _⟩ => rfl

section stages

variable (x0 : (⟨S16384x512, .f32⟩ : BufTy).Contents (Elt Ideal)) (x1 : (⟨S16384x16384, .f32⟩ : BufTy).Contents (Elt Ideal))
  (x2 : (⟨S512x1024, .f32⟩ : BufTy).Contents (Elt Ideal)) (x3 : (⟨S1024, .f32⟩ : BufTy).Contents (Elt Ideal))
  (x4 : (⟨S1024x256, .f32⟩ : BufTy).Contents (Elt Ideal)) (x5 : (⟨S256, .f32⟩ : BufTy).Contents (Elt Ideal))

/-! ## The first layer -/

/-- The reference's first product is the features times the first weights. -/
theorem project1_eq : val_main_v0 (F := Ideal) x0 x2 = mm x0 x2 := by
  funext i
  obtain ⟨p, q, rfl⟩ : ∃ (p : Fin 16384) (q : Fin 1024), i = ix2 p q := ⟨i 0, i 1, eq_ix2 i⟩
  rw [val_main_v0_apply, mm_apply]
  exact Finset.sum_congr rfl fun k _ => by rw [project1_left, project1_right]

/-- The reference's second product is the adjacency times the projected features. -/
theorem aggregate1_eq : val_main_v1 (F := Ideal) x0 x1 x2 = mm x1 (mm x0 x2) := by
  funext i
  obtain ⟨p, q, rfl⟩ : ∃ (p : Fin 16384) (q : Fin 1024), i = ix2 p q := ⟨i 0, i 1, eq_ix2 i⟩
  rw [val_main_v1_apply, mm_apply, project1_eq]
  exact Finset.sum_congr rfl fun k _ => by rw [aggregate1_left, aggregate1_right]

/-- The first bias, broadcast over the nodes, at entry (p, q) is the row's entry q. -/
theorem bias1_apply (p : Fin 16384) (q : Fin 1024) : val_main_v3 (F := Ideal) x3 (ix2 p q) = x3 (ix1 q) := by
  rw [val_main_v3_apply, val_main_v2_apply, bias1_index]

/-- Before the rectifier the reference holds the first layer of the specification. -/
theorem layer1_eq : val_main_v4 (F := Ideal) x0 x1 x2 x3 = layer x1 x0 x2 x3 := by
  funext i
  obtain ⟨p, q, rfl⟩ : ∃ (p : Fin 16384) (q : Fin 1024), i = ix2 p q := ⟨i 0, i 1, eq_ix2 i⟩
  rw [val_main_v4_apply, aggregate1_eq, bias1_apply, layer_apply, Ideal.addf_def]

/-- The maximum against the broadcast zero literal is the rectifier of the first layer. -/
theorem hidden_eq : val_main_v5 (F := Ideal) x0 x1 x2 x3 = relu (layer x1 x0 x2 x3) := by
  funext i
  rw [val_main_v5_apply, layer1_eq, val_main_call0_v0_apply, val_main_call0_cst_apply, Ideal.maximumf_def,
    Ideal.ofBits_def, Ideal.ofBits_zero_f32]
  rfl

/-! ## The second layer -/

/-- The reference's third product is the hidden features times the second weights. -/
theorem project2_eq : val_main_v6 (F := Ideal) x0 x1 x2 x3 x4 = mm (relu (layer x1 x0 x2 x3)) x4 := by
  funext i
  obtain ⟨p, q, rfl⟩ : ∃ (p : Fin 16384) (q : Fin 256), i = ix2 p q := ⟨i 0, i 1, eq_ix2 i⟩
  rw [val_main_v6_apply, mm_apply, hidden_eq]
  exact Finset.sum_congr rfl fun k _ => by rw [project2_left, project2_right]

/-- The reference's fourth product is the adjacency times the projected hidden features. -/
theorem aggregate2_eq :
    val_main_v7 (F := Ideal) x0 x1 x2 x3 x4 = mm x1 (mm (relu (layer x1 x0 x2 x3)) x4) := by
  funext i
  obtain ⟨p, q, rfl⟩ : ∃ (p : Fin 16384) (q : Fin 256), i = ix2 p q := ⟨i 0, i 1, eq_ix2 i⟩
  rw [val_main_v7_apply, mm_apply, project2_eq]
  exact Finset.sum_congr rfl fun k _ => by rw [aggregate2_left, aggregate2_right]

/-- The second bias, broadcast over the nodes, at entry (p, q) is the row's entry q. -/
theorem bias2_apply (p : Fin 16384) (q : Fin 256) : val_main_v9 (F := Ideal) x5 (ix2 p q) = x5 (ix1 q) := by
  rw [val_main_v9_apply, val_main_v8_apply, bias2_index]

/-- The reference's result is the two-layer graph convolution of the specification
    (arguments in the program's order: features, adjacency, first weights, first bias, second weights, second bias). -/
theorem ref_eq_gcn :
    Cert.ReferenceIdeal.Read.val_main_v10 (F := Ideal) x0 x1 x2 x3 x4 x5 = Cert.GcnSpec.gcn x0 x1 x2 x3 x4 x5 := by
  funext i
  obtain ⟨p, q, rfl⟩ : ∃ (p : Fin 16384) (q : Fin 256), i = ix2 p q := ⟨i 0, i 1, eq_ix2 i⟩
  rw [val_main_v10_apply, aggregate2_eq, bias2_apply, Ideal.addf_def]
  unfold gcn
  rw [layer_apply]

end stages

end Cert.RefValue

end
-- ==== Proof.lean ====
/-
  The certificate of a two-layer graph convolution computed by four tiled matrix-product kernels.

  The kernel program projects the node features (`S1 = x · W1`), aggregates them over the dense adjacency with the
  bias added and the rectifier applied (`h = max (adj · S1 + b1) 0`), projects again (`S2 = h · W2`) and aggregates
  again (`out = adj · S2 + b2`). Each product is computed block by block: the two projections one block of 1024 rows
  per grid point, the two aggregations over sixteen blocks of the contraction axis per row block, summed into an
  accumulator that is cleared at the first block and read out, with the bias (and the rectifier), at the last. The
  reference computes the same four products whole. Over the extended reals a sum does not depend on how it is split into
  blocks, a change of float format is the identity and a product into a zero accumulator is the plain double sum, so the
  two programs end with the same array: `Cert.GcnSpec.gcn` of the six arguments.

  Frames: each kernel region runs to its end from the buffers the item before it left, faults nowhere and writes only
  its own output array; the four regions and the host operations before them are composed in program order, so no
  argument array is written. The word-level program and its idealization share that argument, stated for any value
  family. Nothing was rewritten by the idealization, so that conjunct is trivial.
-/
import proofs.«157708_j82497731822002_1_alg».proof.Defs
import proofs.«157708_j82497731822002_1_alg».proof.Proof.Gen.Kernel
import proofs.«157708_j82497731822002_1_alg».proof.Proof.Gen.KernelIdeal
import proofs.«157708_j82497731822002_1_alg».proof.Proof.Gen.ReferenceIdeal
import proofs.«157708_j82497731822002_1_alg».proof.Proof.Gen.Pre_finite_inputs
import proofs.«157708_j82497731822002_1_alg».proof.Proof.Gen.ReferenceIdeal.Run
import proofs.«157708_j82497731822002_1_alg».proof.Proof.Gen.ReferenceIdeal.Read
import proofs.«157708_j82497731822002_1_alg».proof.Proof.Bits.Assembly
import proofs.«157708_j82497731822002_1_alg».proof.Proof.Ideal.Assembly
import proofs.«157708_j82497731822002_1_alg».proof.Proof.Ideal.Value
import proofs.«157708_j82497731822002_1_alg».proof.Proof.RefValue
import Idealize.ShloMosaic.Adequacy
import Idealize.ShloMosaic.Init

noncomputable section

namespace Cert.Proof

open Idealize.ShloMosaic Idealize.SL.Sem

/-- The word-level kernel program runs and leaves its arguments as launched: its four regions composed, the result
    dropped. -/
theorem frame_kernel : Cert.frame_Kernel := fun m ρ _ =>
  (θ_run Cert.Kernel.defs _ _).mono (fun _ h c => (h c).2) (Cert.Kernel.Assembly.run_all (F := Bits) m ρ)

/-- The same of the idealized kernel program. -/
theorem frame_kernelIdeal : Cert.frame_KernelIdeal := fun m ρ _ =>
  (θ_run Cert.KernelIdeal.defs _ _).mono (fun _ h c => (h c).2) (Cert.KernelIdeal.Assembly.run_all (F := Ideal) m ρ)

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the two-layer network of their arguments: the kernel's four regions read block by block and
    regrouped, the reference's operations read one at a time. -/
theorem algebraic : Cert.algebraic_KernelIdeal_ReferenceIdeal := by
  intro m ρ m' ρ' _ hagree
  refine ⟨fun c => Cert.KernelIdeal.Assembly.o7 (F := Ideal) m c, Cert.KernelIdeal.Assembly.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefValue.ref_eq_gcn, (hagree c).1, (hagree c).2.1, (hagree c).2.2.1,
    (hagree c).2.2.2.1, (hagree c).2.2.2.2.1, (hagree c).2.2.2.2.2]
  exact (Cert.KernelIdeal.Value.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
